-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1048576x16x2 : Shape := ⟨3, ![1048576, 16, 2]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1048576x16x2 : S_.BroadcastsInDim S1048576x16x2 (![] : Fin 0 → Fin S1048576x16x2.rank)
  reducesTo_S1048576x16x2_S_d0_1_2 : S1048576x16x2.ReducesTo [0, 1, 2] S_

variable [Facts]

def fn {F : FTy → Type} [FloatOps F] (main_arg0 : FVec F S16x1024x1024 .f32) (main_arg1 : FVec F S1048576x16x2 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1048576x16x2 .f32 := Host.absf main_arg1
  let main_cst_0 : FVec F S_ .f32 := constant S_ .f32 0x7F800000#32
  let main_v5 : FVec F S1048576x16x2 .f32 := broadcastInDim S1048576x16x2 ![] bcast_S_S1048576x16x2 main_cst_0
  let main_v6 : IVec S1048576x16x2 1 := cmpf .olt main_v4 main_v5
  let main_c_1 : IVec S_ 1 := constantI S_ 1 1#1
  let main_v7 : IVec S_ 1 := (fun x v => Host.reduce IntOp.andi x v reducesTo_S1048576x16x2_S_d0_1_2 h_S_) main_v6 main_c_1
  let main_v8 : IVec S_ 1 := andi main_v3 main_v7
  main_v8
-- ==== Kernel.lean ====
abbrev S16x1024x1024 : Shape := ⟨3, ![16, 1024, 1024]⟩
abbrev S1048576x16x2 : Shape := ⟨3, ![1048576, 16, 2]⟩
abbrev S1048576x16 : Shape := ⟨2, ![1048576, 16]⟩
abbrev S256x16x2 : Shape := ⟨3, ![256, 16, 2]⟩
abbrev S256x16 : Shape := ⟨2, ![256, 16]⟩
abbrev S256x1024 : Shape := ⟨2, ![256, 1024]⟩
abbrev S256x1x2 : Shape := ⟨3, ![256, 1, 2]⟩
abbrev S256x2 : Shape := ⟨2, ![256, 2]⟩
abbrev S256x1 : Shape := ⟨2, ![256, 1]⟩
abbrev S1x1024x1024 : Shape := ⟨3, ![1, 1024, 1024]⟩
abbrev S1024x1024 : Shape := ⟨2, ![1024, 1024]⟩
abbrev S256 : Shape := ⟨1, ![256]⟩

abbrev nBuf : Space → Nat
  | .hbm => 4
  | .vmem => 5
  | .smem => 0
  | _ => 0

abbrev bufTy : (tb : Table) → Fin (tcTables nBuf tb) → BufTy
  | .hbm, ⟨0, _⟩ => ⟨S16x1024x1024, .f32⟩
  | .hbm, ⟨1, _⟩ => ⟨S1048576x16x2, .f32⟩
  | .hbm, ⟨2, _⟩ => ⟨S16x1024x1024, .bf16⟩
  | .hbm, ⟨3, _⟩ => ⟨S1048576x16, .f32⟩
  | .local _ .vmem, ⟨0, _⟩ => ⟨S256x16x2, .f32⟩
  | .local _ .vmem, ⟨1, _⟩ => ⟨S256x16x2, .f32⟩
  | .local _ .vmem, ⟨2, _⟩ => ⟨S16x1024x1024, .bf16⟩
  | .local _ .vmem, ⟨3, _⟩ => ⟨S256x16, .f32⟩
  | .local _ .vmem, ⟨4, _⟩ => ⟨S256x16, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4096], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x16x2_S256x16x2_0_0_0 : ∀ a, (![0, 0, 0] : Fin 3 → Nat) a + S256x16x2.size a ≤ S256x16x2.size a
  h_S256x16x2 : 0 < S256x16x2.numel
  iota_S256x1024_d1_w32 : S256x1024.Iotas .tc 32 [1]
  slices_S256x16x2_o0_0_0_S256x1x2 : S256x16x2.Slices ![0, 0, 0] S256x1x2
  shapeCasts_S256x1x2_S256x2 : S256x1x2.ShapeCasts S256x2
  slices_S256x2_o0_0_S256x1 : S256x2.Slices ![0, 0] S256x1
  slices_S256x2_o0_1_S256x1 : S256x2.Slices ![0, 1] S256x1
  broadcasts_S256x1_S256x1024 : S256x1.Broadcasts S256x1024
  shapeCasts_S256x1_S256x1 : S256x1.ShapeCasts S256x1
  inb_S16x1024x1024_S1x1024x1024_0_0_0 : ∀ a, (![0, 0, 0] : Fin 3 → Nat) a + S1x1024x1024.size a ≤ S16x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  inb_S256x16_S256x1_0_0 : ∀ a, (![0, 0] : Fin 2 → Nat) a + S256x1.size a ≤ S256x16.size a
  h_S256x1 : 0 < S256x1.numel
  slices_S256x16x2_o0_1_0_S256x1x2 : S256x16x2.Slices ![0, 1, 0] S256x1x2
  inb_S16x1024x1024_S1x1024x1024_1_0_0 : ∀ a, (![1, 0, 0] : Fin 3 → Nat) a + S1x1024x1024.size a ≤ S16x1024x1024.size a
  inb_S256x16_S256x1_0_1 : ∀ a, (![0, 1] : Fin 2 → Nat) a + S256x1.size a ≤ S256x16.size a
  slices_S256x16x2_o0_2_0_S256x1x2 : S256x16x2.Slices ![0, 2, 0] S256x1x2
  inb_S16x1024x1024_S1x1024x1024_2_0_0 : ∀ a, (![2, 0, 0] : Fin 3 → Nat) a + S1x1024x1024.size a ≤ S16x1024x1024.size a
  inb_S256x16_S256x1_0_2 : ∀ a, (![0, 2] : Fin 2 → Nat) a + S256x1.size a ≤ S256x16.size a
  slices_S256x16x2_o0_3_0_S256x1x2 : S256x16x2.Slices ![0, 3, 0] S256x1x2
  inb_S16x1024x1024_S1x1024x1024_3_0_0 : ∀ a, (![3, 0, 0] : Fin 3 → Nat) a + S1x1024x1024.size a ≤ S16x1024x1024.size a
  inb_S256x16_S256x1_0_3 : ∀ a, (![0, 3] : Fin 2 → Nat) a + S256x1.size a ≤ S256x16.size a
  slices_S256x16x2_o0_4_0_S256x1x2 : S256x16x2.Slices ![0, 4, 0] S256x1x2
  inb_S16x1024x1024_S1x1024x1024_4_0_0 : ∀ a, (![4, 0, 0] : Fin 3 → Nat) a + S1x1024x1024.size a ≤ S16x1024x1024.size a
  inb_S256x16_S256x1_0_4 : ∀ a, (![0, 4] : Fin 2 → Nat) a + S256x1.size a ≤ S256x16.size a
  slices_S256x16x2_o0_5_0_S256x1x2 : S256x16x2.Slices ![0, 5, 0] S256x1x2
  inb_S16x1024x1024_S1x1024x1024_5_0_0 : ∀ a, (![5, 0, 0] : Fin 3 → Nat) a + S1x1024x1024.size a ≤ S16x1024x1024.size a
  inb_S256x16_S256x1_0_5 : ∀ a, (![0, 5] : Fin 2 → Nat) a + S256x1.size a ≤ S256x16.size a
  slices_S256x16x2_o0_6_0_S256x1x2 : S256x16x2.Slices ![0, 6, 0] S256x1x2
  inb_S16x1024x1024_S1x1024x1024_6_0_0 : ∀ a, (![6, 0, 0] : Fin 3 → Nat) a + S1x1024x1024.size a ≤ S16x1024x1024.size a
  inb_S256x16_S256x1_0_6 : ∀ a, (![0, 6] : Fin 2 → Nat) a + S256x1.size a ≤ S256x16.size a
  slices_S256x16x2_o0_7_0_S256x1x2 : S256x16x2.Slices ![0, 7, 0] S256x1x2
  inb_S16x1024x1024_S1x1024x1024_7_0_0 : ∀ a, (![7, 0, 0] : Fin 3 → Nat) a + S1x1024x1024.size a ≤ S16x1024x1024.size a
  inb_S256x16_S256x1_0_7 : ∀ a, (![0, 7] : Fin 2 → Nat) a + S256x1.size a ≤ S256x16.size a
  slices_S256x16x2_o0_8_0_S256x1x2 : S256x16x2.Slices ![0, 8, 0] S256x1x2
  inb_S16x1024x1024_S1x1024x1024_8_0_0 : ∀ a, (![8, 0, 0] : Fin 3 → Nat) a + S1x1024x1024.size a ≤ S16x1024x1024.size a
  inb_S256x16_S256x1_0_8 : ∀ a, (![0, 8] : Fin 2 → Nat) a + S256x1.size a ≤ S256x16.size a
  slices_S256x16x2_o0_9_0_S256x1x2 : S256x16x2.Slices ![0, 9, 0] S256x1x2
  inb_S16x1024x1024_S1x1024x1024_9_0_0 : ∀ a, (![9, 0, 0] : Fin 3 → Nat) a + S1x1024x1024.size a ≤ S16x1024x1024.size a
  inb_S256x16_S256x1_0_9 : ∀ a, (![0, 9] : Fin 2 → Nat) a + S256x1.size a ≤ S256x16.size a
  slices_S256x16x2_o0_10_0_S256x1x2 : S256x16x2.Slices ![0, 10, 0] S256x1x2
  inb_S16x1024x1024_S1x1024x1024_10_0_0 : ∀ a, (![10, 0, 0] : Fin 3 → Nat) a + S1x1024x1024.size a ≤ S16x1024x1024.size a
  inb_S256x16_S256x1_0_10 : ∀ a, (![0, 10] : Fin 2 → Nat) a + S256x1.size a ≤ S256x16.size a
  slices_S256x16x2_o0_11_0_S256x1x2 : S256x16x2.Slices ![0, 11, 0] S256x1x2
  inb_S16x1024x1024_S1x1024x1024_11_0_0 : ∀ a, (![11, 0, 0] : Fin 3 → Nat) a + S1x1024x1024.size a ≤ S16x1024x1024.size a
  inb_S256x16_S256x1_0_11 : ∀ a, (![0, 11] : Fin 2 → Nat) a + S256x1.size a ≤ S256x16.size a
  slices_S256x16x2_o0_12_0_S256x1x2 : S256x16x2.Slices ![0, 12, 0] S256x1x2
  inb_S16x1024x1024_S1x1024x1024_12_0_0 : ∀ a, (![12, 0, 0] : Fin 3 → Nat) a + S1x1024x1024.size a ≤ S16x1024x1024.size a
  inb_S256x16_S256x1_0_12 : ∀ a, (![0, 12] : Fin 2 → Nat) a + S256x1.size a ≤ S256x16.size a
  slices_S256x16x2_o0_13_0_S256x1x2 : S256x16x2.Slices ![0, 13, 0] S256x1x2
  inb_S16x1024x1024_S1x1024x1024_13_0_0 : ∀ a, (![13, 0, 0] : Fin 3 → Nat) a + S1x1024x1024.size a ≤ S16x1024x1024.size a
  inb_S256x16_S256x1_0_13 : ∀ a, (![0, 13] : Fin 2 → Nat) a + S256x1.size a ≤ S256x16.size a
  slices_S256x16x2_o0_14_0_S256x1x2 : S256x16x2.Slices ![0, 14, 0] S256x1x2
  inb_S16x1024x1024_S1x1024x1024_14_0_0 : ∀ a, (![14, 0, 0] : Fin 3 → Nat) a + S1x1024x1024.size a ≤ S16x1024x1024.size a
  inb_S256x16_S256x1_0_14 : ∀ a, (![0, 14] : Fin 2 → Nat) a + S256x1.size a ≤ S256x16.size a
  slices_S256x16x2_o0_15_0_S256x1x2 : S256x16x2.Slices ![0, 15, 0] S256x1x2
  inb_S16x1024x1024_S1x1024x1024_15_0_0 : ∀ a, (![15, 0, 0] : Fin 3 → Nat) a + S1x1024x1024.size a ≤ S16x1024x1024.size a
  inb_S256x16_S256x1_0_15 : ∀ a, (![0, 15] : Fin 2 → Nat) a + S256x1.size a ≤ S256x16.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x2.size a ≤ S1048576x16x2.size a
  hwx0_0 : ∀ i : grid0.Coords, EltTy.bits .f32 = 32 ∨ (Rect.block (s := S1048576x16x2) S256x16x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024x1024.size a ≤ S16x1024x1024.size a
  hwx0_1 : ∀ i : grid0.Coords, EltTy.bits .bf16 = 32 ∨ (Rect.block (s := S16x1024x1024) S16x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S1048576x16.size a
  hwx0_2 : ∀ i : grid0.Coords, EltTy.bits .f32 = 32 ∨ (Rect.block (s := S1048576x16) S256x16.size (cc0_transform_2 i) (hinb0_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg1) S256x16x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1048576x16x2 : Shape := ⟨3, ![1048576, 16, 2]⟩
abbrev S1048576x16x1 : Shape := ⟨3, ![1048576, 16, 1]⟩
abbrev S1048576x16 : Shape := ⟨2, ![1048576, 16]⟩
abbrev S_ : Shape := ⟨0, ![]⟩
abbrev S16 : Shape := ⟨1, ![16]⟩
abbrev S1x16 : Shape := ⟨2, ![1, 16]⟩
abbrev S1048576x16x3 : Shape := ⟨3, ![1048576, 16, 3]⟩

abbrev nBuf : Space → Nat
  | .hbm => 233
  | .vmem => 0
  | .smem => 0
  | _ => 0

abbrev hbmTy0_0 (i : Nat) : BufTy := match i % 128 with
  | 0 => ⟨S16x1024x1024, .f32⟩
  | 1 => ⟨S1048576x16x2, .f32⟩
  | 2 => ⟨S1048576x16x1, .f32⟩
  | 3 => ⟨S1048576x16, .f32⟩
  | 4 => ⟨S_, .f32⟩
  | 5 => ⟨S1048576x16, .f32⟩
  | 6 => ⟨S1048576x16, .f32⟩
  | 7 => ⟨S1048576x16x1, .f32⟩
  | 8 => ⟨S1048576x16, .f32⟩
  | 9 => ⟨S_, .f32⟩
  | 10 => ⟨S1048576x16, .f32⟩
  | 11 => ⟨S1048576x16, .f32⟩
  | 12 => ⟨S1048576x16, .f32⟩
  | 13 => ⟨S1048576x16, .f32⟩
  | 14 => ⟨S1048576x16, .f32⟩
  | 15 => ⟨S1048576x16, .f32⟩
  | 16 => ⟨S1048576x16, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S1048576x16, .i32⟩
  | 24 => ⟨S1048576x16, .i32⟩
  | 25 => ⟨S_, .i32⟩
  | 26 => ⟨S1048576x16, .i32⟩
  | 27 => ⟨S1048576x16, .i1⟩
  | 28 => ⟨S_, .i32⟩
  | 29 => ⟨S1048576x16, .i32⟩
  | 30 => ⟨S1048576x16, .i1⟩
  | 31 => ⟨S_, .i32⟩
  | 32 => ⟨S_, .i1⟩
  | 33 => ⟨S1048576x16, .i1⟩
  | 34 => ⟨S1048576x16, .i1⟩
  | 35 => ⟨S1048576x16, .i1⟩
  | 36 => ⟨S1048576x16, .i32⟩
  | 37 => ⟨S1048576x16, .i32⟩
  | 38 => ⟨S1048576x16, .i32⟩
  | 39 => ⟨S1048576x16, .i32⟩
  | 40 => ⟨S_, .i32⟩
  | 41 => ⟨S1048576x16, .i32⟩
  | 42 => ⟨S1048576x16, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S1048576x16, .i32⟩
  | 50 => ⟨S1048576x16, .i32⟩
  | 51 => ⟨S_, .i32⟩
  | 52 => ⟨S1048576x16, .i32⟩
  | 53 => ⟨S1048576x16, .i1⟩
  | 54 => ⟨S_, .i32⟩
  | 55 => ⟨S1048576x16, .i32⟩
  | 56 => ⟨S1048576x16, .i1⟩
  | 57 => ⟨S_, .i32⟩
  | 58 => ⟨S_, .i1⟩
  | 59 => ⟨S1048576x16, .i1⟩
  | 60 => ⟨S1048576x16, .i1⟩
  | 61 => ⟨S1048576x16, .i1⟩
  | 62 => ⟨S1048576x16, .i32⟩
  | 63 => ⟨S1048576x16, .i32⟩
  | 64 => ⟨S1048576x16, .i32⟩
  | 65 => ⟨S1048576x16, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S1048576x16, .i32⟩
  | 73 => ⟨S1048576x16, .i32⟩
  | 74 => ⟨S_, .i32⟩
  | 75 => ⟨S1048576x16, .i32⟩
  | 76 => ⟨S1048576x16, .i1⟩
  | 77 => ⟨S_, .i32⟩
  | 78 => ⟨S1048576x16, .i32⟩
  | 79 => ⟨S1048576x16, .i1⟩
  | 80 => ⟨S_, .i32⟩
  | 81 => ⟨S_, .i1⟩
  | 82 => ⟨S1048576x16, .i1⟩
  | 83 => ⟨S1048576x16, .i1⟩
  | 84 => ⟨S1048576x16, .i1⟩
  | 85 => ⟨S1048576x16, .i32⟩
  | 86 => ⟨S1048576x16, .i32⟩
  | 87 => ⟨S1048576x16, .i32⟩
  | 88 => ⟨S1048576x16, .i32⟩
  | 89 => ⟨S_, .i32⟩
  | 90 => ⟨S1048576x16, .i32⟩
  | 91 => ⟨S1048576x16, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S1048576x16, .i32⟩
  | 99 => ⟨S1048576x16, .i32⟩
  | 100 => ⟨S_, .i32⟩
  | 101 => ⟨S1048576x16, .i32⟩
  | 102 => ⟨S1048576x16, .i1⟩
  | 103 => ⟨S_, .i32⟩
  | 104 => ⟨S1048576x16, .i32⟩
  | 105 => ⟨S1048576x16, .i1⟩
  | 106 => ⟨S_, .i32⟩
  | 107 => ⟨S_, .i1⟩
  | 108 => ⟨S1048576x16, .i1⟩
  | 109 => ⟨S1048576x16, .i1⟩
  | 110 => ⟨S1048576x16, .i1⟩
  | 111 => ⟨S1048576x16, .i32⟩
  | 112 => ⟨S1048576x16, .i32⟩
  | 113 => ⟨S1048576x16, .i32⟩
  | 114 => ⟨S16, .i32⟩
  | 115 => ⟨S1x16, .i32⟩
  | 116 => ⟨S_, .i32⟩
  | 117 => ⟨S1x16, .i32⟩
  | 118 => ⟨S1x16, .i1⟩
  | 119 => ⟨S_, .i32⟩
  | 120 => ⟨S1x16, .i32⟩
  | 121 => ⟨S1x16, .i32⟩
  | 122 => ⟨S1x16, .i32⟩
  | 123 => ⟨S_, .i32⟩
  | 124 => ⟨S1048576x16, .i32⟩
  | 125 => ⟨S1048576x16, .i1⟩
  | 126 => ⟨S_, .i32⟩
  | 127 => ⟨S1048576x16, .i32⟩
  | _ => ⟨S16x1024x1024, .f32⟩

abbrev hbmTy0_1 (i : Nat) : BufTy := match i % 128 with
  | 0 => ⟨S1048576x16, .i32⟩
  | 1 => ⟨S1048576x16, .i32⟩
  | 2 => ⟨S_, .i32⟩
  | 3 => ⟨S1048576x16, .i32⟩
  | 4 => ⟨S1048576x16, .i1⟩
  | 5 => ⟨S_, .i32⟩
  | 6 => ⟨S1048576x16, .i32⟩
  | 7 => ⟨S1048576x16, .i32⟩
  | 8 => ⟨S1048576x16, .i32⟩
  | 9 => ⟨S1048576x16, .i32⟩
  | 10 => ⟨S1048576x16x1, .i32⟩
  | 11 => ⟨S1048576x16x1, .i32⟩
  | 12 => ⟨S1048576x16x1, .i32⟩
  | 13 => ⟨S1048576x16x3, .i32⟩
  | 14 => ⟨S1048576x16, .f32⟩
  | 15 => ⟨S_, .i32⟩
  | 16 => ⟨S1x16, .i32⟩
  | 17 => ⟨S1x16, .i1⟩
  | 18 => ⟨S_, .i32⟩
  | 19 => ⟨S1x16, .i32⟩
  | 20 => ⟨S1x16, .i32⟩
  | 21 => ⟨S1x16, .i32⟩
  | 22 => ⟨S_, .i32⟩
  | 23 => ⟨S1048576x16, .i32⟩
  | 24 => ⟨S1048576x16, .i1⟩
  | 25 => ⟨S_, .i32⟩
  | 26 => ⟨S1048576x16, .i32⟩
  | 27 => ⟨S1048576x16, .i32⟩
  | 28 => ⟨S1048576x16, .i32⟩
  | 29 => ⟨S_, .i32⟩
  | 30 => ⟨S1048576x16, .i32⟩
  | 31 => ⟨S1048576x16, .i1⟩
  | 32 => ⟨S_, .i32⟩
  | 33 => ⟨S1048576x16, .i32⟩
  | 34 => ⟨S1048576x16, .i32⟩
  | 35 => ⟨S1048576x16, .i32⟩
  | 36 => ⟨S1048576x16, .i32⟩
  | 37 => ⟨S1048576x16x1, .i32⟩
  | 38 => ⟨S1048576x16x1, .i32⟩
  | 39 => ⟨S1048576x16x1, .i32⟩
  | 40 => ⟨S1048576x16x3, .i32⟩
  | 41 => ⟨S1048576x16, .f32⟩
  | 42 => ⟨S_, .i32⟩
  | 43 => ⟨S1x16, .i32⟩
  | 44 => ⟨S1x16, .i1⟩
  | 45 => ⟨S_, .i32⟩
  | 46 => ⟨S1x16, .i32⟩
  | 47 => ⟨S1x16, .i32⟩
  | 48 => ⟨S1x16, .i32⟩
  | 49 => ⟨S_, .i32⟩
  | 50 => ⟨S1048576x16, .i32⟩
  | 51 => ⟨S1048576x16, .i1⟩
  | 52 => ⟨S_, .i32⟩
  | 53 => ⟨S1048576x16, .i32⟩
  | 54 => ⟨S1048576x16, .i32⟩
  | 55 => ⟨S1048576x16, .i32⟩
  | 56 => ⟨S_, .i32⟩
  | 57 => ⟨S1048576x16, .i32⟩
  | 58 => ⟨S1048576x16, .i1⟩
  | 59 => ⟨S_, .i32⟩
  | 60 => ⟨S1048576x16, .i32⟩
  | 61 => ⟨S1048576x16, .i32⟩
  | 62 => ⟨S1048576x16, .i32⟩
  | 63 => ⟨S1048576x16, .i32⟩
  | 64 => ⟨S1048576x16x1, .i32⟩
  | 65 => ⟨S1048576x16x1, .i32⟩
  | 66 => ⟨S1048576x16x1, .i32⟩
  | 67 => ⟨S1048576x16x3, .i32⟩
  | 68 => ⟨S1048576x16, .f32⟩
  | 69 => ⟨S_, .i32⟩
  | 70 => ⟨S1x16, .i32⟩
  | 71 => ⟨S1x16, .i1⟩
  | 72 => ⟨S_, .i32⟩
  | 73 => ⟨S1x16, .i32⟩
  | 74 => ⟨S1x16, .i32⟩
  | 75 => ⟨S1x16, .i32⟩
  | 76 => ⟨S_, .i32⟩
  | 77 => ⟨S1048576x16, .i32⟩
  | 78 => ⟨S1048576x16, .i1⟩
  | 79 => ⟨S_, .i32⟩
  | 80 => ⟨S1048576x16, .i32⟩
  | 81 => ⟨S1048576x16, .i32⟩
  | 82 => ⟨S1048576x16, .i32⟩
  | 83 => ⟨S_, .i32⟩
  | 84 => ⟨S1048576x16, .i32⟩
  | 85 => ⟨S1048576x16, .i1⟩
  | 86 => ⟨S_, .i32⟩
  | 87 => ⟨S1048576x16, .i32⟩
  | 88 => ⟨S1048576x16, .i32⟩
  | 89 => ⟨S1048576x16, .i32⟩
  | 90 => ⟨S1048576x16, .i32⟩
  | 91 => ⟨S1048576x16x1, .i32⟩
  | 92 => ⟨S1048576x16x1, .i32⟩
  | 93 => ⟨S1048576x16x1, .i32⟩
  | 94 => ⟨S1048576x16x3, .i32⟩
  | 95 => ⟨S1048576x16, .f32⟩
  | 96 => ⟨S1048576x16, .f32⟩
  | 97 => ⟨S1048576x16, .f32⟩
  | 98 => ⟨S1048576x16, .f32⟩
  | 99 => ⟨S1048576x16, .f32⟩
  | 100 => ⟨S1048576x16, .f32⟩
  | 101 => ⟨S1048576x16, .f32⟩
  | 102 => ⟨S1048576x16, .f32⟩
  | 103 => ⟨S1048576x16, .f32⟩
  | 104 => ⟨S1048576x16, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v17 : Ref sig .tc := ⟨.hbm, 64, rfl⟩
abbrev main_v18 : Ref sig .tc := ⟨.hbm, 65, rfl⟩
abbrev main_c_3 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v19 : Ref sig .tc := ⟨.hbm, 87, rfl⟩
abbrev main_v20 : Ref sig .tc := ⟨.hbm, 88, rfl⟩
abbrev main_c_4 : Ref sig .tc := ⟨.hbm, 89, rfl⟩
abbrev main_v21 : Ref sig .tc := ⟨.hbm, 90, rfl⟩
abbrev main_v22 : Ref sig .tc := ⟨.hbm, 91, rfl⟩
abbrev main_c_5 : Ref sig .tc := ⟨.hbm, 92, rfl⟩
abbrev main_call3_v0 : Ref sig .tc := ⟨.hbm, 93, rfl⟩
abbrev main_call3_c : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_c_1 : Ref sig .tc := ⟨.hbm, 100, rfl⟩
abbrev main_call3_v5 : Ref sig .tc := ⟨.hbm, 101, rfl⟩
abbrev main_call3_v6 : Ref sig .tc := ⟨.hbm, 102, rfl⟩
abbrev main_call3_c_2 : Ref sig .tc := ⟨.hbm, 103, rfl⟩
abbrev main_call3_v7 : Ref sig .tc := ⟨.hbm, 104, rfl⟩
abbrev main_call3_v8 : Ref sig .tc := ⟨.hbm, 105, rfl⟩
abbrev main_call3_c_3 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_c_6 : Ref sig .tc := ⟨.hbm, 116, rfl⟩
abbrev main_v26 : Ref sig .tc := ⟨.hbm, 117, rfl⟩
abbrev main_v27 : Ref sig .tc := ⟨.hbm, 118, rfl⟩
abbrev main_c_7 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_c_8 : Ref sig .tc := ⟨.hbm, 123, rfl⟩
abbrev main_v31 : Ref sig .tc := ⟨.hbm, 124, rfl⟩
abbrev main_v32 : Ref sig .tc := ⟨.hbm, 125, rfl⟩
abbrev main_c_9 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_c_10 : Ref sig .tc := ⟨.hbm, 130, rfl⟩
abbrev main_v36 : Ref sig .tc := ⟨.hbm, 131, rfl⟩
abbrev main_v37 : Ref sig .tc := ⟨.hbm, 132, rfl⟩
abbrev main_c_11 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_c_12 : Ref sig .tc := ⟨.hbm, 143, rfl⟩
abbrev main_v47 : Ref sig .tc := ⟨.hbm, 144, rfl⟩
abbrev main_v48 : Ref sig .tc := ⟨.hbm, 145, rfl⟩
abbrev main_c_13 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_c_14 : Ref sig .tc := ⟨.hbm, 150, rfl⟩
abbrev main_v52 : Ref sig .tc := ⟨.hbm, 151, rfl⟩
abbrev main_v53 : Ref sig .tc := ⟨.hbm, 152, rfl⟩
abbrev main_c_15 : Ref sig .tc := ⟨.hbm, 153, rfl⟩
abbrev main_v54 : Ref sig .tc := ⟨.hbm, 154, rfl⟩
abbrev main_v55 : Ref sig .tc := ⟨.hbm, 155, rfl⟩
abbrev main_v56 : Ref sig .tc := ⟨.hbm, 156, rfl⟩
abbrev main_c_16 : Ref sig .tc := ⟨.hbm, 157, rfl⟩
abbrev main_v57 : Ref sig .tc := ⟨.hbm, 158, rfl⟩
abbrev main_v58 : Ref sig .tc := ⟨.hbm, 159, rfl⟩
abbrev main_c_17 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_c_18 : Ref sig .tc := ⟨.hbm, 170, rfl⟩
abbrev main_v68 : Ref sig .tc := ⟨.hbm, 171, rfl⟩
abbrev main_v69 : Ref sig .tc := ⟨.hbm, 172, rfl⟩
abbrev main_c_19 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_c_20 : Ref sig .tc := ⟨.hbm, 177, rfl⟩
abbrev main_v73 : Ref sig .tc := ⟨.hbm, 178, rfl⟩
abbrev main_v74 : Ref sig .tc := ⟨.hbm, 179, rfl⟩
abbrev main_c_21 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_c_22 : Ref sig .tc := ⟨.hbm, 184, rfl⟩
abbrev main_v78 : Ref sig .tc := ⟨.hbm, 185, rfl⟩
abbrev main_v79 : Ref sig .tc := ⟨.hbm, 186, rfl⟩
abbrev main_c_23 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_c_24 : Ref sig .tc := ⟨.hbm, 197, rfl⟩
abbrev main_v89 : Ref sig .tc := ⟨.hbm, 198, rfl⟩
abbrev main_v90 : Ref sig .tc := ⟨.hbm, 199, rfl⟩
abbrev main_c_25 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_c_26 : Ref sig .tc := ⟨.hbm, 204, rfl⟩
abbrev main_v94 : Ref sig .tc := ⟨.hbm, 205, rfl⟩
abbrev main_v95 : Ref sig .tc := ⟨.hbm, 206, rfl⟩
abbrev main_c_27 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_c_28 : Ref sig .tc := ⟨.hbm, 211, rfl⟩
abbrev main_v99 : Ref sig .tc := ⟨.hbm, 212, rfl⟩
abbrev main_v100 : Ref sig .tc := ⟨.hbm, 213, rfl⟩
abbrev main_c_29 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩

abbrev nD : Nat := 1
abbrev τ : Topo := Topo.v7x

variable {F : FTy → Type} [FloatOps F]

class Facts₀ : Prop where
  slices_S1048576x16x2_S1048576x16x1_0_0_0 : S1048576x16x2.Slices ![0, 0, 0] S1048576x16x1
  shapeCasts_S1048576x16x1_S1048576x16 : S1048576x16x1.ShapeCasts S1048576x16
  bcast_S_S1048576x16 : S_.BroadcastsInDim S1048576x16 (![] : Fin 0 → Fin S1048576x16.rank)
  slices_S1048576x16x2_S1048576x16x1_0_0_1 : S1048576x16x2.Slices ![0, 0, 1] S1048576x16x1
  bcast_S16_S1x16_1 : S16.BroadcastsInDim S1x16 (![1] : Fin 1 → Fin S1x16.rank)
  bcast_S_S1x16 : S_.BroadcastsInDim S1x16 (![] : Fin 0 → Fin S1x16.rank)
  bcast_S1x16_S1048576x16_0_1 : S1x16.BroadcastsInDim S1048576x16 (![0, 1] : Fin 2 → Fin S1048576x16.rank)
  bcast_S1048576x16_S1048576x16x1_0_1 : S1048576x16.BroadcastsInDim S1048576x16x1 (![0, 1] : Fin 2 → Fin S1048576x16x1.rank)
  concatenates_S1048576x16x1_S1048576x16x1_S1048576x16x1_S1048576x16x3_d2 : Shape.Concatenates [S1048576x16x1, S1048576x16x1, S1048576x16x1] S1048576x16x3 2
  gather_S16x1024x1024_S1048576x16x3_S1048576x16_n_012_n_n_012_2_111_wf : GatherDims.WF S16x1024x1024 S1048576x16x3 S1048576x16 [] [0, 1, 2] [] [0, 1, 2] [] 2 ![1, 1, 1]

variable [Facts₀]

def gather_S16x1024x1024_S1048576x16x3_S1048576x16_n_012_n_n_012_2_111 : GatherDims S16x1024x1024 S1048576x16x3 S1048576x16 where
  offsetDims := []
  collapsedSliceDims := [0, 1, 2]
  operandBatchingDims := []
  startIndicesBatchingDims := []
  startIndexMap := [0, 1, 2]
  indexVectorDim := 2
  sliceSizes := ![1, 1, 1]
  wf := gather_S16x1024x1024_S1048576x16x3_S1048576x16_n_012_n_n_012_2_111_wf

class Facts : Prop extends Facts₀ where

variable [Facts]
-- ==== Proof.KerChain.lean ====
/-
  The kernel body computes the sixteen columns of its output block by one and the same chain of vector
  operations, applied to plane f's coordinate pairs and plane f's image: `column`. What the body leaves in the
  output window's buffer is therefore sixteen one-column pieces, each `column` of its plane's pair of operands.
-/
import proofs.«154458_j27539330302294_1_alg».proof.Proof.Gen.KernelIdeal.Frame

set_option maxRecDepth 16384

noncomputable section

namespace Cert.KernelIdeal.Sample

open Idealize.ShloMosaic Idealize.SL.Sem Cert.KernelIdeal Cert.KernelIdeal.Gen

variable {F : FTy → Type} [FloatOps F]

/-- One output column from a block of 256 coordinate pairs `xy` (column 0 the x coordinate, column 1 the y
    coordinate) and one image plane: shift both coordinates by one half, take floors and fractional parts, wrap the
    integer cells and their successors to ten bits; build for each point the row-blend vector over the 1024 rows
    (one minus the y fraction at the cell's row, the y fraction at the next row, zero elsewhere), multiply it into
    the plane, weigh the resulting row by the column-blend vector built likewise from x, and sum along the row. -/
def column (xy : FVec F S256x2 .f32) (img : Vec F S1x1024x1024 .bf16) : FVec F S256x1 .f32 :=
  have v1 : IVec S256x1024 32 := iota .tc S256x1024 32 [1] iota_S256x1024_d1_w32
  have v4 : FVec F S256x1 .f32 := extractStridedSlice S256x1 ![0, 0] xy slices_S256x2_o0_0_S256x1
  have v6 : FVec F S256x1 .f32 := subf v4 (broadcast S256x1 (Scalar.ofBits .f32 0x3F000000#32))
  have v7 : FVec F S256x1 .f32 := extractStridedSlice S256x1 ![0, 1] xy slices_S256x2_o0_1_S256x1
  have v9 : FVec F S256x1 .f32 := subf v7 (broadcast S256x1 (Scalar.ofBits .f32 0x3F000000#32))
  have v10 : FVec F S256x1 .f32 := floor v6
  have v11 : FVec F S256x1 .f32 := floor v9
  have v12 : FVec F S256x1 .f32 := subf v6 v10
  have v13 : FVec F S256x1 .f32 := subf v9 v11
  have v14 : IVec S256x1 32 := fptosi 32 v10
  have v15 : IVec S256x1 32 := fptosi 32 v11
  have v17 : IVec S256x1 32 := andi v14 (broadcast S256x1 1023#32)
  have v21 : IVec S256x1 32 := andi (addi v14 (broadcast S256x1 1#32)) (broadcast S256x1 1023#32)
  have v23 : IVec S256x1 32 := andi v15 (broadcast S256x1 1023#32)
  have v27 : IVec S256x1 32 := andi (addi v15 (broadcast S256x1 1#32)) (broadcast S256x1 1023#32)
  have v29 : IVec S256x1024 1 := cmpi .eq v1 (broadcastTo S256x1024 v23 broadcasts_S256x1_S256x1024)
  have v31 : IVec S256x1024 1 := cmpi .eq v1 (broadcastTo S256x1024 v27 broadcasts_S256x1_S256x1024)
  have v33 : FVec F S256x1 .f32 := subf (broadcast S256x1 (Scalar.ofBits .f32 0x3F800000#32)) v13
  have v37 : FVec F S256x1024 .f32 := select v31 (broadcastTo S256x1024 (shapeCast S256x1 v13 shapeCasts_S256x1_S256x1) broadcasts_S256x1_S256x1024) (broadcast S256x1024 (Scalar.ofBits .f32 0x00000000#32))
  have v40 : FVec F S256x1024 .f32 := select v29 (broadcastTo S256x1024 (shapeCast S256x1 v33 shapeCasts_S256x1_S256x1) broadcasts_S256x1_S256x1024) v37
  have v41 : FVec F S256x1024 .bf16 := truncf .bf16 v40 bitsLt_bf16_f32
  have v43 : FVec F S1024x1024 .bf16 := shapeCast S1024x1024 img shapeCasts_S1x1024x1024_S1024x1024
  have v44 : FVec F S256x1024 .f32 := matmul dot_S256x1024_S1024x1024_S256x1024_1_0_0_1_n_n none v41 v43 (constant S256x1024 .f32 0x00000000#32)
  have v46 : IVec S256x1024 1 := cmpi .eq v1 (broadcastTo S256x1024 v17 broadcasts_S256x1_S256x1024)
  have v48 : IVec S256x1024 1 := cmpi .eq v1 (broadcastTo S256x1024 v21 broadcasts_S256x1_S256x1024)
  have v50 : FVec F S256x1 .f32 := subf (broadcast S256x1 (Scalar.ofBits .f32 0x3F800000#32)) v12
  have v54 : FVec F S256x1024 .f32 := select v48 (broadcastTo S256x1024 (shapeCast S256x1 v12 shapeCasts_S256x1_S256x1) broadcasts_S256x1_S256x1024) (broadcast S256x1024 (Scalar.ofBits .f32 0x00000000#32))
  have v57 : FVec F S256x1024 .f32 := select v46 (broadcastTo S256x1024 (shapeCast S256x1 v50 shapeCasts_S256x1_S256x1) broadcasts_S256x1_S256x1024) v54
  have v58 : FVec F S256x1024 .f32 := mulf v44 v57
  have v59 : FVec F S256 .f32 := multiReduction .add [1] S256 v58 0x00000000#32 reduces_S256x1024_S256 (.inl rfl) rfl
  shapeCast S256x1 v59 shapeCasts_S256_S256x1

/-- Plane 0's coordinate pairs out of a coordinate block. -/
abbrev planePair0 (v0 : Vec F S256x16x2 .f32) : FVec F S256x2 .f32 :=
  shapeCast S256x2 (extractStridedSlice S256x1x2 ![0, 0, 0] v0 slices_S256x16x2_o0_0_0_S256x1x2) shapeCasts_S256x1x2_S256x2
/-- Plane 1's coordinate pairs out of a coordinate block. -/
abbrev planePair1 (v0 : Vec F S256x16x2 .f32) : FVec F S256x2 .f32 :=
  shapeCast S256x2 (extractStridedSlice S256x1x2 ![0, 1, 0] v0 slices_S256x16x2_o0_1_0_S256x1x2) shapeCasts_S256x1x2_S256x2
/-- Plane 2's coordinate pairs out of a coordinate block. -/
abbrev planePair2 (v0 : Vec F S256x16x2 .f32) : FVec F S256x2 .f32 :=
  shapeCast S256x2 (extractStridedSlice S256x1x2 ![0, 2, 0] v0 slices_S256x16x2_o0_2_0_S256x1x2) shapeCasts_S256x1x2_S256x2
/-- Plane 3's coordinate pairs out of a coordinate block. -/
abbrev planePair3 (v0 : Vec F S256x16x2 .f32) : FVec F S256x2 .f32 :=
  shapeCast S256x2 (extractStridedSlice S256x1x2 ![0, 3, 0] v0 slices_S256x16x2_o0_3_0_S256x1x2) shapeCasts_S256x1x2_S256x2
/-- Plane 4's coordinate pairs out of a coordinate block. -/
abbrev planePair4 (v0 : Vec F S256x16x2 .f32) : FVec F S256x2 .f32 :=
  shapeCast S256x2 (extractStridedSlice S256x1x2 ![0, 4, 0] v0 slices_S256x16x2_o0_4_0_S256x1x2) shapeCasts_S256x1x2_S256x2
/-- Plane 5's coordinate pairs out of a coordinate block. -/
abbrev planePair5 (v0 : Vec F S256x16x2 .f32) : FVec F S256x2 .f32 :=
  shapeCast S256x2 (extractStridedSlice S256x1x2 ![0, 5, 0] v0 slices_S256x16x2_o0_5_0_S256x1x2) shapeCasts_S256x1x2_S256x2
/-- Plane 6's coordinate pairs out of a coordinate block. -/
abbrev planePair6 (v0 : Vec F S256x16x2 .f32) : FVec F S256x2 .f32 :=
  shapeCast S256x2 (extractStridedSlice S256x1x2 ![0, 6, 0] v0 slices_S256x16x2_o0_6_0_S256x1x2) shapeCasts_S256x1x2_S256x2
/-- Plane 7's coordinate pairs out of a coordinate block. -/
abbrev planePair7 (v0 : Vec F S256x16x2 .f32) : FVec F S256x2 .f32 :=
  shapeCast S256x2 (extractStridedSlice S256x1x2 ![0, 7, 0] v0 slices_S256x16x2_o0_7_0_S256x1x2) shapeCasts_S256x1x2_S256x2
/-- Plane 8's coordinate pairs out of a coordinate block. -/
abbrev planePair8 (v0 : Vec F S256x16x2 .f32) : FVec F S256x2 .f32 :=
  shapeCast S256x2 (extractStridedSlice S256x1x2 ![0, 8, 0] v0 slices_S256x16x2_o0_8_0_S256x1x2) shapeCasts_S256x1x2_S256x2
/-- Plane 9's coordinate pairs out of a coordinate block. -/
abbrev planePair9 (v0 : Vec F S256x16x2 .f32) : FVec F S256x2 .f32 :=
  shapeCast S256x2 (extractStridedSlice S256x1x2 ![0, 9, 0] v0 slices_S256x16x2_o0_9_0_S256x1x2) shapeCasts_S256x1x2_S256x2
/-- Plane 10's coordinate pairs out of a coordinate block. -/
abbrev planePair10 (v0 : Vec F S256x16x2 .f32) : FVec F S256x2 .f32 :=
  shapeCast S256x2 (extractStridedSlice S256x1x2 ![0, 10, 0] v0 slices_S256x16x2_o0_10_0_S256x1x2) shapeCasts_S256x1x2_S256x2
/-- Plane 11's coordinate pairs out of a coordinate block. -/
abbrev planePair11 (v0 : Vec F S256x16x2 .f32) : FVec F S256x2 .f32 :=
  shapeCast S256x2 (extractStridedSlice S256x1x2 ![0, 11, 0] v0 slices_S256x16x2_o0_11_0_S256x1x2) shapeCasts_S256x1x2_S256x2
/-- Plane 12's coordinate pairs out of a coordinate block. -/
abbrev planePair12 (v0 : Vec F S256x16x2 .f32) : FVec F S256x2 .f32 :=
  shapeCast S256x2 (extractStridedSlice S256x1x2 ![0, 12, 0] v0 slices_S256x16x2_o0_12_0_S256x1x2) shapeCasts_S256x1x2_S256x2
/-- Plane 13's coordinate pairs out of a coordinate block. -/
abbrev planePair13 (v0 : Vec F S256x16x2 .f32) : FVec F S256x2 .f32 :=
  shapeCast S256x2 (extractStridedSlice S256x1x2 ![0, 13, 0] v0 slices_S256x16x2_o0_13_0_S256x1x2) shapeCasts_S256x1x2_S256x2
/-- Plane 14's coordinate pairs out of a coordinate block. -/
abbrev planePair14 (v0 : Vec F S256x16x2 .f32) : FVec F S256x2 .f32 :=
  shapeCast S256x2 (extractStridedSlice S256x1x2 ![0, 14, 0] v0 slices_S256x16x2_o0_14_0_S256x1x2) shapeCasts_S256x1x2_S256x2
/-- Plane 15's coordinate pairs out of a coordinate block. -/
abbrev planePair15 (v0 : Vec F S256x16x2 .f32) : FVec F S256x2 .f32 :=
  shapeCast S256x2 (extractStridedSlice S256x1x2 ![0, 15, 0] v0 slices_S256x16x2_o0_15_0_S256x1x2) shapeCasts_S256x1x2_S256x2

/-- The output window's buffer after the body: sixteen one-column pieces, plane f's column in column f (listed
    last plane first, as the stores are replayed). -/
theorem out_eq_columns (x0 : Vec F S256x16x2 .f32) (x1 : Vec F S16x1024x1024 .bf16) :
    out0_2 x0 x1 = View.canon [⟨r0_32, column (planePair15 (View.ld x0 r0_0)) (View.ld x1 r0_31)⟩,
      ⟨r0_30, column (planePair14 (View.ld x0 r0_0)) (View.ld x1 r0_29)⟩,
      ⟨r0_28, column (planePair13 (View.ld x0 r0_0)) (View.ld x1 r0_27)⟩,
      ⟨r0_26, column (planePair12 (View.ld x0 r0_0)) (View.ld x1 r0_25)⟩,
      ⟨r0_24, column (planePair11 (View.ld x0 r0_0)) (View.ld x1 r0_23)⟩,
      ⟨r0_22, column (planePair10 (View.ld x0 r0_0)) (View.ld x1 r0_21)⟩,
      ⟨r0_20, column (planePair9 (View.ld x0 r0_0)) (View.ld x1 r0_19)⟩,
      ⟨r0_18, column (planePair8 (View.ld x0 r0_0)) (View.ld x1 r0_17)⟩,
      ⟨r0_16, column (planePair7 (View.ld x0 r0_0)) (View.ld x1 r0_15)⟩,
      ⟨r0_14, column (planePair6 (View.ld x0 r0_0)) (View.ld x1 r0_13)⟩,
      ⟨r0_12, column (planePair5 (View.ld x0 r0_0)) (View.ld x1 r0_11)⟩,
      ⟨r0_10, column (planePair4 (View.ld x0 r0_0)) (View.ld x1 r0_9)⟩,
      ⟨r0_8, column (planePair3 (View.ld x0 r0_0)) (View.ld x1 r0_7)⟩,
      ⟨r0_6, column (planePair2 (View.ld x0 r0_0)) (View.ld x1 r0_5)⟩,
      ⟨r0_4, column (planePair1 (View.ld x0 r0_0)) (View.ld x1 r0_3)⟩,
      ⟨r0_2, column (planePair0 (View.ld x0 r0_0)) (View.ld x1 r0_1)⟩] := rfl

end Cert.KernelIdeal.Sample

end
-- ==== Proof.Spec.lean ====
/-
  The mathematics both programs compute, stated once over plain functions.

  A sample point has a coordinate pair (cx, cy). Each coordinate is shifted by one half, split into its integer
  cell (the floor) and its fractional part (the interpolation weight), and the cell is wrapped to the period 1024
  of the image plane: positions `p0` (the cell) and `p1` (the cell plus one), both modulo 1024, read off the
  low ten bits of the 32-bit word the cell converts to. The reference blends the four neighbouring pixels by two
  nested linear interpolations, first along x and then along y (`refVal`); the kernel forms, for every column,
  the y-blend of the two rows and then picks and blends the two columns (`kerVal`). Over the reals the two are the
  same bilinear form; `KerG` and `RefG` are the two whole-array functions.
-/
import Idealize.ShloMosaic.PureOps.Ideal
import Idealize.ShloMosaic.Lib.ValueIdx

noncomputable section

namespace Cert.Bilinear

open Idealize.ShloMosaic Idealize.ShloMosaic.ValueIdx

/-- The image, sixteen planes of 1024 x 1024. -/
abbrev SImg : Shape := ⟨3, ![16, 1024, 1024]⟩
/-- The sample points' coordinate pairs, one per point and plane. -/
abbrev SCoords : Shape := ⟨3, ![1048576, 16, 2]⟩
/-- The result, one value per point and plane. -/
abbrev SOut : Shape := ⟨2, ![1048576, 16]⟩

/-- An extended real that is a real number. -/
def IsReal (x : EReal) : Prop := ∃ r : ℝ, x = (r : EReal)

/-- The literal one half. -/
def half : EReal := Ideal.ofBits .f32 0x3F000000#32
/-- The literal one. -/
def one : EReal := Ideal.ofBits .f32 0x3F800000#32

/-- A coordinate shifted to pixel centres. -/
def shift (c : EReal) : EReal := c - half
/-- Its integer cell, as an extended real. -/
def cellF (c : EReal) : EReal := Ideal.liftRound Int.floor (shift c)
/-- The interpolation weight: the shifted coordinate's fractional part. -/
def wt (c : EReal) : EReal := shift c - cellF c
/-- The cell as a 32-bit word. -/
def cell (c : EReal) : BitVec 32 := Ideal.fptosi 32 (cellF c)
/-- The cell's position in the plane, wrapped to the period 1024. -/
def p0 (c : EReal) : Fin 1024 := ⟨(cell c).toNat % 1024, Nat.mod_lt _ (by norm_num)⟩
/-- The next cell's position, wrapped likewise. -/
def p1 (c : EReal) : Fin 1024 := ⟨(cell c + 1#32).toNat % 1024, Nat.mod_lt _ (by norm_num)⟩

/-- The reference's value at one point of one plane `px` (row, column): two interpolations along x, then one along y. -/
def refVal (px : Fin 1024 → Fin 1024 → EReal) (cx cy : EReal) : EReal :=
  (px (p0 cy) (p0 cx) + wt cx * (px (p0 cy) (p1 cx) - px (p0 cy) (p0 cx)))
    + wt cy * ((px (p1 cy) (p0 cx) + wt cx * (px (p1 cy) (p1 cx) - px (p1 cy) (p0 cx)))
      - (px (p0 cy) (p0 cx) + wt cx * (px (p0 cy) (p1 cx) - px (p0 cy) (p0 cx))))

/-- The kernel's value at one point of one plane: the y-blend of the two rows in each of the two columns, then the
    x-blend of the two columns. -/
def kerVal (px : Fin 1024 → Fin 1024 → EReal) (cx cy : EReal) : EReal :=
  ((one - wt cy) * px (p0 cy) (p0 cx) + wt cy * px (p1 cy) (p0 cx)) * (one - wt cx)
    + ((one - wt cy) * px (p0 cy) (p1 cx) + wt cy * px (p1 cy) (p1 cx)) * wt cx

/-- The reference's whole result array as a function of the two argument arrays. -/
def RefG (img : SImg.Idx → EReal) (coords : SCoords.Idx → EReal) : SOut.Idx → EReal :=
  fun i => refVal (fun r c => img (ix3 (i 1) r c)) (coords (ix3 (i 0) (i 1) 0)) (coords (ix3 (i 0) (i 1) 1))

/-- The kernel's whole result array as a function of the two argument arrays. -/
def KerG (img : SImg.Idx → EReal) (coords : SCoords.Idx → EReal) : SOut.Idx → EReal :=
  fun i => kerVal (fun r c => img (ix3 (i 1) r c)) (coords (ix3 (i 0) (i 1) 0)) (coords (ix3 (i 0) (i 1) 1))

end Cert.Bilinear

end
-- ==== Proof.KerCol.lean ====
/-
  One output column of the kernel body read at a point: the row-blend vector has two non-zero entries, so the
  product with the plane is the y-blend of two rows; the column-blend vector has two non-zero entries, so the row
  sum is the x-blend of two columns.
-/
import proofs.«154458_j27539330302294_1_alg».proof.Proof.KerChain
import proofs.«154458_j27539330302294_1_alg».proof.Proof.Spec
import Idealize.ShloMosaic.Lib.ValueIdx
import Idealize.ShloMosaic.Lib.Pipeline.Value
import Idealize.ShloMosaic.PureOps.Ideal.Laws

noncomputable section

namespace Cert.KernelIdeal.Sample

open Idealize.ShloMosaic Idealize.ShloMosaic.ValueIdx Idealize.SL.Sem Cert.KernelIdeal Cert.KernelIdeal.Gen

open scoped BigOperators

/-! ## Sums against a vector with two non-zero entries -/

/-- A sum over the 1024 positions against a vector that is `A` at `a`, `B` at `b` and zero elsewhere, the vector on
    the left: only the two positions contribute. -/
theorem sum_two_left (a b : Fin 1024) (hab : a ≠ b) (A B : EReal) (g : Fin 1024 → EReal) :
    ∑ h : Fin 1024, (if h = a then A else if h = b then B else 0) * g h = A * g a + B * g b := by
  have e : ∀ h : Fin 1024, (if h = a then A else if h = b then B else 0) * g h
      = (if h = a then A * g h else 0) + (if h = b then B * g h else 0) := by
    intro h
    by_cases ha : h = a
    · have hb : ¬ h = b := fun hb => hab (ha.symm.trans hb)
      rw [if_pos ha, if_pos ha, if_neg hb, add_zero]
    · by_cases hb : h = b
      · rw [if_neg ha, if_pos hb, if_neg ha, if_pos hb, zero_add]
      · rw [if_neg ha, if_neg hb, if_neg ha, if_neg hb, zero_mul, add_zero]
  rw [Finset.sum_congr rfl (fun h _ => e h), Finset.sum_add_distrib, Finset.sum_ite_eq', Finset.sum_ite_eq',
    if_pos (Finset.mem_univ a), if_pos (Finset.mem_univ b)]

/-- The same with the vector on the right. -/
theorem sum_two_right (a b : Fin 1024) (hab : a ≠ b) (A B : EReal) (g : Fin 1024 → EReal) :
    ∑ h : Fin 1024, g h * (if h = a then A else if h = b then B else 0) = g a * A + g b * B := by
  have e : ∀ h : Fin 1024, g h * (if h = a then A else if h = b then B else 0)
      = (if h = a then A else if h = b then B else 0) * g h := fun h => mul_comm _ _
  rw [Finset.sum_congr rfl (fun h _ => e h), sum_two_left a b hab, mul_comm A, mul_comm B]

/-! ## Words: a position compared with a cell wrapped to ten bits -/

/-- A 32-bit word's position in the plane: its low ten bits. -/
def wrap (c : BitVec 32) : Fin 1024 := ⟨c.toNat % 1024, Nat.mod_lt _ (by norm_num)⟩

/-- Position `h` equals the word `c` masked to its low ten bits exactly when `h` is `c` modulo 1024. -/
theorem cmp_iff (c : BitVec 32) (h : Fin 1024) :
    (IntOp.cmpi .eq (BitVec.ofNat 32 h.val) (IntOp.andi c 1023#32) = 1#1) ↔ h = wrap c := by
  have hh : h.val < 1024 := h.isLt
  have e1 : (BitVec.ofNat 32 h.val).toNat = h.val := by
    rw [BitVec.toNat_ofNat]; omega
  have e2 : (IntOp.andi c 1023#32).toNat = c.toNat % 1024 := by
    show (c &&& 1023#32).toNat = _
    rw [BitVec.toNat_and]
    exact Nat.and_two_pow_sub_one_eq_mod c.toNat 10
  unfold IntOp.cmpi
  constructor
  · intro hc
    by_cases hq : BitVec.ofNat 32 h.val = IntOp.andi c 1023#32
    · exact Fin.ext (by show h.val = c.toNat % 1024; rw [← e1, hq, e2])
    · exfalso
      have : (BitVec.ofNat 32 h.val == IntOp.andi c 1023#32) = false := by simpa using hq
      simp [this] at hc
  · intro hv
    have hv' : h.val = c.toNat % 1024 := congrArg Fin.val hv
    have hq : BitVec.ofNat 32 h.val = IntOp.andi c 1023#32 := BitVec.eq_of_toNat_eq (by rw [e1, e2, hv'])
    simp [hq]

/-- So a select on that comparison is the `if` on the position. -/
theorem select_cmp (c : BitVec 32) (h : Fin 1024) (A B : EReal) :
    Scalar.select (IntOp.cmpi .eq (BitVec.ofNat 32 h.val) (IntOp.andi c 1023#32)) A B = if h = wrap c then A else B := by
  by_cases hc : h = wrap c
  · rw [if_pos hc, (cmp_iff c h).mpr hc, select_one]
  · rw [if_neg hc, eq_zero_of_ne_one (fun h1 => hc ((cmp_iff c h).mp h1)), select_zero]

/-- A word and its successor have different low ten bits. -/
theorem wrap_ne_succ (c : BitVec 32) : wrap c ≠ wrap (c + 1#32) := by
  intro h
  have h' : c.toNat % 1024 = (c + 1#32).toNat % 1024 := congrArg Fin.val h
  rw [BitVec.toNat_add] at h'
  have h1 : (1#32 : BitVec 32).toNat = 1 := rfl
  rw [h1] at h'
  have hl := c.isLt
  omega

/-! ## The layout operations of the chain, read at a point -/

/-- A [256,1] column laid along the 1024 positions of each row reads, at (p, w), the column at p. -/
theorem bcast_col {α : Type} (x : S256x1.Idx → α) :
    broadcastTo S256x1024 x broadcasts_S256x1_S256x1024 = fun j => x (ix2 (j 0) 0) :=
  funext fun j => broadcastTo_apply x _ j (ix2 (j 0) 0) (by
    intro a
    match a with
    | ⟨0, _⟩ => rfl
    | ⟨1, _⟩ => rfl)

/-- The position counter along a row reads the position. -/
theorem iota_eq : iota .tc S256x1024 32 [1] iota_S256x1024_d1_w32 = fun j => BitVec.ofNat 32 (j 1).val :=
  funext fun j => iota_single_apply .tc S256x1024 32 1 iota_S256x1024_d1_w32 j

/-- The x coordinates of a block of coordinate pairs. -/
theorem slice_x (xy : FVec Ideal S256x2 .f32) (p : Fin 256) :
    extractStridedSlice S256x1 ![0, 0] xy slices_S256x2_o0_0_S256x1 (ix2 p 0) = xy (ix2 p 0) :=
  extractStridedSlice_apply _ xy _ (ix2 p 0) (ix2 p 0) (by
    intro a
    match a with
    | ⟨0, _⟩ => show p.val = 0 + p.val; omega
    | ⟨1, _⟩ => rfl)

/-- The y coordinates of a block of coordinate pairs. -/
theorem slice_y (xy : FVec Ideal S256x2 .f32) (p : Fin 256) :
    extractStridedSlice S256x1 ![0, 1] xy slices_S256x2_o0_1_S256x1 (ix2 p 0) = xy (ix2 p 1) :=
  extractStridedSlice_apply _ xy _ (ix2 p 0) (ix2 p 1) (by
    intro a
    match a with
    | ⟨0, _⟩ => show p.val = 0 + p.val; omega
    | ⟨1, _⟩ => rfl)

/-- The plane viewed as a 1024 x 1024 matrix. -/
theorem plane_apply (img : Vec Ideal S1x1024x1024 .bf16) (r c : Fin 1024) :
    shapeCast S1024x1024 img shapeCasts_S1x1024x1024_S1024x1024 (ix2 r c) = img (ix3 0 r c) :=
  shapeCast_apply img _ (ix2 r c) (ix3 0 r c) (by
    rw [Shape.rowMajor_val_two, Shape.rowMajor_val_three]
    show (0 * 1024 + r.val) * 1024 + c.val = r.val * 1024 + c.val
    omega)

/-- The row sums viewed as a column. -/
theorem col_apply (v : FVec Ideal S256 .f32) (p : Fin 256) :
    shapeCast S256x1 v shapeCasts_S256_S256x1 (ix2 p 0) = v (ix1 p) :=
  shapeCast_apply v _ (ix2 p 0) (ix1 p) (by
    rw [Shape.rowMajor_val_two, Shape.rowMajor_val_one]
    show p.val = p.val * 1 + 0
    omega)

/-! ## The blend vector -/

/-- The blend vector over the 1024 positions built, at each of the 256 points, from a cell word `c` and a fraction
    `t`: one minus the fraction at the cell's wrapped position, the fraction at the next cell's, zero elsewhere. -/
def blendVec (c : IVec S256x1 32) (t : FVec Ideal S256x1 .f32) : FVec Ideal S256x1024 .f32 :=
  select (cmpi .eq (iota .tc S256x1024 32 [1] iota_S256x1024_d1_w32)
      (broadcastTo S256x1024 (andi c (broadcast S256x1 1023#32)) broadcasts_S256x1_S256x1024))
    (broadcastTo S256x1024 (shapeCast S256x1 (subf (broadcast S256x1 (Scalar.ofBits .f32 0x3F800000#32)) t)
      shapeCasts_S256x1_S256x1) broadcasts_S256x1_S256x1024)
    (select (cmpi .eq (iota .tc S256x1024 32 [1] iota_S256x1024_d1_w32)
        (broadcastTo S256x1024 (andi (addi c (broadcast S256x1 1#32)) (broadcast S256x1 1023#32))
          broadcasts_S256x1_S256x1024))
      (broadcastTo S256x1024 (shapeCast S256x1 t shapeCasts_S256x1_S256x1) broadcasts_S256x1_S256x1024)
      (broadcast S256x1024 (Scalar.ofBits .f32 0x00000000#32)))

/-- The blend vector at point `p` and position `w`. -/
theorem blendVec_apply (c : IVec S256x1 32) (t : FVec Ideal S256x1 .f32) (p : Fin 256) (w : Fin 1024) :
    blendVec c t (ix2 p w)
      = if w = wrap (c (ix2 p 0)) then Cert.Bilinear.one - t (ix2 p 0)
        else if w = wrap (c (ix2 p 0) + 1#32) then t (ix2 p 0) else 0 := by
  unfold blendVec
  rw [iota_eq, bcast_col, bcast_col, bcast_col, bcast_col, shapeCast_self, shapeCast_self]
  show Scalar.select (IntOp.cmpi .eq (BitVec.ofNat 32 w.val) (IntOp.andi (c (ix2 p 0)) 1023#32))
      (Cert.Bilinear.one - t (ix2 p 0))
      (Scalar.select (IntOp.cmpi .eq (BitVec.ofNat 32 w.val) (IntOp.andi (c (ix2 p 0) + 1#32) 1023#32))
        (t (ix2 p 0)) (Ideal.ofBits .f32 0x00000000#32)) = _
  rw [select_cmp, select_cmp, Ideal.ofBits_zero_f32]

/-! ## The product with the plane, and the row sum -/

/-- The left operand's index on its row axis is the result's row. -/
theorem lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

/-- The left operand's index on its contracted axis is the contraction position. -/
theorem lhs_contr (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q

/-- The right operand's index on its contracted axis is the contraction position. -/
theorem rhs_contr (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

/-- The right operand's index on its column axis is the result's column. -/
theorem rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The product of a [256,1024] vector with a [1024,1024] matrix into the zero accumulator, at (p, w): the sum over
    the 1024 rows of the matrix. -/
theorem rowProduct_apply (lhs : FVec Ideal S256x1024 .bf16) (rhs : FVec Ideal S1024x1024 .bf16) (p : Fin 256)
    (w : Fin 1024) :
    matmul dot_S256x1024_S1024x1024_S256x1024_1_0_0_1_n_n none lhs rhs (constant (F := Ideal) S256x1024 .f32 0x00000000#32)
        (ix2 p w)
      = ∑ k : Fin 1024, lhs (ix2 p k) * rhs (ix2 k w) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p w)
      ((contrEquiv1 dot_S256x1024_S1024x1024_S256x1024_1_0_0_1_n_n 1024 rfl rfl).symm k) = ix2 p k :=
    funext fun a => Fin.ext (by
      match a with
      | ⟨0, _⟩ => exact lhs_row _ _
      | ⟨1, _⟩ => exact (lhs_contr _ _).trans hk)
  have er : dot_S256x1024_S1024x1024_S256x1024_1_0_0_1_n_n.rhsIdx (ix2 p w)
      ((contrEquiv1 dot_S256x1024_S1024x1024_S256x1024_1_0_0_1_n_n 1024 rfl rfl).symm k) = ix2 k w :=
    funext fun a => Fin.ext (by
      match a with
      | ⟨0, _⟩ => exact (rhs_contr _ _).trans hk
      | ⟨1, _⟩ => exact rhs_col _ _)
  rw [el, er]

/-- The sum along each row of a [256,1024] vector, at point `p`. -/
theorem rowSum_apply (src : FVec Ideal S256x1024 .f32) (hφ : FKind.Formats .f32)
    (hacc : (0x00000000#32 : BitVec 32) = 0x00000000#32) (p : Fin 256) :
    multiReduction (F := Ideal) .add [1] S256 src 0x00000000#32 reduces_S256x1024_S256 hφ hacc (ix1 p)
      = ∑ w : Fin 1024, src (ix2 p w) := by
  refine (Ideal.multiReduction_add_single src 0x00000000#32 reduces_S256x1024_S256 hφ hacc (ix1 p)).trans ?_
  refine Finset.sum_congr rfl fun w _ => congrArg src ?_
  funext a
  match a with
  | ⟨0, _⟩ => rfl
  | ⟨1, _⟩ => rfl

/-! ## The coordinate columns: shift, cell and fraction -/

/-- A coordinate column shifted by one half. -/
def shiftVec (v : FVec Ideal S256x1 .f32) : FVec Ideal S256x1 .f32 :=
  subf v (broadcast S256x1 (Scalar.ofBits .f32 0x3F000000#32))
/-- Its cells as 32-bit words. -/
def cellVec (v : FVec Ideal S256x1 .f32) : IVec S256x1 32 := fptosi 32 (floor (shiftVec v))
/-- Its fractional parts. -/
def fracVec (v : FVec Ideal S256x1 .f32) : FVec Ideal S256x1 .f32 := subf (shiftVec v) (floor (shiftVec v))

theorem cellVec_apply (v : FVec Ideal S256x1 .f32) (i : S256x1.Idx) : cellVec v i = Cert.Bilinear.cell (v i) := rfl
theorem fracVec_apply (v : FVec Ideal S256x1 .f32) (i : S256x1.Idx) : fracVec v i = Cert.Bilinear.wt (v i) := rfl

/-- The chain of one column, with its stages named: the row sum of (the y blend vector times the plane) weighed by
    the x blend vector. -/
theorem column_eq (xy : FVec Ideal S256x2 .f32) (img : Vec Ideal S1x1024x1024 .bf16) :
    column (F := Ideal) xy img
      = shapeCast S256x1
          (multiReduction (F := Ideal) .add [1] S256
            (mulf
              (matmul dot_S256x1024_S1024x1024_S256x1024_1_0_0_1_n_n none
                (truncf .bf16
                  (blendVec (cellVec (extractStridedSlice S256x1 ![0, 1] xy slices_S256x2_o0_1_S256x1))
                    (fracVec (extractStridedSlice S256x1 ![0, 1] xy slices_S256x2_o0_1_S256x1)))
                  bitsLt_bf16_f32)
                (shapeCast S1024x1024 img shapeCasts_S1x1024x1024_S1024x1024 : FVec Ideal S1024x1024 .bf16)
                (constant (F := Ideal) S256x1024 .f32 0x00000000#32))
              (blendVec (cellVec (extractStridedSlice S256x1 ![0, 0] xy slices_S256x2_o0_0_S256x1))
                (fracVec (extractStridedSlice S256x1 ![0, 0] xy slices_S256x2_o0_0_S256x1))))
            0x00000000#32 reduces_S256x1024_S256 (.inl rfl) rfl)
          shapeCasts_S256_S256x1 := rfl

/-- Point `p` of a column: the kernel's blend of the four neighbouring pixels of the plane, at the point's
    coordinate pair. -/
theorem column_apply (xy : FVec Ideal S256x2 .f32) (img : Vec Ideal S1x1024x1024 .bf16) (p : Fin 256) :
    column (F := Ideal) xy img (ix2 p 0)
      = Cert.Bilinear.kerVal (fun r c => img (ix3 0 r c)) (xy (ix2 p 0)) (xy (ix2 p 1)) := by
  rw [column_eq, col_apply]
  refine (rowSum_apply _ (.inl rfl) rfl p).trans ?_
  simp only [mulf_apply, rowProduct_apply, truncf_apply, blendVec_apply, cellVec_apply, fracVec_apply,
    slice_x, slice_y]
  simp only [sum_two_left _ _ (wrap_ne_succ _)]
  rw [sum_two_right _ _ (wrap_ne_succ _), plane_apply, plane_apply, plane_apply, plane_apply]
  rfl

end Cert.KernelIdeal.Sample

end
-- ==== Proof.KerBlock.lean ====
/-
  The whole output block of the kernel body as one function of the point's coordinate block and the image:
  entry (p, f) is the kernel's blend for sample point p of the block in plane f. The body's sixteen stores are the
  sixteen columns of that function.
-/
import proofs.«154458_j27539330302294_1_alg».proof.Proof.KerCol
import Idealize.ShloMosaic.Lib.ValueLayout

set_option maxRecDepth 16384

noncomputable section

namespace Cert.KernelIdeal.Sample

open Idealize.ShloMosaic Idealize.ShloMosaic.ValueIdx Idealize.SL.Sem Cert.KernelIdeal Cert.KernelIdeal.Gen

/-- The output block from a block of 256 x 16 coordinate pairs and the sixteen image planes. -/
def blockG (cb : Vec Ideal S256x16x2 .f32) (img : Vec Ideal S16x1024x1024 .bf16) : Vec Ideal S256x16 .f32 :=
  fun y => Cert.Bilinear.kerVal (fun r c => img (ix3 (y 1) r c)) (cb (ix3 (y 0) (y 1) 0)) (cb (ix3 (y 0) (y 1) 1))

/-- Plane k's coordinate pairs, cut out of the coordinate block and flattened to 256 x 2: entry (p, c) is the
    block's entry (p, k, c). -/
theorem pair_apply (k : Nat) (hk : k < 16) (hs : S256x16x2.Slices ![0, k, 0] S256x1x2)
    (hc : S256x1x2.ShapeCasts S256x2) (x0 : Vec Ideal S256x16x2 .f32) (p : Fin 256) (c : Fin 2) :
    shapeCast S256x2 (extractStridedSlice S256x1x2 ![0, k, 0] x0 hs) hc (ix2 p c) = x0 (ix3 p ⟨k, hk⟩ c) := by
  rw [shapeCast_apply _ hc (ix2 p c) (ix3 p (0 : Fin 1) c) (by
    rw [Shape.rowMajor_val_three, Shape.rowMajor_val_two]
    show (p.val * 1 + 0) * 2 + c.val = p.val * 2 + c.val
    omega)]
  exact slice3_axis1_apply k x0 hs p (0 : Fin 1) c ⟨k, hk⟩ (by show k = k + 0; omega)

/-- One stored column is the matching column of the block function: the column of plane k, computed from plane k's
    coordinate pairs and plane k of the image, is the block function along column k of the output block. -/
theorem piece_eq (k : Nat) (hk : k < 16) (hs : S256x16x2.Slices ![0, k, 0] S256x1x2)
    (hc : S256x1x2.ShapeCasts S256x2)
    (hin : ∀ a, (![k, 0, 0] : Fin 3 → Nat) a + S1x1024x1024.size a ≤ S16x1024x1024.size a)
    (hout : ∀ a, (![0, k] : Fin 2 → Nat) a + S256x1.size a ≤ S256x16.size a)
    (x0 : Vec Ideal S256x16x2 .f32) (x1 : Vec Ideal S16x1024x1024 .bf16) (x : S256x1.Idx) :
    column (F := Ideal) (shapeCast S256x2 (extractStridedSlice S256x1x2 ![0, k, 0] x0 hs) hc)
        (View.ld x1 (Rect.unit (s := S16x1024x1024) ![k, 0, 0] S1x1024x1024.size hin)) x
      = blockG x0 x1 ((Rect.unit (s := S256x16) ![0, k] S256x1.size hout).emb x) := by
  -- the column's index is (p, 0): its second coordinate ranges over one value
  obtain ⟨p, rfl⟩ : ∃ p : Fin 256, x = ix2 p (0 : Fin 1) :=
    ⟨x 0, by rw [eq_ix2 x]; exact congrArg (ix2 (x 0)) (Subsingleton.elim (α := Fin 1) _ _)⟩
  rw [column_apply, pair_apply k hk hs hc x0 p 0, pair_apply k hk hs hc x0 p 1]
  -- where the column's point p sits in the output block: (p, k)
  have hy : (Rect.unit (s := S256x16) ![0, k] S256x1.size hout).emb (ix2 p (0 : Fin 1)) = ix2 p (⟨k, hk⟩ : Fin 16) := by
    funext a
    match a with
    | ⟨0, _⟩ => exact Fin.ext (by show 0 + 1 * p.val = p.val; omega)
    | ⟨1, _⟩ => exact Fin.ext (by show k + 1 * 0 = k; omega)
  rw [hy]
  -- the plane read through its rectangle is plane k of the image
  have himg : (fun r c => View.ld x1 (Rect.unit (s := S16x1024x1024) ![k, 0, 0] S1x1024x1024.size hin) (ix3 (0 : Fin 1) r c))
      = (fun (r c : Fin 1024) => x1 (ix3 (⟨k, hk⟩ : Fin 16) r c)) := by
    funext r c
    show x1 ((Rect.unit (s := S16x1024x1024) ![k, 0, 0] S1x1024x1024.size hin).emb (ix3 (0 : Fin 1) r c)) = _
    refine congrArg x1 (funext fun a => ?_)
    match a with
    | ⟨0, _⟩ => exact Fin.ext (by show k + 1 * 0 = k; omega)
    | ⟨1, _⟩ => exact Fin.ext (by show 0 + 1 * r.val = r.val; omega)
    | ⟨2, _⟩ => exact Fin.ext (by show 0 + 1 * c.val = c.val; omega)
  rw [himg]
  rfl

/-- What the body leaves in the output window's buffer is that function of the two input blocks. -/
theorem out_eq_blockG (x0 : Vec Ideal S256x16x2 .f32) (x1 : Vec Ideal S16x1024x1024 .bf16) :
    out0_2 (F := Ideal) x0 x1 = blockG x0 x1 := by
  rw [out_eq_columns]
  have hz : (![0, 0, 0] : Fin 3 → Nat) = fun _ => 0 := by
    funext a; match a with | ⟨0, _⟩ => rfl | ⟨1, _⟩ => rfl | ⟨2, _⟩ => rfl
  have hx0 : View.ld x0 r0_0 = x0 := View.ld_unit_zero (S := S256x16x2) hz _ x0
  rw [hx0]
  funext y
  refine View.canon_apply_of_pieces (blockG x0 x1) _ ?_ y (cover0_2 _ _ _ _ _ _ _ _ _ _ _ _ _ _ _ _ y)
  intro pc hpc x
  simp only [List.mem_cons, List.mem_singleton, List.not_mem_nil, or_false] at hpc
  rcases hpc with rfl | rfl | rfl | rfl | rfl | rfl | rfl | rfl | rfl | rfl | rfl | rfl | rfl | rfl | rfl | rfl
  · exact piece_eq 15 (by decide) slices_S256x16x2_o0_15_0_S256x1x2 shapeCasts_S256x1x2_S256x2
      inb_S16x1024x1024_S1x1024x1024_15_0_0 inb_S256x16_S256x1_0_15 x0 x1 x
  · exact piece_eq 14 (by decide) slices_S256x16x2_o0_14_0_S256x1x2 shapeCasts_S256x1x2_S256x2
      inb_S16x1024x1024_S1x1024x1024_14_0_0 inb_S256x16_S256x1_0_14 x0 x1 x
  · exact piece_eq 13 (by decide) slices_S256x16x2_o0_13_0_S256x1x2 shapeCasts_S256x1x2_S256x2
      inb_S16x1024x1024_S1x1024x1024_13_0_0 inb_S256x16_S256x1_0_13 x0 x1 x
  · exact piece_eq 12 (by decide) slices_S256x16x2_o0_12_0_S256x1x2 shapeCasts_S256x1x2_S256x2
      inb_S16x1024x1024_S1x1024x1024_12_0_0 inb_S256x16_S256x1_0_12 x0 x1 x
  · exact piece_eq 11 (by decide) slices_S256x16x2_o0_11_0_S256x1x2 shapeCasts_S256x1x2_S256x2
      inb_S16x1024x1024_S1x1024x1024_11_0_0 inb_S256x16_S256x1_0_11 x0 x1 x
  · exact piece_eq 10 (by decide) slices_S256x16x2_o0_10_0_S256x1x2 shapeCasts_S256x1x2_S256x2
      inb_S16x1024x1024_S1x1024x1024_10_0_0 inb_S256x16_S256x1_0_10 x0 x1 x
  · exact piece_eq 9 (by decide) slices_S256x16x2_o0_9_0_S256x1x2 shapeCasts_S256x1x2_S256x2
      inb_S16x1024x1024_S1x1024x1024_9_0_0 inb_S256x16_S256x1_0_9 x0 x1 x
  · exact piece_eq 8 (by decide) slices_S256x16x2_o0_8_0_S256x1x2 shapeCasts_S256x1x2_S256x2
      inb_S16x1024x1024_S1x1024x1024_8_0_0 inb_S256x16_S256x1_0_8 x0 x1 x
  · exact piece_eq 7 (by decide) slices_S256x16x2_o0_7_0_S256x1x2 shapeCasts_S256x1x2_S256x2
      inb_S16x1024x1024_S1x1024x1024_7_0_0 inb_S256x16_S256x1_0_7 x0 x1 x
  · exact piece_eq 6 (by decide) slices_S256x16x2_o0_6_0_S256x1x2 shapeCasts_S256x1x2_S256x2
      inb_S16x1024x1024_S1x1024x1024_6_0_0 inb_S256x16_S256x1_0_6 x0 x1 x
  · exact piece_eq 5 (by decide) slices_S256x16x2_o0_5_0_S256x1x2 shapeCasts_S256x1x2_S256x2
      inb_S16x1024x1024_S1x1024x1024_5_0_0 inb_S256x16_S256x1_0_5 x0 x1 x
  · exact piece_eq 4 (by decide) slices_S256x16x2_o0_4_0_S256x1x2 shapeCasts_S256x1x2_S256x2
      inb_S16x1024x1024_S1x1024x1024_4_0_0 inb_S256x16_S256x1_0_4 x0 x1 x
  · exact piece_eq 3 (by decide) slices_S256x16x2_o0_3_0_S256x1x2 shapeCasts_S256x1x2_S256x2
      inb_S16x1024x1024_S1x1024x1024_3_0_0 inb_S256x16_S256x1_0_3 x0 x1 x
  · exact piece_eq 2 (by decide) slices_S256x16x2_o0_2_0_S256x1x2 shapeCasts_S256x1x2_S256x2
      inb_S16x1024x1024_S1x1024x1024_2_0_0 inb_S256x16_S256x1_0_2 x0 x1 x
  · exact piece_eq 1 (by decide) slices_S256x16x2_o0_1_0_S256x1x2 shapeCasts_S256x1x2_S256x2
      inb_S16x1024x1024_S1x1024x1024_1_0_0 inb_S256x16_S256x1_0_1 x0 x1 x
  · exact piece_eq 0 (by decide) slices_S256x16x2_o0_0_0_S256x1x2 shapeCasts_S256x1x2_S256x2
      inb_S16x1024x1024_S1x1024x1024_0_0_0 inb_S256x16_S256x1_0_0 x0 x1 x

end Cert.KernelIdeal.Sample

end
-- ==== Proof.KerRun.lean ====
/-
  From blocks to the array. Grid point t of the kernel's 4096 points reads rows 256 t ... 256 t + 255 of the
  coordinate array and the whole image, and writes rows 256 t ... 256 t + 255 of the result; what it writes is
  the kernel's blend at every (point, plane) of those rows. The 4096 row blocks tile the result array, so after
  the run the array is the kernel's whole-array function of the two arguments.
-/
import proofs.«154458_j27539330302294_1_alg».proof.Proof.KerBlock
import proofs.«154458_j27539330302294_1_alg».proof.Proof.Gen.KernelIdeal.Value
import Idealize.ShloMosaic.Lib.Pipeline.Value
import Idealize.ShloMosaic.Lib.StableHlo.Run

set_option maxRecDepth 16384

noncomputable section

namespace Cert.KernelIdeal.Sample

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The image as the region finds it: the host's change of float format is the identity on extended reals. -/
theorem V_img (c : Dev nD) :
    (V m c main_v0 : S16x1024x1024.Idx → EReal) = (m ((c : Thread nD τ).loc main_arg0) : S16x1024x1024.Idx → EReal) := by
  dsimp only [Gen.V, Gen.hostOps0]
  after_results
  rfl

/-- The block indices of the three windows at grid point t: the coordinate rows and the result rows move with t,
    the image stays. -/
theorem idx_facts : ∀ t : Fin cfg0.N, win0_0.index t (0 : Fin 3) = t.val ∧ win0_0.index t (1 : Fin 3) = 0
    ∧ win0_0.index t (2 : Fin 3) = 0 ∧ win0_1.index t (0 : Fin 3) = 0 ∧ win0_1.index t (1 : Fin 3) = 0
    ∧ win0_1.index t (2 : Fin 3) = 0 ∧ win0_2.index t (0 : Fin 2) = t.val ∧ win0_2.index t (1 : Fin 2) = 0 :=
  (by decide +kernel : ∀ t : Fin grid0.N, _)

/-- The coordinate window's block at point t is rows 256 t ... 256 t + 255 of the coordinate argument. -/
theorem cblk_apply (c : Dev nD) (t : Fin cfg0.N) (x : S256x16x2.Idx) (k : S1048576x16x2.Idx)
    (hk0 : (k 0).val = 256 * t.val + (x 0).val) (hk1 : (k 1).val = (x 1).val) (hk2 : (k 2).val = (x 2).val) :
    (iblk m c 0 t : Vec Ideal S256x16x2 .f32) x
      = (m ((c : Thread nD τ).loc main_arg1) : S1048576x16x2.Idx → EReal) k := by
  obtain ⟨h0, h1, h2, -⟩ := idx_facts t
  unfold iblk
  rw [View.read_apply]
  show V m c main_arg1 _ = m (c.tc.loc main_arg1) _
  rw [V_main_arg1]
  congr 1
  funext a
  apply Fin.ext
  match a with
  | ⟨0, _⟩ => show win0_0.index t (0 : Fin 3) * 256 + 1 * (x 0).val = (k 0).val; rw [h0, hk0]; omega
  | ⟨1, _⟩ => show win0_0.index t (1 : Fin 3) * 16 + 1 * (x 1).val = (k 1).val; rw [h1, hk1]; omega
  | ⟨2, _⟩ => show win0_0.index t (2 : Fin 3) * 2 + 1 * (x 2).val = (k 2).val; rw [h2, hk2]; omega

/-- The image window's block at every point is the whole image argument. -/
theorem iblk_img (c : Dev nD) (t : Fin cfg0.N) (x : S16x1024x1024.Idx) :
    (iblk m c 1 t : Vec Ideal S16x1024x1024 .bf16) x
      = (m ((c : Thread nD τ).loc main_arg0) : S16x1024x1024.Idx → EReal) x := by
  obtain ⟨-, -, -, h0, h1, h2, -⟩ := idx_facts t
  unfold iblk
  rw [View.read_apply]
  show (V m c main_v0 : S16x1024x1024.Idx → EReal) _ = _
  rw [V_img]
  congr 1
  funext a
  apply Fin.ext
  match a with
  | ⟨0, _⟩ => show win0_1.index t (0 : Fin 3) * 16 + 1 * (x 0).val = (x 0).val; rw [h0]; omega
  | ⟨1, _⟩ => show win0_1.index t (1 : Fin 3) * 1024 + 1 * (x 1).val = (x 1).val; rw [h1]; omega
  | ⟨2, _⟩ => show win0_1.index t (2 : Fin 3) * 1024 + 1 * (x 2).val = (x 2).val; rw [h2]; omega

/-- The kernel's whole-array function of the two arguments as launched. -/
abbrev result (c : Dev nD) : S1048576x16.Idx → EReal :=
  Cert.Bilinear.KerG (m ((c : Thread nD τ).loc main_arg0)) (m ((c : Thread nD τ).loc main_arg1))

/-- What point t writes back is block t of that function. -/
theorem flushed_eq (c : Dev nD) (t : Fin cfg0.N) :
    (dats m 0 c).flushed 2 t = ((cfg0.win 2).blk t).view.read (Elt Ideal) (result m c) := by
  rw [flushed2, out_eq_blockG]
  obtain ⟨-, -, -, -, -, -, h0, h1⟩ := idx_facts t
  funext j
  obtain ⟨p, f, rfl⟩ : ∃ (p : Fin 256) (f : Fin 16), j = ix2 p f := ⟨j 0, j 1, eq_ix2 j⟩
  show blockG (iblk m c 0 t) (iblk m c 1 t) (ix2 p f) = result m c (((cfg0.win 2).blk t).view.emb (ix2 p f))
  have hp := p.isLt
  have ht : t.val < 4096 := lt_of_lt_of_eq t.isLt (show cfg0.N = 4096 from N_0)
  have e : ((cfg0.win 2).blk t).view.emb (ix2 p f) = (ix2 ⟨256 * t.val + p.val, by omega⟩ f : S1048576x16.Idx) := by
    funext a
    apply Fin.ext
    match a with
    | ⟨0, _⟩ => show win0_2.index t (0 : Fin 2) * 256 + 1 * p.val = 256 * t.val + p.val; rw [h0]; omega
    | ⟨1, _⟩ => show win0_2.index t (1 : Fin 2) * 16 + 1 * f.val = f.val; rw [h1]; omega
  rw [e]
  show Cert.Bilinear.kerVal (fun r c' => (iblk m c 1 t : Vec Ideal S16x1024x1024 .bf16) (ix3 f r c'))
      ((iblk m c 0 t : Vec Ideal S256x16x2 .f32) (ix3 p f 0)) ((iblk m c 0 t : Vec Ideal S256x16x2 .f32) (ix3 p f 1))
    = Cert.Bilinear.kerVal (fun r c' => (m ((c : Thread nD τ).loc main_arg0) : S16x1024x1024.Idx → EReal) (ix3 f r c'))
      ((m ((c : Thread nD τ).loc main_arg1) : S1048576x16x2.Idx → EReal) (ix3 ⟨256 * t.val + p.val, by omega⟩ f 0))
      ((m ((c : Thread nD τ).loc main_arg1) : S1048576x16x2.Idx → EReal) (ix3 ⟨256 * t.val + p.val, by omega⟩ f 1))
  congr 1
  · funext r c'
    exact iblk_img m c t (ix3 f r c')
  · exact cblk_apply m c t (ix3 p f 0) _ rfl rfl rfl
  · exact cblk_apply m c t (ix3 p f 1) _ rfl rfl rfl

/-- An index of the result array is in point t's block iff its row is among the block's 256 rows. -/
theorem mem_blk (t : Fin cfg0.N) (i : S1048576x16.Idx) :
    i ∈ ((cfg0.win 2).blk t).view.set ↔ ∀ a : Fin 2, win0_2.index t a * S256x16.size a ≤ (i a).val ∧ (i a).val < win0_2.index t a * S256x16.size a + S256x16.size a := by
  show i ∈ ((View.whole main_v1).slice (win0_2.rect t)).set ↔ _
  rw [View.set_slice_whole, Rect.mem_set_unit]
  exact Iff.rfl

/-- The row blocks tile the array: row r lies in the block of point r / 256. -/
theorem cover (i : S1048576x16.Idx) :
    ∃ t : Fin cfg0.N, (cfg0.win 2).flush t = true ∧ i ∈ ((cfg0.win 2).blk t).view.set := by
  have hi0 : (i 0).val < 1048576 := (i 0).isLt
  have hi1 : (i 1).val < 16 := (i 1).isLt
  have hN : cfg0.N = 4096 := N_0
  refine ⟨⟨(i 0).val / 256, by rw [hN]; omega⟩, flush0_2 _, ?_⟩
  rw [mem_blk]
  obtain ⟨-, -, -, -, -, -, h0, h1⟩ := idx_facts ⟨(i 0).val / 256, by rw [hN]; omega⟩
  intro a
  match a with
  | ⟨0, _⟩ =>
    show win0_2.index _ (0 : Fin 2) * 256 ≤ (i 0).val ∧ (i 0).val < win0_2.index _ (0 : Fin 2) * 256 + 256
    rw [h0]; dsimp only; omega
  | ⟨1, _⟩ =>
    show win0_2.index _ (1 : Fin 2) * 16 ≤ (i 1).val ∧ (i 1).val < win0_2.index _ (1 : Fin 2) * 16 + 16
    rw [h1]; omega

/-- After the run the result array is the kernel's whole-array function. -/
theorem final (c : Dev nD) : (dats m 0 c).arrAt 2 cfg0.N = result m c :=
  (dats m 0 c).arrAt_eq_of_cover 2 (result m c) (fun t _ => flushed_eq m c t) cover

/-- The kernel's run, read: the result at the kernel's function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelIdeal.Sample

end
-- ==== Proof.RefRun.lean ====
/-
  The reference program's @main as the list of its 231 host operations, in program order, and its run.

  The program shifts each coordinate by one half, takes the floor and the fractional part, converts the floors to
  32-bit words, wraps the cell and the next cell to the period 1024 by the remainder function (a zero divisor
  replaced by one; the truncated remainder; then the divisor added where the remainder is nonzero and its sign
  differs from the divisor's), adds 1024 where the wrapped position is negative, gathers the four
  neighbouring pixels of each plane and blends them by three linear interpolations. Each of the four calls of the
  remainder function is listed as its 21 operations (the select of its inner call among them) over that call's
  own buffers, at the place of the call; everything else is one entry per statement.

  `main_eq`: @main is that straight line (the function bodies unfolded at their calls, sequencing reassociated).
  `run_main`: from any memory with zero counters every weakly fair execution terminates with each buffer at the
  fold of the operations over the launch contents.
-/
import proofs.«154458_j27539330302294_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 231 operations, in order, the four calls of the remainder function unfolded. -/
abbrev ops : List (HloOp τ sig (Elt F)) :=
  [ unary main_arg1 main_v0 ((extractStridedSlice S1048576x16x1 ![0, 0, 0] · slices_S1048576x16x2_S1048576x16x1_0_0_0) : (⟨S1048576x16x2, .f32⟩ : BufTy).Contents (Elt F) → (⟨S1048576x16x1, .f32⟩ : BufTy).Contents (Elt F)),
    reshape main_v0 main_v1 rfl shapeCasts_S1048576x16x1_S1048576x16,
    nullary main_cst (constant S_ .f32 0x3F000000#32),
    unary main_cst main_v2 (broadcastInDim S1048576x16 ![] bcast_S_S1048576x16 : (⟨S_, .f32⟩ : BufTy).Contents (Elt F) → (⟨S1048576x16, .f32⟩ : BufTy).Contents (Elt F)),
    binary main_v1 main_v2 main_v3 (subf : (⟨S1048576x16, .f32⟩ : BufTy).Contents (Elt F) → (⟨S1048576x16, .f32⟩ : BufTy).Contents (Elt F) → (⟨S1048576x16, .f32⟩ : BufTy).Contents (Elt F)),
    unary main_arg1 main_v4 ((extractStridedSlice S1048576x16x1 ![0, 0, 1] · slices_S1048576x16x2_S1048576x16x1_0_0_1) : (⟨S1048576x16x2, .f32⟩ : BufTy).Contents (Elt F) → (⟨S1048576x16x1, .f32⟩ : BufTy).Contents (Elt F)),
    reshape main_v4 main_v5 rfl shapeCasts_S1048576x16x1_S1048576x16,
    nullary main_cst_0 (constant S_ .f32 0x3F000000#32),
    unary main_cst_0 main_v6 (broadcastInDim S1048576x16 ![] bcast_S_S1048576x16 : (⟨S_, .f32⟩ : BufTy).Contents (Elt F) → (⟨S1048576x16, .f32⟩ : BufTy).Contents (Elt F)),
    binary main_v5 main_v6 main_v7 (subf : (⟨S1048576x16, .f32⟩ : BufTy).Contents (Elt F) → (⟨S1048576x16, .f32⟩ : BufTy).Contents (Elt F) → (⟨S1048576x16, .f32⟩ : BufTy).Contents (Elt F)),
    unary main_v3 main_v8 (Host.floor : (⟨S1048576x16, .f32⟩ : BufTy).Contents (Elt F) → (⟨S1048576x16, .f32⟩ : BufTy).Contents (Elt F)),
    unary main_v7 main_v9 (Host.floor : (⟨S1048576x16, .f32⟩ : BufTy).Contents (Elt F) → (⟨S1048576x16, .f32⟩ : BufTy).Contents (Elt F)),
    binary main_v3 main_v8 main_v10 (subf : (⟨S1048576x16, .f32⟩ : BufTy).Contents (Elt F) → (⟨S1048576x16, .f32⟩ : BufTy).Contents (Elt F) → (⟨S1048576x16, .f32⟩ : BufTy).Contents (Elt F)),
    binary main_v7 main_v9 main_v11 (subf : (⟨S1048576x16, .f32⟩ : BufTy).Contents (Elt F) → (⟨S1048576x16, .f32⟩ : BufTy).Contents (Elt F) → (⟨S1048576x16, .f32⟩ : BufTy).Contents (Elt F)),
    unary main_v8 main_v12 (fptosi 32 : (⟨S1048576x16, .f32⟩ : BufTy).Contents (Elt F) → (⟨S1048576x16, .i32⟩ : BufTy).Contents (Elt F)),
    nullary main_c (constantI S_ 32 1024#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1048576x16 ![] bcast_S_S1048576x16),
    TRef.binary (.of main_v12) main_call0.v3 main_call0.v4 Host.remsi,
    TRef.nullary main_call0.c_1 (constantI S_ 32 0#32),
    TRef.unary main_call0.c_1 main_call0.v5 (broadcastInDim S1048576x16 ![] bcast_S_S1048576x16),
    TRef.binary main_call0.v4 main_call0.v5 main_call0.v6 (cmpi .ne),
    TRef.nullary main_call0.c_2 (constantI S_ 32 0#32),
    TRef.unary main_call0.c_2 main_call0.v7 (broadcastInDim S1048576x16 ![] bcast_S_S1048576x16),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1048576x16 ![] bcast_S_S1048576x16),
    TRef.binary main_call0.v8 main_call0.v10 main_call0.v11 (cmpi .ne),
    TRef.binary main_call0.v11 main_call0.v6 main_call0.v12 andi,
    TRef.unary main_call0.call0.v0 main_call0.v13 (broadcastInDim S1048576x16 ![] bcast_S_S1048576x16),
    TRef.binary main_call0.v4 main_call0.v13 main_call0.v14 addi,
    TRef.ternary main_call0.v12 main_call0.v14 main_call0.v4 main_call0.v15 select,
    unary main_v8 main_v14 (fptosi 32 : (⟨S1048576x16, .f32⟩ : BufTy).Contents (Elt F) → (⟨S1048576x16, .i32⟩ : BufTy).Contents (Elt F)),
    nullary main_c_1 (constantI S_ 32 1#32),
    unary main_c_1 main_v15 (broadcastInDim S1048576x16 ![] bcast_S_S1048576x16 : (⟨S_, .i32⟩ : BufTy).Contents (Elt F) → (⟨S1048576x16, .i32⟩ : BufTy).Contents (Elt F)),
    binary main_v14 main_v15 main_v16 (addi : (⟨S1048576x16, .i32⟩ : BufTy).Contents (Elt F) → (⟨S1048576x16, .i32⟩ : BufTy).Contents (Elt F) → (⟨S1048576x16, .i32⟩ : BufTy).Contents (Elt F)),
    nullary main_c_2 (constantI S_ 32 1024#32),
    TRef.unary (.of main_c_2) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S1048576x16 ![] bcast_S_S1048576x16),
    TRef.binary (.of main_v16) main_call1.v3 main_call1.v4 Host.remsi,
    TRef.nullary main_call1.c_1 (constantI S_ 32 0#32),
    TRef.unary main_call1.c_1 main_call1.v5 (broadcastInDim S1048576x16 ![] bcast_S_S1048576x16),
    TRef.binary main_call1.v4 main_call1.v5 main_call1.v6 (cmpi .ne),
    TRef.nullary main_call1.c_2 (constantI S_ 32 0#32),
    TRef.unary main_call1.c_2 main_call1.v7 (broadcastInDim S1048576x16 ![] bcast_S_S1048576x16),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S1048576x16 ![] bcast_S_S1048576x16),
    TRef.binary main_call1.v8 main_call1.v10 main_call1.v11 (cmpi .ne),
    TRef.binary main_call1.v11 main_call1.v6 main_call1.v12 andi,
    TRef.unary main_call1.call0.v0 main_call1.v13 (broadcastInDim S1048576x16 ![] bcast_S_S1048576x16),
    TRef.binary main_call1.v4 main_call1.v13 main_call1.v14 addi,
    TRef.ternary main_call1.v12 main_call1.v14 main_call1.v4 main_call1.v15 select,
    unary main_v9 main_v18 (fptosi 32 : (⟨S1048576x16, .f32⟩ : BufTy).Contents (Elt F) → (⟨S1048576x16, .i32⟩ : BufTy).Contents (Elt F)),
    nullary main_c_3 (constantI S_ 32 1024#32),
    TRef.unary (.of main_c_3) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S1048576x16 ![] bcast_S_S1048576x16),
    TRef.binary (.of main_v18) main_call2.v3 main_call2.v4 Host.remsi,
    TRef.nullary main_call2.c_1 (constantI S_ 32 0#32),
    TRef.unary main_call2.c_1 main_call2.v5 (broadcastInDim S1048576x16 ![] bcast_S_S1048576x16),
    TRef.binary main_call2.v4 main_call2.v5 main_call2.v6 (cmpi .ne),
    TRef.nullary main_call2.c_2 (constantI S_ 32 0#32),
    TRef.unary main_call2.c_2 main_call2.v7 (broadcastInDim S1048576x16 ![] bcast_S_S1048576x16),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S1048576x16 ![] bcast_S_S1048576x16),
    TRef.binary main_call2.v8 main_call2.v10 main_call2.v11 (cmpi .ne),
    TRef.binary main_call2.v11 main_call2.v6 main_call2.v12 andi,
    TRef.unary main_call2.call0.v0 main_call2.v13 (broadcastInDim S1048576x16 ![] bcast_S_S1048576x16),
    TRef.binary main_call2.v4 main_call2.v13 main_call2.v14 addi,
    TRef.ternary main_call2.v12 main_call2.v14 main_call2.v4 main_call2.v15 select,
    unary main_v9 main_v20 (fptosi 32 : (⟨S1048576x16, .f32⟩ : BufTy).Contents (Elt F) → (⟨S1048576x16, .i32⟩ : BufTy).Contents (Elt F)),
    nullary main_c_4 (constantI S_ 32 1#32),
    unary main_c_4 main_v21 (broadcastInDim S1048576x16 ![] bcast_S_S1048576x16 : (⟨S_, .i32⟩ : BufTy).Contents (Elt F) → (⟨S1048576x16, .i32⟩ : BufTy).Contents (Elt F)),
    binary main_v20 main_v21 main_v22 (addi : (⟨S1048576x16, .i32⟩ : BufTy).Contents (Elt F) → (⟨S1048576x16, .i32⟩ : BufTy).Contents (Elt F) → (⟨S1048576x16, .i32⟩ : BufTy).Contents (Elt F)),
    nullary main_c_5 (constantI S_ 32 1024#32),
    TRef.unary (.of main_c_5) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S1048576x16 ![] bcast_S_S1048576x16),
    TRef.binary (.of main_v22) main_call3.v3 main_call3.v4 Host.remsi,
    TRef.nullary main_call3.c_1 (constantI S_ 32 0#32),
    TRef.unary main_call3.c_1 main_call3.v5 (broadcastInDim S1048576x16 ![] bcast_S_S1048576x16),
    TRef.binary main_call3.v4 main_call3.v5 main_call3.v6 (cmpi .ne),
    TRef.nullary main_call3.c_2 (constantI S_ 32 0#32),
    TRef.unary main_call3.c_2 main_call3.v7 (broadcastInDim S1048576x16 ![] bcast_S_S1048576x16),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S1048576x16 ![] bcast_S_S1048576x16),
    TRef.binary main_call3.v8 main_call3.v10 main_call3.v11 (cmpi .ne),
    TRef.binary main_call3.v11 main_call3.v6 main_call3.v12 andi,
    TRef.unary main_call3.call0.v0 main_call3.v13 (broadcastInDim S1048576x16 ![] bcast_S_S1048576x16),
    TRef.binary main_call3.v4 main_call3.v13 main_call3.v14 addi,
    TRef.ternary main_call3.v12 main_call3.v14 main_call3.v4 main_call3.v15 select,
    nullary main_v24 (iotaInDim S16 32 0),
    unary main_v24 main_v25 (broadcastInDim S1x16 ![1] bcast_S16_S1x16_1 : (⟨S16, .i32⟩ : BufTy).Contents (Elt F) → (⟨S1x16, .i32⟩ : BufTy).Contents (Elt F)),
    nullary main_c_6 (constantI S_ 32 0#32),
    unary main_c_6 main_v26 (broadcastInDim S1x16 ![] bcast_S_S1x16 : (⟨S_, .i32⟩ : BufTy).Contents (Elt F) → (⟨S1x16, .i32⟩ : BufTy).Contents (Elt F)),
    binary main_v25 main_v26 main_v27 (cmpi .slt : (⟨S1x16, .i32⟩ : BufTy).Contents (Elt F) → (⟨S1x16, .i32⟩ : BufTy).Contents (Elt F) → (⟨S1x16, .i1⟩ : BufTy).Contents (Elt F)),
    nullary main_c_7 (constantI S_ 32 16#32),
    unary main_c_7 main_v28 (broadcastInDim S1x16 ![] bcast_S_S1x16 : (⟨S_, .i32⟩ : BufTy).Contents (Elt F) → (⟨S1x16, .i32⟩ : BufTy).Contents (Elt F)),
    binary main_v25 main_v28 main_v29 (addi : (⟨S1x16, .i32⟩ : BufTy).Contents (Elt F) → (⟨S1x16, .i32⟩ : BufTy).Contents (Elt F) → (⟨S1x16, .i32⟩ : BufTy).Contents (Elt F)),
    ternary main_v27 main_v29 main_v25 main_v30 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    nullary main_c_8 (constantI S_ 32 0#32),
    unary main_c_8 main_v31 (broadcastInDim S1048576x16 ![] bcast_S_S1048576x16 : (⟨S_, .i32⟩ : BufTy).Contents (Elt F) → (⟨S1048576x16, .i32⟩ : BufTy).Contents (Elt F)),
    binary main_v19 main_v31 main_v32 (cmpi .slt : (⟨S1048576x16, .i32⟩ : BufTy).Contents (Elt F) → (⟨S1048576x16, .i32⟩ : BufTy).Contents (Elt F) → (⟨S1048576x16, .i1⟩ : BufTy).Contents (Elt F)),
    nullary main_c_9 (constantI S_ 32 1024#32),
    unary main_c_9 main_v33 (broadcastInDim S1048576x16 ![] bcast_S_S1048576x16 : (⟨S_, .i32⟩ : BufTy).Contents (Elt F) → (⟨S1048576x16, .i32⟩ : BufTy).Contents (Elt F)),
    binary main_v19 main_v33 main_v34 (addi : (⟨S1048576x16, .i32⟩ : BufTy).Contents (Elt F) → (⟨S1048576x16, .i32⟩ : BufTy).Contents (Elt F) → (⟨S1048576x16, .i32⟩ : BufTy).Contents (Elt F)),
    ternary main_v32 main_v34 main_v19 main_v35 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    nullary main_c_10 (constantI S_ 32 0#32),
    unary main_c_10 main_v36 (broadcastInDim S1048576x16 ![] bcast_S_S1048576x16 : (⟨S_, .i32⟩ : BufTy).Contents (Elt F) → (⟨S1048576x16, .i32⟩ : BufTy).Contents (Elt F)),
    binary main_v13 main_v36 main_v37 (cmpi .slt : (⟨S1048576x16, .i32⟩ : BufTy).Contents (Elt F) → (⟨S1048576x16, .i32⟩ : BufTy).Contents (Elt F) → (⟨S1048576x16, .i1⟩ : BufTy).Contents (Elt F)),
    nullary main_c_11 (constantI S_ 32 1024#32),
    unary main_c_11 main_v38 (broadcastInDim S1048576x16 ![] bcast_S_S1048576x16 : (⟨S_, .i32⟩ : BufTy).Contents (Elt F) → (⟨S1048576x16, .i32⟩ : BufTy).Contents (Elt F)),
    binary main_v13 main_v38 main_v39 (addi : (⟨S1048576x16, .i32⟩ : BufTy).Contents (Elt F) → (⟨S1048576x16, .i32⟩ : BufTy).Contents (Elt F) → (⟨S1048576x16, .i32⟩ : BufTy).Contents (Elt F)),
    ternary main_v37 main_v39 main_v13 main_v40 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    unary main_v30 main_v41 (broadcastInDim S1048576x16 ![0, 1] bcast_S1x16_S1048576x16_0_1 : (⟨S1x16, .i32⟩ : BufTy).Contents (Elt F) → (⟨S1048576x16, .i32⟩ : BufTy).Contents (Elt F)),
    unary main_v41 main_v42 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v35 main_v43 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v40 main_v44 (broadcastInDim S1048576x16x1 ![0, 1] bcast_S1048576x16_S1048576x16x1_0_1 : (⟨S1048576x16, .i32⟩ : BufTy).Contents (Elt F) → (⟨S1048576x16x1, .i32⟩ : BufTy).Contents (Elt F)),
    nary ![main_v42, main_v43, main_v44] main_v45 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    binary main_arg0 main_v45 main_v46 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    nullary main_c_12 (constantI S_ 32 0#32),
    unary main_c_12 main_v47 (broadcastInDim S1x16 ![] bcast_S_S1x16 : (⟨S_, .i32⟩ : BufTy).Contents (Elt F) → (⟨S1x16, .i32⟩ : BufTy).Contents (Elt F)),
    binary main_v25 main_v47 main_v48 (cmpi .slt : (⟨S1x16, .i32⟩ : BufTy).Contents (Elt F) → (⟨S1x16, .i32⟩ : BufTy).Contents (Elt F) → (⟨S1x16, .i1⟩ : BufTy).Contents (Elt F)),
    nullary main_c_13 (constantI S_ 32 16#32),
    unary main_c_13 main_v49 (broadcastInDim S1x16 ![] bcast_S_S1x16 : (⟨S_, .i32⟩ : BufTy).Contents (Elt F) → (⟨S1x16, .i32⟩ : BufTy).Contents (Elt F)),
    binary main_v25 main_v49 main_v50 (addi : (⟨S1x16, .i32⟩ : BufTy).Contents (Elt F) → (⟨S1x16, .i32⟩ : BufTy).Contents (Elt F) → (⟨S1x16, .i32⟩ : BufTy).Contents (Elt F)),
    ternary main_v48 main_v50 main_v25 main_v51 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    nullary main_c_14 (constantI S_ 32 0#32),
    unary main_c_14 main_v52 (broadcastInDim S1048576x16 ![] bcast_S_S1048576x16 : (⟨S_, .i32⟩ : BufTy).Contents (Elt F) → (⟨S1048576x16, .i32⟩ : BufTy).Contents (Elt F)),
    binary main_v19 main_v52 main_v53 (cmpi .slt : (⟨S1048576x16, .i32⟩ : BufTy).Contents (Elt F) → (⟨S1048576x16, .i32⟩ : BufTy).Contents (Elt F) → (⟨S1048576x16, .i1⟩ : BufTy).Contents (Elt F)),
    nullary main_c_15 (constantI S_ 32 1024#32),
    unary main_c_15 main_v54 (broadcastInDim S1048576x16 ![] bcast_S_S1048576x16 : (⟨S_, .i32⟩ : BufTy).Contents (Elt F) → (⟨S1048576x16, .i32⟩ : BufTy).Contents (Elt F)),
    binary main_v19 main_v54 main_v55 (addi : (⟨S1048576x16, .i32⟩ : BufTy).Contents (Elt F) → (⟨S1048576x16, .i32⟩ : BufTy).Contents (Elt F) → (⟨S1048576x16, .i32⟩ : BufTy).Contents (Elt F)),
    ternary main_v53 main_v55 main_v19 main_v56 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    nullary main_c_16 (constantI S_ 32 0#32),
    unary main_c_16 main_v57 (broadcastInDim S1048576x16 ![] bcast_S_S1048576x16 : (⟨S_, .i32⟩ : BufTy).Contents (Elt F) → (⟨S1048576x16, .i32⟩ : BufTy).Contents (Elt F)),
    binary main_v17 main_v57 main_v58 (cmpi .slt : (⟨S1048576x16, .i32⟩ : BufTy).Contents (Elt F) → (⟨S1048576x16, .i32⟩ : BufTy).Contents (Elt F) → (⟨S1048576x16, .i1⟩ : BufTy).Contents (Elt F)),
    nullary main_c_17 (constantI S_ 32 1024#32),
    unary main_c_17 main_v59 (broadcastInDim S1048576x16 ![] bcast_S_S1048576x16 : (⟨S_, .i32⟩ : BufTy).Contents (Elt F) → (⟨S1048576x16, .i32⟩ : BufTy).Contents (Elt F)),
    binary main_v17 main_v59 main_v60 (addi : (⟨S1048576x16, .i32⟩ : BufTy).Contents (Elt F) → (⟨S1048576x16, .i32⟩ : BufTy).Contents (Elt F) → (⟨S1048576x16, .i32⟩ : BufTy).Contents (Elt F)),
    ternary main_v58 main_v60 main_v17 main_v61 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    unary main_v51 main_v62 (broadcastInDim S1048576x16 ![0, 1] bcast_S1x16_S1048576x16_0_1 : (⟨S1x16, .i32⟩ : BufTy).Contents (Elt F) → (⟨S1048576x16, .i32⟩ : BufTy).Contents (Elt F)),
    unary main_v62 main_v63 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v56 main_v64 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v61 main_v65 (broadcastInDim S1048576x16x1 ![0, 1] bcast_S1048576x16_S1048576x16x1_0_1 : (⟨S1048576x16, .i32⟩ : BufTy).Contents (Elt F) → (⟨S1048576x16x1, .i32⟩ : BufTy).Contents (Elt F)),
    nary ![main_v63, main_v64, main_v65] main_v66 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    binary main_arg0 main_v66 main_v67 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    nullary main_c_18 (constantI S_ 32 0#32),
    unary main_c_18 main_v68 (broadcastInDim S1x16 ![] bcast_S_S1x16 : (⟨S_, .i32⟩ : BufTy).Contents (Elt F) → (⟨S1x16, .i32⟩ : BufTy).Contents (Elt F)),
    binary main_v25 main_v68 main_v69 (cmpi .slt : (⟨S1x16, .i32⟩ : BufTy).Contents (Elt F) → (⟨S1x16, .i32⟩ : BufTy).Contents (Elt F) → (⟨S1x16, .i1⟩ : BufTy).Contents (Elt F)),
    nullary main_c_19 (constantI S_ 32 16#32),
    unary main_c_19 main_v70 (broadcastInDim S1x16 ![] bcast_S_S1x16 : (⟨S_, .i32⟩ : BufTy).Contents (Elt F) → (⟨S1x16, .i32⟩ : BufTy).Contents (Elt F)),
    binary main_v25 main_v70 main_v71 (addi : (⟨S1x16, .i32⟩ : BufTy).Contents (Elt F) → (⟨S1x16, .i32⟩ : BufTy).Contents (Elt F) → (⟨S1x16, .i32⟩ : BufTy).Contents (Elt F)),
    ternary main_v69 main_v71 main_v25 main_v72 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    nullary main_c_20 (constantI S_ 32 0#32),
    unary main_c_20 main_v73 (broadcastInDim S1048576x16 ![] bcast_S_S1048576x16 : (⟨S_, .i32⟩ : BufTy).Contents (Elt F) → (⟨S1048576x16, .i32⟩ : BufTy).Contents (Elt F)),
    binary main_v23 main_v73 main_v74 (cmpi .slt : (⟨S1048576x16, .i32⟩ : BufTy).Contents (Elt F) → (⟨S1048576x16, .i32⟩ : BufTy).Contents (Elt F) → (⟨S1048576x16, .i1⟩ : BufTy).Contents (Elt F)),
    nullary main_c_21 (constantI S_ 32 1024#32),
    unary main_c_21 main_v75 (broadcastInDim S1048576x16 ![] bcast_S_S1048576x16 : (⟨S_, .i32⟩ : BufTy).Contents (Elt F) → (⟨S1048576x16, .i32⟩ : BufTy).Contents (Elt F)),
    binary main_v23 main_v75 main_v76 (addi : (⟨S1048576x16, .i32⟩ : BufTy).Contents (Elt F) → (⟨S1048576x16, .i32⟩ : BufTy).Contents (Elt F) → (⟨S1048576x16, .i32⟩ : BufTy).Contents (Elt F)),
    ternary main_v74 main_v76 main_v23 main_v77 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    nullary main_c_22 (constantI S_ 32 0#32),
    unary main_c_22 main_v78 (broadcastInDim S1048576x16 ![] bcast_S_S1048576x16 : (⟨S_, .i32⟩ : BufTy).Contents (Elt F) → (⟨S1048576x16, .i32⟩ : BufTy).Contents (Elt F)),
    binary main_v13 main_v78 main_v79 (cmpi .slt : (⟨S1048576x16, .i32⟩ : BufTy).Contents (Elt F) → (⟨S1048576x16, .i32⟩ : BufTy).Contents (Elt F) → (⟨S1048576x16, .i1⟩ : BufTy).Contents (Elt F)),
    nullary main_c_23 (constantI S_ 32 1024#32),
    unary main_c_23 main_v80 (broadcastInDim S1048576x16 ![] bcast_S_S1048576x16 : (⟨S_, .i32⟩ : BufTy).Contents (Elt F) → (⟨S1048576x16, .i32⟩ : BufTy).Contents (Elt F)),
    binary main_v13 main_v80 main_v81 (addi : (⟨S1048576x16, .i32⟩ : BufTy).Contents (Elt F) → (⟨S1048576x16, .i32⟩ : BufTy).Contents (Elt F) → (⟨S1048576x16, .i32⟩ : BufTy).Contents (Elt F)),
    ternary main_v79 main_v81 main_v13 main_v82 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    unary main_v72 main_v83 (broadcastInDim S1048576x16 ![0, 1] bcast_S1x16_S1048576x16_0_1 : (⟨S1x16, .i32⟩ : BufTy).Contents (Elt F) → (⟨S1048576x16, .i32⟩ : BufTy).Contents (Elt F)),
    unary main_v83 main_v84 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v77 main_v85 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v82 main_v86 (broadcastInDim S1048576x16x1 ![0, 1] bcast_S1048576x16_S1048576x16x1_0_1 : (⟨S1048576x16, .i32⟩ : BufTy).Contents (Elt F) → (⟨S1048576x16x1, .i32⟩ : BufTy).Contents (Elt F)),
    nary ![main_v84, main_v85, main_v86] main_v87 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    binary main_arg0 main_v87 main_v88 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    nullary main_c_24 (constantI S_ 32 0#32),
    unary main_c_24 main_v89 (broadcastInDim S1x16 ![] bcast_S_S1x16 : (⟨S_, .i32⟩ : BufTy).Contents (Elt F) → (⟨S1x16, .i32⟩ : BufTy).Contents (Elt F)),
    binary main_v25 main_v89 main_v90 (cmpi .slt : (⟨S1x16, .i32⟩ : BufTy).Contents (Elt F) → (⟨S1x16, .i32⟩ : BufTy).Contents (Elt F) → (⟨S1x16, .i1⟩ : BufTy).Contents (Elt F)),
    nullary main_c_25 (constantI S_ 32 16#32),
    unary main_c_25 main_v91 (broadcastInDim S1x16 ![] bcast_S_S1x16 : (⟨S_, .i32⟩ : BufTy).Contents (Elt F) → (⟨S1x16, .i32⟩ : BufTy).Contents (Elt F)),
    binary main_v25 main_v91 main_v92 (addi : (⟨S1x16, .i32⟩ : BufTy).Contents (Elt F) → (⟨S1x16, .i32⟩ : BufTy).Contents (Elt F) → (⟨S1x16, .i32⟩ : BufTy).Contents (Elt F)),
    ternary main_v90 main_v92 main_v25 main_v93 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    nullary main_c_26 (constantI S_ 32 0#32),
    unary main_c_26 main_v94 (broadcastInDim S1048576x16 ![] bcast_S_S1048576x16 : (⟨S_, .i32⟩ : BufTy).Contents (Elt F) → (⟨S1048576x16, .i32⟩ : BufTy).Contents (Elt F)),
    binary main_v23 main_v94 main_v95 (cmpi .slt : (⟨S1048576x16, .i32⟩ : BufTy).Contents (Elt F) → (⟨S1048576x16, .i32⟩ : BufTy).Contents (Elt F) → (⟨S1048576x16, .i1⟩ : BufTy).Contents (Elt F)),
    nullary main_c_27 (constantI S_ 32 1024#32),
    unary main_c_27 main_v96 (broadcastInDim S1048576x16 ![] bcast_S_S1048576x16 : (⟨S_, .i32⟩ : BufTy).Contents (Elt F) → (⟨S1048576x16, .i32⟩ : BufTy).Contents (Elt F)),
    binary main_v23 main_v96 main_v97 (addi : (⟨S1048576x16, .i32⟩ : BufTy).Contents (Elt F) → (⟨S1048576x16, .i32⟩ : BufTy).Contents (Elt F) → (⟨S1048576x16, .i32⟩ : BufTy).Contents (Elt F)),
    ternary main_v95 main_v97 main_v23 main_v98 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    nullary main_c_28 (constantI S_ 32 0#32),
    unary main_c_28 main_v99 (broadcastInDim S1048576x16 ![] bcast_S_S1048576x16 : (⟨S_, .i32⟩ : BufTy).Contents (Elt F) → (⟨S1048576x16, .i32⟩ : BufTy).Contents (Elt F)),
    binary main_v17 main_v99 main_v100 (cmpi .slt : (⟨S1048576x16, .i32⟩ : BufTy).Contents (Elt F) → (⟨S1048576x16, .i32⟩ : BufTy).Contents (Elt F) → (⟨S1048576x16, .i1⟩ : BufTy).Contents (Elt F)),
    nullary main_c_29 (constantI S_ 32 1024#32),
    unary main_c_29 main_v101 (broadcastInDim S1048576x16 ![] bcast_S_S1048576x16 : (⟨S_, .i32⟩ : BufTy).Contents (Elt F) → (⟨S1048576x16, .i32⟩ : BufTy).Contents (Elt F)),
    binary main_v17 main_v101 main_v102 (addi : (⟨S1048576x16, .i32⟩ : BufTy).Contents (Elt F) → (⟨S1048576x16, .i32⟩ : BufTy).Contents (Elt F) → (⟨S1048576x16, .i32⟩ : BufTy).Contents (Elt F)),
    ternary main_v100 main_v102 main_v17 main_v103 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    unary main_v93 main_v104 (broadcastInDim S1048576x16 ![0, 1] bcast_S1x16_S1048576x16_0_1 : (⟨S1x16, .i32⟩ : BufTy).Contents (Elt F) → (⟨S1048576x16, .i32⟩ : BufTy).Contents (Elt F)),
    unary main_v104 main_v105 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v98 main_v106 (broadcastInDim S1048576x16x1 ![0, 1] bcast_S1048576x16_S1048576x16x1_0_1 : (⟨S1048576x16, .i32⟩ : BufTy).Contents (Elt F) → (⟨S1048576x16x1, .i32⟩ : BufTy).Contents (Elt F)),
    unary main_v103 main_v107 (broadcastInDim S1048576x16x1 ![0, 1] bcast_S1048576x16_S1048576x16x1_0_1 : (⟨S1048576x16, .i32⟩ : BufTy).Contents (Elt F) → (⟨S1048576x16x1, .i32⟩ : BufTy).Contents (Elt F)),
    nary ![main_v105, main_v106, main_v107] main_v108 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    binary main_arg0 main_v108 main_v109 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    binary main_v67 main_v46 main_v110 (subf : (⟨S1048576x16, .f32⟩ : BufTy).Contents (Elt F) → (⟨S1048576x16, .f32⟩ : BufTy).Contents (Elt F) → (⟨S1048576x16, .f32⟩ : BufTy).Contents (Elt F)),
    binary main_v10 main_v110 main_v111 (mulf : (⟨S1048576x16, .f32⟩ : BufTy).Contents (Elt F) → (⟨S1048576x16, .f32⟩ : BufTy).Contents (Elt F) → (⟨S1048576x16, .f32⟩ : BufTy).Contents (Elt F)),
    binary main_v46 main_v111 main_v112 (addf : (⟨S1048576x16, .f32⟩ : BufTy).Contents (Elt F) → (⟨S1048576x16, .f32⟩ : BufTy).Contents (Elt F) → (⟨S1048576x16, .f32⟩ : BufTy).Contents (Elt F)),
    binary main_v109 main_v88 main_v113 (subf : (⟨S1048576x16, .f32⟩ : BufTy).Contents (Elt F) → (⟨S1048576x16, .f32⟩ : BufTy).Contents (Elt F) → (⟨S1048576x16, .f32⟩ : BufTy).Contents (Elt F)),
    binary main_v10 main_v113 main_v114 (mulf : (⟨S1048576x16, .f32⟩ : BufTy).Contents (Elt F) → (⟨S1048576x16, .f32⟩ : BufTy).Contents (Elt F) → (⟨S1048576x16, .f32⟩ : BufTy).Contents (Elt F)),
    binary main_v88 main_v114 main_v115 (addf : (⟨S1048576x16, .f32⟩ : BufTy).Contents (Elt F) → (⟨S1048576x16, .f32⟩ : BufTy).Contents (Elt F) → (⟨S1048576x16, .f32⟩ : BufTy).Contents (Elt F)),
    binary main_v115 main_v112 main_v116 (subf : (⟨S1048576x16, .f32⟩ : BufTy).Contents (Elt F) → (⟨S1048576x16, .f32⟩ : BufTy).Contents (Elt F) → (⟨S1048576x16, .f32⟩ : BufTy).Contents (Elt F)),
    binary main_v11 main_v116 main_v117 (mulf : (⟨S1048576x16, .f32⟩ : BufTy).Contents (Elt F) → (⟨S1048576x16, .f32⟩ : BufTy).Contents (Elt F) → (⟨S1048576x16, .f32⟩ : BufTy).Contents (Elt F)),
    binary main_v112 main_v117 main_v118 (addf : (⟨S1048576x16, .f32⟩ : BufTy).Contents (Elt F) → (⟨S1048576x16, .f32⟩ : BufTy).Contents (Elt F) → (⟨S1048576x16, .f32⟩ : BufTy).Contents (Elt F)) ]

set_option maxRecDepth 8192 in
set_option maxHeartbeats 4000000 in
/-- @main is that straight line: the three windows and the function bodies unfolded, both sides are one chain of
    steps once sequencing is reassociated. -/
theorem main_eq (c : Dev nD) : main (F := F) c = seq ops := by
  simp only [main, main_part0, main_part1, main_part2, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., unary_bufs_sub ..,
    reshape_bufs_sub .., nullary_bufs_sub .., unary_bufs_sub .., binary_bufs_sub .., unary_bufs_sub .., unary_bufs_sub ..,
    binary_bufs_sub .., binary_bufs_sub .., unary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., nullary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., unary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., nary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., unary_bufs_sub .., nary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., nary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., unary_bufs_sub .., nary_bufs_sub .., binary_bufs_sub ..,
    binary_bufs_sub .., binary_bufs_sub .., binary_bufs_sub .., binary_bufs_sub .., binary_bufs_sub .., binary_bufs_sub ..,
    binary_bufs_sub .., binary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.LibGatherAt.lean ====
import Idealize.ShloMosaic.Lib.ValueIdx
import Idealize.ShloMosaic.Lib.Pipeline.Value

/-!
  `stablehlo.gather` READ AT AN INDEX for three families of dimension numbers, each lemma generic in the record
  `d : GatherDims s si t` over the shapes, with the record's lists as hypotheses (each discharged by `rfl` at a
  program's constant): a ROW SELECT out of a table (`table[idx]` over a rank-2 table), a TWO-INDEX gather out of a
  rank-3 array (`x[i0, i1]` with both leading coordinates read off the start indices), and a BATCHED TAKE along the
  second axis of a rank-2 array (`take_along_axis(x, idx, axis = 1)`). Every start index is read as a signed integer and
  clamped into the operand's axis, as StableHLO's gather does; `clamp_of_lt` removes the clamp for a word that, read
  unsigned, is already in range, and each lemma has a second form with the clamp removed under that hypothesis.
  Last, two layout reads: a rank-2 array broadcast to a trailing unit axis, and a concatenation of two unit-axis arrays
  along that axis, each read at an index.
-/

namespace Idealize.ShloMosaic.GatherAt

open Idealize.ShloMosaic Idealize.ShloMosaic.ValueIdx

/-! ## The clamp on a word in range -/

/-- A 32-bit word whose unsigned value is below `N`, with `N` below `2 ^ 31`, is non-negative as a signed integer, so
    StableHLO's clamp of its signed value into `[0, N − 1]` is its unsigned value. -/
theorem clamp_of_lt (w : BitVec 32) (N : Nat) (hN : N < 2 ^ 31) (h : w.toNat < N) :
    min w.toInt.toNat (N - 1) = w.toNat := by
  have e : w.toInt = (w.toNat : Int) := by
    rw [BitVec.toInt_eq_toNat_cond, if_pos (by omega)]
  rw [e, Int.toNat_natCast]
  omega

/-! ## Row select: `table[idx]` over a rank-2 table -/

/-- ROW SELECT. Operand `[N, D]`, start indices `[B, S, 1]`, result `[B, S, D]`; the operand's axis 0 is collapsed and
    start-indexed, its axis 1 is the result's offset axis 2, the index vector is on axis 2. Result element `(b, s, k)` is
    the operand's element in column `k` of the row whose number is the start index `idx[b, s, 0]`, read signed and clamped
    into `[0, N − 1]`. -/
theorem gather_row {α : Type} {N B S D w : Nat} (hN : 0 < N)
    (d : GatherDims ⟨2, ![N, D]⟩ ⟨3, ![B, S, 1]⟩ ⟨3, ![B, S, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![B, S, 1]⟩ w) (b : Fin B) (s : Fin S) (k : Fin D) :
    Host.gather d x idx (ix3 b s k) = x (ix2 ⟨min (idx (ix3 b s 0)).toInt.toNat (N - 1), by omega⟩ k) := by
  have hsl : d.sliceSizes 0 = 1 := d.slice_collapsed 0 (by rw [hcoll]; exact List.mem_singleton.mpr rfl)
  obtain ⟨od, cd, ob, sb, sm, iv, ss, wf⟩ := d
  subst hoff hcoll hob hsim hivd
  change ss 0 = 1 at hsl
  unfold Host.gather
  congr 1
  funext a
  refine Fin.ext ?_
  set dd : GatherDims ⟨2, ![N, D]⟩ ⟨3, ![B, S, 1]⟩ ⟨3, ![B, S, D]⟩ := ⟨[2], [0], [], sb, [0], 2, ss, wf⟩ with hdd
  match a with
  | ⟨0, h0⟩ =>
    -- the collapsed axis: the clamped start index, no batching coordinate, no offset
    show dd.start (ix3 b s k) idx ⟨0, h0⟩ + dd.batchCoord (ix3 b s k) ⟨0, h0⟩ + dd.offCoord (ix3 b s k) ⟨0, h0⟩
      = min (idx (ix3 b s 0)).toInt.toNat (N - 1)
    have e1 : dd.start (ix3 b s k) idx ⟨0, h0⟩
        = min (idx (dd.siIdx (ix3 b s k) ⟨0, Nat.one_pos⟩)).toInt.toNat (N - ss 0) := rfl
    have e2 : dd.batchCoord (ix3 b s k) ⟨0, h0⟩ = 0 := rfl
    have e3 : dd.offCoord (ix3 b s k) ⟨0, h0⟩ = 0 := rfl
    have hsi : dd.siIdx (ix3 b s k) ⟨0, Nat.one_pos⟩ = ix3 b s 0 := by
      funext c
      match c with
      | ⟨0, _⟩ => rfl
      | ⟨1, _⟩ => rfl
      | ⟨2, _⟩ => rfl
    rw [e1, e2, e3, hsi, hsl]
    rfl
  | ⟨1, h1⟩ =>
    -- the offset axis: start 0, the result's coordinate on its axis 2
    show dd.start (ix3 b s k) idx ⟨1, h1⟩ + dd.batchCoord (ix3 b s k) ⟨1, h1⟩ + dd.offCoord (ix3 b s k) ⟨1, h1⟩ = k.val
    have e1 : dd.start (ix3 b s k) idx ⟨1, h1⟩ = 0 := rfl
    have e2 : dd.batchCoord (ix3 b s k) ⟨1, h1⟩ = 0 := rfl
    have e3 : dd.offCoord (ix3 b s k) ⟨1, h1⟩ = k.val := rfl
    rw [e1, e2, e3, Nat.zero_add]

/-- ROW SELECT with the start index in range: result element `(b, s, k)` is the operand's element in column `k` of row
    `idx[b, s, 0]`, the word read unsigned. -/
theorem gather_row_of_lt {α : Type} {N B S D : Nat} (hN : N < 2 ^ 31)
    (d : GatherDims ⟨2, ![N, D]⟩ ⟨3, ![B, S, 1]⟩ ⟨3, ![B, S, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![B, S, 1]⟩ 32) (b : Fin B) (s : Fin S) (k : Fin D)
    (h : (idx (ix3 b s 0)).toNat < N) :
    Host.gather d x idx (ix3 b s k) = x (ix2 ⟨(idx (ix3 b s 0)).toNat, h⟩ k) := by
  rw [gather_row (by omega) d hoff hcoll hob hsim hivd]
  congr 1
  funext a
  match a with
  | ⟨0, _⟩ => exact Fin.ext (clamp_of_lt _ N hN h)
  | ⟨1, _⟩ => rfl

/-! ## Two-index gather out of a rank-3 array -/

/-- TWO-INDEX GATHER. Operand `[B, S, D]`, start indices `[B, S, 2]`, result `[B, S, D]`; the operand's axes 0 and 1 are
    collapsed and start-indexed (components 0 and 1 of the index vector, which is on axis 2), its axis 2 is the result's
    offset axis 2. Result element `(b, s, k)` is the operand's element `(i₀, i₁, k)`, with `i₀` the start index
    `idx[b, s, 0]` read signed and clamped into `[0, B − 1]` and `i₁` the start index `idx[b, s, 1]` read signed and
    clamped into `[0, S − 1]`. -/
theorem gather_two {α : Type} {B S D w : Nat}
    (d : GatherDims ⟨3, ![B, S, D]⟩ ⟨3, ![B, S, 2]⟩ ⟨3, ![B, S, D]⟩)
    (hoff : d.offsetDims = [2]) (hcoll : d.collapsedSliceDims = [0, 1]) (hob : d.operandBatchingDims = [])
    (hsim : d.startIndexMap = [0, 1]) (hivd : d.indexVectorDim = 2)
    (x : (⟨3, ![B, S, D]⟩ : Shape).Idx → α) (idx : IVec ⟨3, ![B, S, 2]⟩ w) (b : Fin B) (s : Fin S) (k : Fin D) :
    Host.gather d x idx (ix3 b s k)
      = x (ix3 ⟨min (idx (ix3 b s 0)).toInt.toNat (B - 1), by have := b.isLt; omega⟩
          ⟨min (idx (ix3 b s 1)).toInt.toNat (S - 1), by have := s.isLt; omega⟩ k) := by
  have hsl0 : d.sliceSizes 0 = 1 := d.slice_collapsed 0 (by rw [hcoll]; exact List.mem_cons_self)
  have hsl1 : d.sliceSizes 1 = 1 :=
    d.slice_collapsed 1 (by rw [hcoll]; exact List.mem_cons_of_mem _ (List.mem_singleton.mpr rfl))
  obtain ⟨od, cd, ob, sb, sm, iv, ss, wf⟩ := d
  subst hoff hcoll hob hsim hivd
  change ss 0 = 1 at hsl0
  change ss 1 = 1 at hsl1
  unfold Host.gather
  congr 1
  funext a
  refine Fin.ext ?_
  set dd : GatherDims ⟨3, ![B, S, D]⟩ ⟨3, ![B, S, 2]⟩ ⟨3, ![B, S, D]⟩ := ⟨[2], [0, 1], [], sb, [0, 1], 2, ss, wf⟩ with hdd
  -- the start-indices index of component `c` of result index `(b, s, k)`'s index vector
  have hsi : ∀ c : Fin 2, dd.siIdx (ix3 b s k) c = ix3 b s c := by
    intro c
    funext e
    match e with
    | ⟨0, _⟩ => rfl
    | ⟨1, _⟩ => rfl
    | ⟨2, _⟩ => rfl
  match a with
  | ⟨0, h0⟩ =>
    -- the first collapsed axis: component 0 of the index vector, clamped
    show dd.start (ix3 b s k) idx ⟨0, h0⟩ + dd.batchCoord (ix3 b s k) ⟨0, h0⟩ + dd.offCoord (ix3 b s k) ⟨0, h0⟩
      = min (idx (ix3 b s 0)).toInt.toNat (B - 1)
    have e1 : dd.start (ix3 b s k) idx ⟨0, h0⟩
        = min (idx (dd.siIdx (ix3 b s k) (0 : Fin 2))).toInt.toNat (B - ss 0) := rfl
    have e2 : dd.batchCoord (ix3 b s k) ⟨0, h0⟩ = 0 := rfl
    have e3 : dd.offCoord (ix3 b s k) ⟨0, h0⟩ = 0 := rfl
    rw [e1, e2, e3, hsi, hsl0]
    rfl
  | ⟨1, h1⟩ =>
    -- the second collapsed axis: component 1 of the index vector, clamped
    show dd.start (ix3 b s k) idx ⟨1, h1⟩ + dd.batchCoord (ix3 b s k) ⟨1, h1⟩ + dd.offCoord (ix3 b s k) ⟨1, h1⟩
      = min (idx (ix3 b s 1)).toInt.toNat (S - 1)
    have e1 : dd.start (ix3 b s k) idx ⟨1, h1⟩
        = min (idx (dd.siIdx (ix3 b s k) (1 : Fin 2))).toInt.toNat (S - ss 1) := rfl
    have e2 : dd.batchCoord (ix3 b s k) ⟨1, h1⟩ = 0 := rfl
    have e3 : dd.offCoord (ix3 b s k) ⟨1, h1⟩ = 0 := rfl
    rw [e1, e2, e3, hsi, hsl1]
    rfl
  | ⟨2, h2⟩ =>
    -- the offset axis: start 0, the result's coordinate on its axis 2
    show dd.start (ix3 b s k) idx ⟨2, h2⟩ + dd.batchCoord (ix3 b s k) ⟨2, h2⟩ + dd.offCoord (ix3 b s k) ⟨2, h2⟩ = k.val
    have e1 : dd.start (ix3 b s k) idx ⟨2, h2⟩ = 0 := rfl
    have e2 : dd.batchCoord (ix3 b s k) ⟨2, h2⟩ = 0 := rfl
    have e3 : dd.offCoord (ix3 b s k) ⟨2, h2⟩ = k.val := rfl
    rw [e1, e2, e3, Nat.zero_add]

/-- TWO-INDEX GATHER with both start indices in range: result element `(b, s, k)` is the operand's element
    `(idx[b, s, 0], idx[b, s, 1], k)`, the two words read unsigned. -/
theorem gather_two_of_lt {α : Type} {B S D : Nat} (hB : B < 2 ^ 31) (hS : S < 2 ^ 31)
    (d : GatherDims ⟨3, ![B, S, D]⟩ ⟨3, ![B, S, 2]⟩ ⟨3, ![B, S, D]⟩)
    (hoff : d.offsetDims = [2]) (hcoll : d.collapsedSliceDims = [0, 1]) (hob : d.operandBatchingDims = [])
    (hsim : d.startIndexMap = [0, 1]) (hivd : d.indexVectorDim = 2)
    (x : (⟨3, ![B, S, D]⟩ : Shape).Idx → α) (idx : IVec ⟨3, ![B, S, 2]⟩ 32) (b : Fin B) (s : Fin S) (k : Fin D)
    (h0 : (idx (ix3 b s 0)).toNat < B) (h1 : (idx (ix3 b s 1)).toNat < S) :
    Host.gather d x idx (ix3 b s k) = x (ix3 ⟨(idx (ix3 b s 0)).toNat, h0⟩ ⟨(idx (ix3 b s 1)).toNat, h1⟩ k) := by
  rw [gather_two d hoff hcoll hob hsim hivd]
  congr 1
  funext a
  match a with
  | ⟨0, _⟩ => exact Fin.ext (clamp_of_lt _ B hB h0)
  | ⟨1, _⟩ => exact Fin.ext (clamp_of_lt _ S hS h1)
  | ⟨2, _⟩ => rfl

/-! ## Batched take along the second axis of a rank-2 array -/

/-- BATCHED TAKE ALONG AXIS 1. Operand `[B, S]`, start indices `[B, S, 1]`, result `[B, S]`; the operand's axis 0 is a
    batching axis paired with the start indices' axis 0, its axis 1 is collapsed and start-indexed, there are no offset
    axes, the index vector is on axis 2. Result element `(b, s)` is the operand's element in row `b` at the column whose
    number is the start index `idx[b, s, 0]`, read signed and clamped into `[0, S − 1]`. -/
theorem gather_take1 {α : Type} {B S w : Nat}
    (d : GatherDims ⟨2, ![B, S]⟩ ⟨3, ![B, S, 1]⟩ ⟨2, ![B, S]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![B, S]⟩ : Shape).Idx → α) (idx : IVec ⟨3, ![B, S, 1]⟩ w) (b : Fin B) (s : Fin S) :
    Host.gather d x idx (ix2 b s)
      = x (ix2 b ⟨min (idx (ix3 b s 0)).toInt.toNat (S - 1), by have := s.isLt; omega⟩) := by
  have hsl : d.sliceSizes 1 = 1 := d.slice_collapsed 1 (by rw [hcoll]; exact List.mem_singleton.mpr rfl)
  obtain ⟨od, cd, ob, sb, sm, iv, ss, wf⟩ := d
  subst hoff hcoll hob hsb hsim hivd
  change ss 1 = 1 at hsl
  unfold Host.gather
  congr 1
  funext a
  refine Fin.ext ?_
  set dd : GatherDims ⟨2, ![B, S]⟩ ⟨3, ![B, S, 1]⟩ ⟨2, ![B, S]⟩ := ⟨[], [1], [0], [0], [1], 2, ss, wf⟩ with hdd
  match a with
  | ⟨0, h0⟩ =>
    -- the batching axis: start 0, the result's coordinate on the paired batch axis, no offset
    show dd.start (ix2 b s) idx ⟨0, h0⟩ + dd.batchCoord (ix2 b s) ⟨0, h0⟩ + dd.offCoord (ix2 b s) ⟨0, h0⟩ = b.val
    have e1 : dd.start (ix2 b s) idx ⟨0, h0⟩ = 0 := rfl
    have e2 : dd.batchCoord (ix2 b s) ⟨0, h0⟩ = b.val := rfl
    have e3 : dd.offCoord (ix2 b s) ⟨0, h0⟩ = 0 := rfl
    rw [e1, e2, e3, Nat.zero_add]
    rfl
  | ⟨1, h1⟩ =>
    -- the collapsed axis: the clamped start index, no batching coordinate, no offset
    show dd.start (ix2 b s) idx ⟨1, h1⟩ + dd.batchCoord (ix2 b s) ⟨1, h1⟩ + dd.offCoord (ix2 b s) ⟨1, h1⟩
      = min (idx (ix3 b s 0)).toInt.toNat (S - 1)
    have e1 : dd.start (ix2 b s) idx ⟨1, h1⟩
        = min (idx (dd.siIdx (ix2 b s) ⟨0, Nat.one_pos⟩)).toInt.toNat (S - ss 1) := rfl
    have e2 : dd.batchCoord (ix2 b s) ⟨1, h1⟩ = 0 := rfl
    have e3 : dd.offCoord (ix2 b s) ⟨1, h1⟩ = 0 := rfl
    have hsi : dd.siIdx (ix2 b s) ⟨0, Nat.one_pos⟩ = ix3 b s 0 := by
      funext c
      match c with
      | ⟨0, _⟩ => rfl
      | ⟨1, _⟩ => rfl
      | ⟨2, _⟩ => rfl
    rw [e1, e2, e3, hsi, hsl]
    rfl

/-- BATCHED TAKE ALONG AXIS 1 with the start index in range: result element `(b, s)` is the operand's element in row
    `b` at column `idx[b, s, 0]`, the word read unsigned. -/
theorem gather_take1_of_lt {α : Type} {B S : Nat} (hS : S < 2 ^ 31)
    (d : GatherDims ⟨2, ![B, S]⟩ ⟨3, ![B, S, 1]⟩ ⟨2, ![B, S]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![B, S]⟩ : Shape).Idx → α) (idx : IVec ⟨3, ![B, S, 1]⟩ 32) (b : Fin B) (s : Fin S)
    (h : (idx (ix3 b s 0)).toNat < S) :
    Host.gather d x idx (ix2 b s) = x (ix2 b ⟨(idx (ix3 b s 0)).toNat, h⟩) := by
  rw [gather_take1 d hoff hcoll hob hsb hsim hivd]
  congr 1
  funext a
  match a with
  | ⟨0, _⟩ => rfl
  | ⟨1, _⟩ => exact Fin.ext (clamp_of_lt _ S hS h)

/-! ## Two layout reads: a trailing unit axis, and a pair concatenated along it -/

/-- A rank-2 array `[B, S]` broadcast to `[B, S, 1]` (its axes laid on the result's axes 0 and 1) reads, at `(b, s, 0)`,
    the array at `(b, s)`. -/
theorem bcast_unit_apply {α : Type} {B S : Nat}
    (h : (⟨2, ![B, S]⟩ : Shape).BroadcastsInDim ⟨3, ![B, S, 1]⟩ ![0, 1])
    (v : (⟨2, ![B, S]⟩ : Shape).Idx → α) (b : Fin B) (s : Fin S) :
    broadcastInDim ⟨3, ![B, S, 1]⟩ ![0, 1] h v (ix3 b s 0) = v (ix2 b s) := by
  refine broadcastInDim_apply _ h v _ _ ?_
  intro a
  match a with
  | ⟨0, _⟩ =>
    show b.val = if B = 1 then 0 else b.val
    have := b.isLt
    split <;> omega
  | ⟨1, _⟩ =>
    show s.val = if S = 1 then 0 else s.val
    have := s.isLt
    split <;> omega

/-- The concatenation along axis 2 of two `[B, S, 1]` arrays into `[B, S, 2]` reads, at `(b, s, 0)`, the FIRST array at
    `(b, s, 0)`. -/
theorem concat_unit_apply_zero {α : Type} {B S : Nat}
    (h : Shape.Concatenates [(⟨3, ![B, S, 1]⟩ : Shape), ⟨3, ![B, S, 1]⟩] ⟨3, ![B, S, 2]⟩ 2)
    (x₁ x₂ : (⟨3, ![B, S, 1]⟩ : Shape).Idx → α) (b : Fin B) (s : Fin S) :
    concatenate ⟨3, ![B, S, 2]⟩ 2 [⟨⟨3, ![B, S, 1]⟩, x₁⟩, ⟨⟨3, ![B, S, 1]⟩, x₂⟩] h (ix3 b s 0) = x₁ (ix3 b s 0) := by
  refine concatenate_pair_apply_left 2 x₁ x₂ h _ rfl _ ?_
  intro c
  match c with
  | ⟨0, _⟩ => rfl
  | ⟨1, _⟩ => rfl
  | ⟨2, _⟩ => rfl

/-- The same concatenation reads, at `(b, s, 1)`, the SECOND array at `(b, s, 0)`. -/
theorem concat_unit_apply_one {α : Type} {B S : Nat}
    (h : Shape.Concatenates [(⟨3, ![B, S, 1]⟩ : Shape), ⟨3, ![B, S, 1]⟩] ⟨3, ![B, S, 2]⟩ 2)
    (x₁ x₂ : (⟨3, ![B, S, 1]⟩ : Shape).Idx → α) (b : Fin B) (s : Fin S) :
    concatenate ⟨3, ![B, S, 2]⟩ 2 [⟨⟨3, ![B, S, 1]⟩, x₁⟩, ⟨⟨3, ![B, S, 1]⟩, x₂⟩] h (ix3 b s 1) = x₂ (ix3 b s 0) := by
  refine concatenate_pair_apply_right 2 x₁ x₂ h _ rfl rfl _ ?_ rfl
  intro c hc
  match c with
  | ⟨0, _⟩ => rfl
  | ⟨1, _⟩ => rfl
  | ⟨2, _⟩ => exact absurd rfl hc

end Idealize.ShloMosaic.GatherAt
-- ==== Proof.LibGather3.lean ====
import Idealize.ShloMosaic.Lib.ValueIdx
import Idealize.ShloMosaic.Lib.Pipeline.Value
import proofs.«154458_j27539330302294_1_alg».proof.Proof.LibGatherAt

/-!
  `stablehlo.gather` of single elements out of a rank-3 array by a full index vector (`x[i0, i1, i2]` with every
  coordinate read off the start indices: all three operand axes collapsed, no offset axis), read at an index; the
  concatenation of three unit-axis arrays along that axis, read at each of its three positions; and two broadcasts
  read at an index (a row `[M]` laid on `[1, M]`, and `[1, M]` repeated over `[N, M]`).
-/

namespace Idealize.ShloMosaic.GatherAt3

open Idealize.ShloMosaic Idealize.ShloMosaic.ValueIdx Idealize.ShloMosaic.GatherAt

/-- THREE-INDEX GATHER. Operand `[A, B, C]` with no empty axis, start indices `[N, M, 3]` (index vector on axis 2),
    result `[N, M]`; the operand's three axes are all collapsed and start-indexed (components 0, 1, 2 of the index
    vector), there is no offset axis. Result element `(n, k)` is the operand's element `(i₀, i₁, i₂)`, with `i₀`, `i₁`,
    `i₂` the start indices `idx[n, k, 0]`, `idx[n, k, 1]`, `idx[n, k, 2]` read signed and clamped into `[0, A − 1]`,
    `[0, B − 1]`, `[0, C − 1]`. -/
theorem gather_three {α : Type} {A B C N M w : Nat} (hA : 0 < A) (hB : 0 < B) (hC : 0 < C)
    (d : GatherDims ⟨3, ![A, B, C]⟩ ⟨3, ![N, M, 3]⟩ ⟨2, ![N, M]⟩)
    (hoff : d.offsetDims = []) (hcoll : d.collapsedSliceDims = [0, 1, 2]) (hob : d.operandBatchingDims = [])
    (hsim : d.startIndexMap = [0, 1, 2]) (hivd : d.indexVectorDim = 2)
    (x : (⟨3, ![A, B, C]⟩ : Shape).Idx → α) (idx : IVec ⟨3, ![N, M, 3]⟩ w) (n : Fin N) (k : Fin M) :
    Host.gather d x idx (ix2 n k)
      = x (ix3 ⟨min (idx (ix3 n k 0)).toInt.toNat (A - 1), by omega⟩
          ⟨min (idx (ix3 n k 1)).toInt.toNat (B - 1), by omega⟩
          ⟨min (idx (ix3 n k 2)).toInt.toNat (C - 1), by omega⟩) := by
  have hsl0 : d.sliceSizes 0 = 1 := d.slice_collapsed 0 (by rw [hcoll]; exact List.mem_cons_self)
  have hsl1 : d.sliceSizes 1 = 1 :=
    d.slice_collapsed 1 (by rw [hcoll]; exact List.mem_cons_of_mem _ List.mem_cons_self)
  have hsl2 : d.sliceSizes 2 = 1 :=
    d.slice_collapsed 2 (by
      rw [hcoll]; exact List.mem_cons_of_mem _ (List.mem_cons_of_mem _ (List.mem_singleton.mpr rfl)))
  obtain ⟨od, cd, ob, sb, sm, iv, ss, wf⟩ := d
  subst hoff hcoll hob hsim hivd
  change ss 0 = 1 at hsl0
  change ss 1 = 1 at hsl1
  change ss 2 = 1 at hsl2
  unfold Host.gather
  congr 1
  funext a
  refine Fin.ext ?_
  set dd : GatherDims ⟨3, ![A, B, C]⟩ ⟨3, ![N, M, 3]⟩ ⟨2, ![N, M]⟩ := ⟨[], [0, 1, 2], [], sb, [0, 1, 2], 2, ss, wf⟩
    with hdd
  -- the start-indices index of component `c` of result index `(n, k)`'s index vector
  have hsi : ∀ c : Fin 3, dd.siIdx (ix2 n k) c = ix3 n k c := by
    intro c
    funext e
    match e with
    | ⟨0, _⟩ => rfl
    | ⟨1, _⟩ => rfl
    | ⟨2, _⟩ => rfl
  match a with
  | ⟨0, h0⟩ =>
    -- the first collapsed axis: component 0 of the index vector, clamped
    show dd.start (ix2 n k) idx ⟨0, h0⟩ + dd.batchCoord (ix2 n k) ⟨0, h0⟩ + dd.offCoord (ix2 n k) ⟨0, h0⟩
      = min (idx (ix3 n k 0)).toInt.toNat (A - 1)
    have e1 : dd.start (ix2 n k) idx ⟨0, h0⟩
        = min (idx (dd.siIdx (ix2 n k) (0 : Fin 3))).toInt.toNat (A - ss 0) := rfl
    have e2 : dd.batchCoord (ix2 n k) ⟨0, h0⟩ = 0 := rfl
    have e3 : dd.offCoord (ix2 n k) ⟨0, h0⟩ = 0 := rfl
    rw [e1, e2, e3, hsi, hsl0]
    rfl
  | ⟨1, h1⟩ =>
    -- the second collapsed axis: component 1 of the index vector, clamped
    show dd.start (ix2 n k) idx ⟨1, h1⟩ + dd.batchCoord (ix2 n k) ⟨1, h1⟩ + dd.offCoord (ix2 n k) ⟨1, h1⟩
      = min (idx (ix3 n k 1)).toInt.toNat (B - 1)
    have e1 : dd.start (ix2 n k) idx ⟨1, h1⟩
        = min (idx (dd.siIdx (ix2 n k) (1 : Fin 3))).toInt.toNat (B - ss 1) := rfl
    have e2 : dd.batchCoord (ix2 n k) ⟨1, h1⟩ = 0 := rfl
    have e3 : dd.offCoord (ix2 n k) ⟨1, h1⟩ = 0 := rfl
    rw [e1, e2, e3, hsi, hsl1]
    rfl
  | ⟨2, h2⟩ =>
    -- the third collapsed axis: component 2 of the index vector, clamped
    show dd.start (ix2 n k) idx ⟨2, h2⟩ + dd.batchCoord (ix2 n k) ⟨2, h2⟩ + dd.offCoord (ix2 n k) ⟨2, h2⟩
      = min (idx (ix3 n k 2)).toInt.toNat (C - 1)
    have e1 : dd.start (ix2 n k) idx ⟨2, h2⟩
        = min (idx (dd.siIdx (ix2 n k) (2 : Fin 3))).toInt.toNat (C - ss 2) := rfl
    have e2 : dd.batchCoord (ix2 n k) ⟨2, h2⟩ = 0 := rfl
    have e3 : dd.offCoord (ix2 n k) ⟨2, h2⟩ = 0 := rfl
    rw [e1, e2, e3, hsi, hsl2]
    rfl

/-- THREE-INDEX GATHER with all start indices in range. Operand `[A, B, C]`, start indices `[N, M, 3]` (index vector on
    axis 2), result `[N, M]`: result element `(n, k)` is the operand's element `(idx[n,k,0], idx[n,k,1], idx[n,k,2])`,
    the three words read unsigned. -/
theorem gather_three_of_lt {α : Type} {A B C N M : Nat} (hA : A < 2 ^ 31) (hB : B < 2 ^ 31) (hC : C < 2 ^ 31)
    (d : GatherDims ⟨3, ![A, B, C]⟩ ⟨3, ![N, M, 3]⟩ ⟨2, ![N, M]⟩)
    (hoff : d.offsetDims = []) (hcoll : d.collapsedSliceDims = [0, 1, 2]) (hob : d.operandBatchingDims = [])
    (hsim : d.startIndexMap = [0, 1, 2]) (hivd : d.indexVectorDim = 2)
    (x : (⟨3, ![A, B, C]⟩ : Shape).Idx → α) (idx : IVec ⟨3, ![N, M, 3]⟩ 32) (n : Fin N) (k : Fin M)
    (h0 : (idx (ix3 n k 0)).toNat < A) (h1 : (idx (ix3 n k 1)).toNat < B) (h2 : (idx (ix3 n k 2)).toNat < C) :
    Host.gather d x idx (ix2 n k)
      = x (ix3 ⟨(idx (ix3 n k 0)).toNat, h0⟩ ⟨(idx (ix3 n k 1)).toNat, h1⟩ ⟨(idx (ix3 n k 2)).toNat, h2⟩) := by
  rw [gather_three (by omega) (by omega) (by omega) d hoff hcoll hob hsim hivd]
  congr 1
  funext a
  match a with
  | ⟨0, _⟩ => exact Fin.ext (clamp_of_lt _ A hA h0)
  | ⟨1, _⟩ => exact Fin.ext (clamp_of_lt _ B hB h1)
  | ⟨2, _⟩ => exact Fin.ext (clamp_of_lt _ C hC h2)

/-- The concatenation along axis 2 of three `[N, M, 1]` arrays into `[N, M, 3]` reads, at `(n, k, 0)`, the first. -/
theorem concat3_unit_apply_zero {α : Type} {N M : Nat}
    (h : Shape.Concatenates [(⟨3, ![N, M, 1]⟩ : Shape), ⟨3, ![N, M, 1]⟩, ⟨3, ![N, M, 1]⟩] ⟨3, ![N, M, 3]⟩ 2)
    (x₀ x₁ x₂ : (⟨3, ![N, M, 1]⟩ : Shape).Idx → α) (n : Fin N) (k : Fin M) :
    concatenate ⟨3, ![N, M, 3]⟩ 2 [⟨⟨3, ![N, M, 1]⟩, x₀⟩, ⟨⟨3, ![N, M, 1]⟩, x₁⟩, ⟨⟨3, ![N, M, 1]⟩, x₂⟩] h (ix3 n k 0)
      = x₀ (ix3 n k 0) := by
  refine concatenate_apply_piece (t := ⟨3, ![N, M, 3]⟩) 2
    [⟨⟨3, ![N, M, 1]⟩, x₀⟩, ⟨⟨3, ![N, M, 1]⟩, x₁⟩, ⟨⟨3, ![N, M, 1]⟩, x₂⟩] h _ 0 (by simp) ⟨3, ![N, M, 1]⟩ x₀ rfl rfl 0 rfl
    (ix3 n k 0) ?_ rfl
  intro c hc
  match c with
  | ⟨0, _⟩ => rfl
  | ⟨1, _⟩ => rfl
  | ⟨2, _⟩ => exact absurd rfl hc

/-- At `(n, k, 1)`, the second. -/
theorem concat3_unit_apply_one {α : Type} {N M : Nat}
    (h : Shape.Concatenates [(⟨3, ![N, M, 1]⟩ : Shape), ⟨3, ![N, M, 1]⟩, ⟨3, ![N, M, 1]⟩] ⟨3, ![N, M, 3]⟩ 2)
    (x₀ x₁ x₂ : (⟨3, ![N, M, 1]⟩ : Shape).Idx → α) (n : Fin N) (k : Fin M) :
    concatenate ⟨3, ![N, M, 3]⟩ 2 [⟨⟨3, ![N, M, 1]⟩, x₀⟩, ⟨⟨3, ![N, M, 1]⟩, x₁⟩, ⟨⟨3, ![N, M, 1]⟩, x₂⟩] h (ix3 n k 1)
      = x₁ (ix3 n k 0) := by
  refine concatenate_apply_piece (t := ⟨3, ![N, M, 3]⟩) 2
    [⟨⟨3, ![N, M, 1]⟩, x₀⟩, ⟨⟨3, ![N, M, 1]⟩, x₁⟩, ⟨⟨3, ![N, M, 1]⟩, x₂⟩] h _ 1 (by simp) ⟨3, ![N, M, 1]⟩ x₁ rfl rfl 1 rfl
    (ix3 n k 0) ?_ rfl
  intro c hc
  match c with
  | ⟨0, _⟩ => rfl
  | ⟨1, _⟩ => rfl
  | ⟨2, _⟩ => exact absurd rfl hc

/-- At `(n, k, 2)`, the third. -/
theorem concat3_unit_apply_two {α : Type} {N M : Nat}
    (h : Shape.Concatenates [(⟨3, ![N, M, 1]⟩ : Shape), ⟨3, ![N, M, 1]⟩, ⟨3, ![N, M, 1]⟩] ⟨3, ![N, M, 3]⟩ 2)
    (x₀ x₁ x₂ : (⟨3, ![N, M, 1]⟩ : Shape).Idx → α) (n : Fin N) (k : Fin M) :
    concatenate ⟨3, ![N, M, 3]⟩ 2 [⟨⟨3, ![N, M, 1]⟩, x₀⟩, ⟨⟨3, ![N, M, 1]⟩, x₁⟩, ⟨⟨3, ![N, M, 1]⟩, x₂⟩] h (ix3 n k 2)
      = x₂ (ix3 n k 0) := by
  refine concatenate_apply_piece (t := ⟨3, ![N, M, 3]⟩) 2
    [⟨⟨3, ![N, M, 1]⟩, x₀⟩, ⟨⟨3, ![N, M, 1]⟩, x₁⟩, ⟨⟨3, ![N, M, 1]⟩, x₂⟩] h _ 2 (by simp) ⟨3, ![N, M, 1]⟩ x₂ rfl rfl 2 rfl
    (ix3 n k 0) ?_ rfl
  intro c hc
  match c with
  | ⟨0, _⟩ => rfl
  | ⟨1, _⟩ => rfl
  | ⟨2, _⟩ => exact absurd rfl hc

/-- A row `[M]` laid on the second axis of `[1, M]` reads, at `(0, k)`, the row at `k`. -/
theorem bcast_lead_apply {α : Type} {M : Nat}
    (h : (⟨1, ![M]⟩ : Shape).BroadcastsInDim ⟨2, ![1, M]⟩ ![1])
    (v : (⟨1, ![M]⟩ : Shape).Idx → α) (k : Fin M) :
    broadcastInDim ⟨2, ![1, M]⟩ ![1] h v (ix2 0 k) = v (ix1 k) := by
  refine broadcastInDim_apply _ h v _ _ ?_
  intro a
  match a with
  | ⟨0, _⟩ =>
    show k.val = if M = 1 then 0 else k.val
    have := k.isLt
    split <;> omega

/-- A `[1, M]` array repeated over `[N, M]` (its axes laid on axes 0 and 1) reads, at `(n, k)`, the array at `(0, k)`,
    when `N` is not one. -/
theorem bcast_rows_apply {α : Type} {N M : Nat} (hN : N ≠ 1)
    (h : (⟨2, ![1, M]⟩ : Shape).BroadcastsInDim ⟨2, ![N, M]⟩ ![0, 1])
    (v : (⟨2, ![1, M]⟩ : Shape).Idx → α) (n : Fin N) (k : Fin M) :
    broadcastInDim ⟨2, ![N, M]⟩ ![0, 1] h v (ix2 n k) = v (ix2 0 k) := by
  refine broadcastInDim_apply _ h v _ _ ?_
  intro a
  match a with
  | ⟨0, _⟩ => rfl
  | ⟨1, _⟩ =>
    show k.val = if M = 1 then 0 else k.val
    have := k.isLt
    split <;> omega

end Idealize.ShloMosaic.GatherAt3
-- ==== Proof.LibWrapWord.lean ====
import Idealize.ShloMosaic.PureOps.Ideal

/-!
  Wrapping a 32-bit word to the period 1024, two ways, and what each leaves: the low ten bits by a mask, and the
  floor-modulo spelt with the truncating remainder and a sign fix-up (add the divisor back where
  the remainder is non-zero and its sign differs from the divisor's). Both are the word's unsigned value modulo 1024,
  because 1024 divides 2 ^ 32. Also: a word and its successor never wrap to the same position, a non-negative
  word passes a "negative index" fix-up unchanged, and the clamp of an in-range word is the word.
-/

namespace Idealize.ShloMosaic.WrapWord

open Idealize.ShloMosaic

/-- The mask keeps the unsigned value modulo 1024. -/
theorem and_mask_toNat (a : BitVec 32) : (IntOp.andi a 1023#32).toNat = a.toNat % 1024 := by
  unfold IntOp.andi
  rw [BitVec.toNat_and]
  exact Nat.and_two_pow_sub_one_eq_mod a.toNat 10

/-- The floor-modulo by 1024 of one word: the host's truncating remainder, plus 1024 where it is non-zero and
    negative (the divisor is positive). -/
def jmod (a : BitVec 32) : BitVec 32 :=
  Scalar.select
    (IntOp.andi (IntOp.cmpi .ne (IntOp.cmpi .slt (IntOp.remsi .host a 1024#32) 0#32) (IntOp.cmpi .slt 1024#32 0#32))
      (IntOp.cmpi .ne (IntOp.remsi .host a 1024#32) 0#32))
    (IntOp.addi (IntOp.remsi .host a 1024#32) 1024#32) (IntOp.remsi .host a 1024#32)

/-- The divisor 1024 is neither zero nor minus one, so the remainder is the truncating one at every word. -/
theorem remsi_1024 (a : BitVec 32) : IntOp.remsi .host a 1024#32 = a.srem 1024#32 := by
  unfold IntOp.remsi
  rw [if_neg]
  rintro (h | ⟨_, h⟩)
  · exact absurd h (by decide)
  · exact absurd h (by decide)

/-- The floor-modulo spelled out on the truncating remainder `r`: `r + 1024` where `r` is negative, else `r`. -/
theorem jmod_eq (a : BitVec 32) :
    jmod a = if (a.srem 1024#32).toInt < 0 then a.srem 1024#32 + 1024#32 else a.srem 1024#32 := by
  unfold jmod
  rw [remsi_1024]
  generalize a.srem 1024#32 = r
  unfold IntOp.cmpi IntOp.andi IntOp.addi Scalar.select
  by_cases h : r.toInt < 0
  · have h0 : r ≠ 0#32 := by rintro rfl; exact absurd h (by decide)
    have hs : r.slt 0#32 = true := by rw [BitVec.slt_eq_decide]; exact decide_eq_true h
    have hne : (r != 0#32) = true := bne_iff_ne.mpr h0
    simp [hs, hne, h]
  · have hs : r.slt 0#32 = false := by rw [BitVec.slt_eq_decide]; exact decide_eq_false h
    simp [hs, h]

/-- It keeps the unsigned value modulo 1024 as well. -/
theorem jmod_toNat (a : BitVec 32) : (jmod a).toNat = a.toNat % 1024 := by
  have hr : (a.srem 1024#32).toInt = a.toInt.tmod 1024 := by
    rw [BitVec.toInt_srem]; rfl
  rw [jmod_eq]
  generalize a.srem 1024#32 = r at hr
  have hra := BitVec.toInt_eq_toNat_cond r
  have haa := BitVec.toInt_eq_toNat_cond a
  have hrl := r.isLt
  have hal := a.isLt
  rw [Int.tmod_eq_emod] at hr
  split
  · rename_i hneg
    rw [BitVec.toNat_add]
    show (r.toNat + 1024) % 2 ^ 32 = a.toNat % 1024
    split at hr <;> split at hra <;> split at haa <;> simp at hr <;> omega
  · rename_i hneg
    split at hr <;> split at hra <;> split at haa <;> simp at hr <;> omega

/-- A word and its successor wrap to different positions. -/
theorem wrap_succ_ne (a : BitVec 32) : a.toNat % 1024 ≠ (a + 1#32).toNat % 1024 := by
  rw [BitVec.toNat_add]
  show a.toNat % 1024 ≠ (a.toNat + 1) % 2 ^ 32 % 1024
  have := a.isLt
  omega

/-- A word below 2 ^ 31 is not negative: the fix-up "add `k` where negative" leaves it. -/
theorem select_neg_fix (w k : BitVec 32) (h : w.toNat < 2 ^ 31) :
    Scalar.select (IntOp.cmpi .slt w 0#32) (IntOp.addi w k) w = w := by
  have hs : w.slt 0#32 = false := by
    rw [BitVec.slt_eq_decide]
    apply decide_eq_false
    rw [BitVec.toInt_eq_toNat_of_lt (by omega)]
    show ¬ ((w.toNat : Int) < 0)
    omega
  unfold Scalar.select IntOp.cmpi
  simp [hs]

/-- The iota word of position `h` equals a word exactly when `h` is the word's unsigned value. -/
theorem cmpi_eq_ofNat (h : Nat) (hh : h < 2 ^ 32) (w : BitVec 32) :
    IntOp.cmpi .eq (BitVec.ofNat 32 h) w = (if h = w.toNat then 1#1 else 0#1) := by
  unfold IntOp.cmpi
  have key : (BitVec.ofNat 32 h = w) ↔ h = w.toNat := by
    rw [← BitVec.toNat_inj, BitVec.toNat_ofNat, Nat.mod_eq_of_lt hh]
  by_cases hw : h = w.toNat
  · have : BitVec.ofNat 32 h = w := key.mpr hw
    simp [hw, this]
  · have hb : (BitVec.ofNat 32 h == w) = false := beq_eq_false_iff_ne.mpr fun e => hw (key.mp e)
    rw [hb, if_neg hw]
    rfl

end Idealize.ShloMosaic.WrapWord
-- ==== Proof.RefTerm.lean ====
/-
  The reference program's value as a pure function of its two arguments, and that value read at an index.

  The program shifts each coordinate by one half, takes the floor (the cell) and the fractional part (the weight),
  converts the cells to 32-bit words, wraps the cell and the next cell to the period 1024 by the floor-modulo
  (the truncating remainder with a sign fix-up), gathers the four neighbouring pixels of each plane, and blends them
  by three linear interpolations: along x in each of the two rows, then along y. `refOut` is that dataflow, one
  definition per stage; `refOut_apply` reads it at a point and a plane: the specification's `refVal`.
-/
import proofs.«154458_j27539330302294_1_alg».proof.Proof.Gen.ReferenceIdeal
import proofs.«154458_j27539330302294_1_alg».proof.Proof.Spec
import proofs.«154458_j27539330302294_1_alg».proof.Proof.LibGather3
import proofs.«154458_j27539330302294_1_alg».proof.Proof.LibWrapWord
import proofs.«154458_j27539330302294_1_alg».proof.Proof.LibGatherAt

noncomputable section

namespace Cert.ReferenceIdeal.Run

open Cert.ReferenceIdeal Cert.ReferenceIdeal.Gen Idealize.ShloMosaic Idealize.ShloMosaic.ValueIdx

variable {F : FTy → Type} [FloatOps F]

/-! ## The dataflow, stage by stage -/

/-- A scalar laid over the point-by-plane array. -/
abbrev splat {α : Type} (x : S_.Idx → α) : S1048576x16.Idx → α :=
  broadcastInDim S1048576x16 ![] bcast_S_S1048576x16 x

/-- The x coordinates, shifted by one half: component 0 of each pair, minus the constant. -/
def xsV (coords : FVec F S1048576x16x2 .f32) : FVec F S1048576x16 .f32 :=
  subf (shapeCast S1048576x16 (extractStridedSlice S1048576x16x1 ![0, 0, 0] coords slices_S1048576x16x2_S1048576x16x1_0_0_0)
      shapeCasts_S1048576x16x1_S1048576x16)
    (splat (constant S_ .f32 0x3F000000#32))

/-- The y coordinates, shifted by one half: component 1 of each pair, minus the constant. -/
def ysV (coords : FVec F S1048576x16x2 .f32) : FVec F S1048576x16 .f32 :=
  subf (shapeCast S1048576x16 (extractStridedSlice S1048576x16x1 ![0, 0, 1] coords slices_S1048576x16x2_S1048576x16x1_0_0_1)
      shapeCasts_S1048576x16x1_S1048576x16)
    (splat (constant S_ .f32 0x3F000000#32))

/-- The floor-modulo of every word of `a` by the scalar `m`, as the remainder function computes it: the divisor
    (or one where it is zero), the truncating remainder by it, and the divisor added back where the remainder is
    non-zero and its sign is not the divisor's. -/
def jmodV (a : IVec S1048576x16 32) (m : IVec S_ 32) : IVec S1048576x16 32 :=
  have v0 : IVec S_ 32 := id m
  have c : IVec S_ 32 := constantI S_ 32 0#32
  have v1 : IVec S_ 1 := cmpi .eq v0 c
  have c_0 : IVec S_ 32 := constantI S_ 32 1#32
  have v2 : IVec S_ 32 := select v1 c_0 v0
  have v3 : IVec S1048576x16 32 := splat v2
  have v4 : IVec S1048576x16 32 := Host.remsi a v3
  have c_1 : IVec S_ 32 := constantI S_ 32 0#32
  have v5 : IVec S1048576x16 32 := splat c_1
  have v6 : IVec S1048576x16 1 := cmpi .ne v4 v5
  have c_2 : IVec S_ 32 := constantI S_ 32 0#32
  have v7 : IVec S1048576x16 32 := splat c_2
  have v8 : IVec S1048576x16 1 := cmpi .slt v4 v7
  have c_3 : IVec S_ 32 := constantI S_ 32 0#32
  have v9 : IVec S_ 1 := cmpi .slt v2 c_3
  have v10 : IVec S1048576x16 1 := splat v9
  have v11 : IVec S1048576x16 1 := cmpi .ne v8 v10
  have v12 : IVec S1048576x16 1 := andi v11 v6
  have v13 : IVec S1048576x16 32 := splat v2
  have v14 : IVec S1048576x16 32 := addi v4 v13
  select v12 v14 v4

/-- The plane number of every point-by-plane position, as a word: the iota over the sixteen planes laid on a row,
    passed through the negative-index fix-up (sixteen added where negative), repeated over the points. -/
def planeV : IVec S1048576x16 32 :=
  have v24 : IVec S16 32 := iotaInDim S16 32 0
  have v25 : IVec S1x16 32 := broadcastInDim S1x16 ![1] bcast_S16_S1x16_1 v24
  have v26 : IVec S1x16 32 := broadcastInDim S1x16 ![] bcast_S_S1x16 (constantI S_ 32 0#32)
  have v27 : IVec S1x16 1 := cmpi .slt v25 v26
  have v28 : IVec S1x16 32 := broadcastInDim S1x16 ![] bcast_S_S1x16 (constantI S_ 32 16#32)
  have v29 : IVec S1x16 32 := addi v25 v28
  have v30 : IVec S1x16 32 := select v27 v29 v25
  broadcastInDim S1048576x16 ![0, 1] bcast_S1x16_S1048576x16_0_1 v30

/-- The negative-index fix-up of a wrapped position: 1024 added where the word is negative. -/
def fixV (w : IVec S1048576x16 32) : IVec S1048576x16 32 :=
  select (cmpi .slt w (splat (constantI S_ 32 0#32))) (addi w (splat (constantI S_ 32 1024#32))) w

/-- A word array given a trailing unit axis. -/
abbrev unitV (w : IVec S1048576x16 32) : IVec S1048576x16x1 32 :=
  broadcastInDim S1048576x16x1 ![0, 1] bcast_S1048576x16_S1048576x16x1_0_1 w

/-- The pixels `image[plane, r, c]` at the row and column positions `r`, `c` of every point and plane: the three
    index words side by side, and the gather of single elements at them. -/
def gatV {α : Type} (img : S16x1024x1024.Idx → α) (r c : IVec S1048576x16 32) : S1048576x16.Idx → α :=
  Host.gather gather_S16x1024x1024_S1048576x16x3_S1048576x16_n_012_n_n_012_2_111 img
    (concatenate S1048576x16x3 2
      [⟨S1048576x16x1, unitV planeV⟩, ⟨S1048576x16x1, unitV (fixV r)⟩, ⟨S1048576x16x1, unitV (fixV c)⟩]
      concatenates_S1048576x16x1_S1048576x16x1_S1048576x16x1_S1048576x16x3_d2)

/-- The reference's result array as a function of the image and the coordinate pairs. -/
def refOut (img : FVec F S16x1024x1024 .f32) (coords : FVec F S1048576x16x2 .f32) : FVec F S1048576x16 .f32 :=
  have v3 : FVec F S1048576x16 .f32 := xsV coords
  have v7 : FVec F S1048576x16 .f32 := ysV coords
  have v8 : FVec F S1048576x16 .f32 := Host.floor v3
  have v9 : FVec F S1048576x16 .f32 := Host.floor v7
  have v10 : FVec F S1048576x16 .f32 := subf v3 v8
  have v11 : FVec F S1048576x16 .f32 := subf v7 v9
  have v13 : IVec S1048576x16 32 := jmodV (fptosi 32 v8) (constantI S_ 32 1024#32)
  have v17 : IVec S1048576x16 32 :=
    jmodV (addi (fptosi 32 v8) (splat (constantI S_ 32 1#32))) (constantI S_ 32 1024#32)
  have v19 : IVec S1048576x16 32 := jmodV (fptosi 32 v9) (constantI S_ 32 1024#32)
  have v23 : IVec S1048576x16 32 :=
    jmodV (addi (fptosi 32 v9) (splat (constantI S_ 32 1#32))) (constantI S_ 32 1024#32)
  have v46 : FVec F S1048576x16 .f32 := gatV img v19 v13
  have v67 : FVec F S1048576x16 .f32 := gatV img v19 v17
  have v88 : FVec F S1048576x16 .f32 := gatV img v23 v13
  have v109 : FVec F S1048576x16 .f32 := gatV img v23 v17
  have v112 : FVec F S1048576x16 .f32 := addf v46 (mulf v10 (subf v67 v46))
  have v115 : FVec F S1048576x16 .f32 := addf v88 (mulf v10 (subf v109 v88))
  addf v112 (mulf v11 (subf v115 v112))

/-! ## The stages read at a point and a plane, at the ideal instance -/

section AtIdeal

open Cert.Bilinear Idealize.ShloMosaic.GatherAt Idealize.ShloMosaic.GatherAt3 Idealize.ShloMosaic.WrapWord

/-- The scalar `where` of the remainder function picks the divisor 1024, which is not zero. -/
theorem where_1024 : Scalar.select (IntOp.cmpi .eq 1024#32 0#32) 1#32 1024#32 = 1024#32 := by decide

/-- The vector floor-modulo by the constant 1024 is, word by word, the scalar one. -/
theorem jmodV_apply (a : IVec S1048576x16 32) (i : S1048576x16.Idx) :
    jmodV a (constantI S_ 32 1024#32) i = jmod (a i) := by
  show Scalar.select
      (IntOp.andi
        (IntOp.cmpi .ne
          (IntOp.cmpi .slt (IntOp.remsi .host (a i) (Scalar.select (IntOp.cmpi .eq 1024#32 0#32) 1#32 1024#32)) 0#32)
          (IntOp.cmpi .slt (Scalar.select (IntOp.cmpi .eq 1024#32 0#32) 1#32 1024#32) 0#32))
        (IntOp.cmpi .ne (IntOp.remsi .host (a i) (Scalar.select (IntOp.cmpi .eq 1024#32 0#32) 1#32 1024#32)) 0#32))
      (IntOp.addi (IntOp.remsi .host (a i) (Scalar.select (IntOp.cmpi .eq 1024#32 0#32) 1#32 1024#32))
        (Scalar.select (IntOp.cmpi .eq 1024#32 0#32) 1#32 1024#32))
      (IntOp.remsi .host (a i) (Scalar.select (IntOp.cmpi .eq 1024#32 0#32) 1#32 1024#32)) = _
  rw [where_1024]
  rfl

/-- The shifted x coordinate of point `n`, plane `f`. -/
theorem xsV_apply (coords : FVec Ideal S1048576x16x2 .f32) (n : Fin 1048576) (f : Fin 16) :
    xsV coords (ix2 n f) = shift (coords (ix3 n f 0)) := by
  unfold xsV shift
  rw [subf_apply]
  congr 1
  refine (shapeCast_apply _ _ (ix2 n f) (ix3 n f 0) ?_).trans ?_
  · rw [Shape.rowMajor_val_three, Shape.rowMajor_val_two]
    show (n.val * 16 + f.val) * 1 + 0 = n.val * 16 + f.val
    omega
  · refine extractStridedSlice_apply _ _ _ (ix3 n f 0) (ix3 n f 0) ?_
    intro a
    match a with
    | ⟨0, _⟩ => exact (Nat.zero_add _).symm
    | ⟨1, _⟩ => exact (Nat.zero_add _).symm
    | ⟨2, _⟩ => rfl

/-- The shifted y coordinate of point `n`, plane `f`. -/
theorem ysV_apply (coords : FVec Ideal S1048576x16x2 .f32) (n : Fin 1048576) (f : Fin 16) :
    ysV coords (ix2 n f) = shift (coords (ix3 n f 1)) := by
  unfold ysV shift
  rw [subf_apply]
  congr 1
  refine (shapeCast_apply _ _ (ix2 n f) (ix3 n f 0) ?_).trans ?_
  · rw [Shape.rowMajor_val_three, Shape.rowMajor_val_two]
    show (n.val * 16 + f.val) * 1 + 0 = n.val * 16 + f.val
    omega
  · refine extractStridedSlice_apply _ _ _ (ix3 n f 0) (ix3 n f 1) ?_
    intro a
    match a with
    | ⟨0, _⟩ => exact (Nat.zero_add _).symm
    | ⟨1, _⟩ => exact (Nat.zero_add _).symm
    | ⟨2, _⟩ => rfl

/-- The plane number's word at point `n`, plane `f`: the iota's, untouched by the fix-up. -/
theorem planeV_apply (n : Fin 1048576) (f : Fin 16) : planeV (ix2 n f) = BitVec.ofNat 32 f.val := by
  have hX : broadcastInDim S1x16 ![1] bcast_S16_S1x16_1 (iotaInDim S16 32 0) (ix2 0 f) = BitVec.ofNat 32 f.val :=
    bcast_lead_apply (M := 16) bcast_S16_S1x16_1 (iotaInDim S16 32 0) f
  unfold planeV
  refine (bcast_rows_apply (N := 1048576) (M := 16) (by decide) bcast_S1x16_S1048576x16_0_1 _ n f).trans ?_
  show Scalar.select
      (IntOp.cmpi .slt (broadcastInDim S1x16 ![1] bcast_S16_S1x16_1 (iotaInDim S16 32 0) (ix2 0 f)) 0#32)
      (IntOp.addi (broadcastInDim S1x16 ![1] bcast_S16_S1x16_1 (iotaInDim S16 32 0) (ix2 0 f)) 16#32)
      (broadcastInDim S1x16 ![1] bcast_S16_S1x16_1 (iotaInDim S16 32 0) (ix2 0 f)) = _
  rw [hX]
  exact select_neg_fix _ _ (by rw [BitVec.toNat_ofNat]; have := f.isLt; omega)

/-- A wrapped position below 2 ^ 31 passes the negative-index fix-up unchanged. -/
theorem fixV_apply (w : IVec S1048576x16 32) (i : S1048576x16.Idx) (h : (w i).toNat < 2 ^ 31) : fixV w i = w i :=
  select_neg_fix (w i) 1024#32 h

/-- The gather at point `n`, plane `f`, when the row and column words there are the positions `R` and `C`:
    the pixel `(f, R, C)`. -/
theorem gatV_apply {α : Type} (img : S16x1024x1024.Idx → α) (r c : IVec S1048576x16 32) (n : Fin 1048576) (f : Fin 16)
    (R C : Fin 1024) (hr : (r (ix2 n f)).toNat = R.val) (hc : (c (ix2 n f)).toNat = C.val) :
    gatV img r c (ix2 n f) = img (ix3 f R C) := by
  have hR := R.isLt
  have hC := C.isLt
  have hf := f.isLt
  have e0 : concatenate S1048576x16x3 2
        [⟨S1048576x16x1, unitV planeV⟩, ⟨S1048576x16x1, unitV (fixV r)⟩, ⟨S1048576x16x1, unitV (fixV c)⟩]
        concatenates_S1048576x16x1_S1048576x16x1_S1048576x16x1_S1048576x16x3_d2 (ix3 n f 0) = BitVec.ofNat 32 f.val :=
    (concat3_unit_apply_zero (N := 1048576) (M := 16) _ _ _ _ n f).trans
      ((bcast_unit_apply (B := 1048576) (S := 16) _ _ n f).trans (planeV_apply n f))
  have e1 : concatenate S1048576x16x3 2
        [⟨S1048576x16x1, unitV planeV⟩, ⟨S1048576x16x1, unitV (fixV r)⟩, ⟨S1048576x16x1, unitV (fixV c)⟩]
        concatenates_S1048576x16x1_S1048576x16x1_S1048576x16x1_S1048576x16x3_d2 (ix3 n f 1) = r (ix2 n f) :=
    (concat3_unit_apply_one (N := 1048576) (M := 16) _ _ _ _ n f).trans
      ((bcast_unit_apply (B := 1048576) (S := 16) _ _ n f).trans (fixV_apply r _ (by omega)))
  have e2 : concatenate S1048576x16x3 2
        [⟨S1048576x16x1, unitV planeV⟩, ⟨S1048576x16x1, unitV (fixV r)⟩, ⟨S1048576x16x1, unitV (fixV c)⟩]
        concatenates_S1048576x16x1_S1048576x16x1_S1048576x16x1_S1048576x16x3_d2 (ix3 n f 2) = c (ix2 n f) :=
    (concat3_unit_apply_two (N := 1048576) (M := 16) _ _ _ _ n f).trans
      ((bcast_unit_apply (B := 1048576) (S := 16) _ _ n f).trans (fixV_apply c _ (by omega)))
  have t0 : (BitVec.ofNat 32 f.val).toNat = f.val := by rw [BitVec.toNat_ofNat]; omega
  refine (gather_three_of_lt (A := 16) (B := 1024) (C := 1024) (N := 1048576) (M := 16) (by norm_num) (by norm_num)
    (by norm_num) gather_S16x1024x1024_S1048576x16x3_S1048576x16_n_012_n_n_012_2_111 rfl rfl rfl rfl rfl img _ n f
    (by rw [e0, t0]; exact hf) (by rw [e1, hr]; exact hR) (by rw [e2, hc]; exact hC)).trans ?_
  congr 1
  funext a
  match a with
  | ⟨0, _⟩ => exact Fin.ext ((congrArg BitVec.toNat e0).trans t0)
  | ⟨1, _⟩ => exact Fin.ext ((congrArg BitVec.toNat e1).trans hr)
  | ⟨2, _⟩ => exact Fin.ext ((congrArg BitVec.toNat e2).trans hc)

/-- Where a shifted coordinate array reads `shift c`, its floor reads the cell of `c` … -/
theorem floor_at (v : FVec Ideal S1048576x16 .f32) (i : S1048576x16.Idx) (c : EReal) (h : v i = shift c) :
    Host.floor v i = cellF c := by
  show Ideal.liftRound Int.floor (v i) = _
  rw [h]
  rfl

/-- … its fractional part the weight of `c` … -/
theorem wt_at (v : FVec Ideal S1048576x16 .f32) (i : S1048576x16.Idx) (c : EReal) (h : v i = shift c) :
    subf v (Host.floor v) i = wt c := by
  show v i - Ideal.liftRound Int.floor (v i) = _
  rw [h]
  rfl

/-- … the floor's word the cell's word … -/
theorem cell_at (v : FVec Ideal S1048576x16 .f32) (i : S1048576x16.Idx) (c : EReal) (h : v i = shift c) :
    fptosi 32 (Host.floor v) i = cell c := by
  show Ideal.fptosi 32 (Ideal.liftRound Int.floor (v i)) = _
  rw [h]
  rfl

/-- … the wrapped word the position `p0 c` … -/
theorem w0_at (v : FVec Ideal S1048576x16 .f32) (i : S1048576x16.Idx) (c : EReal) (h : v i = shift c) :
    (jmodV (fptosi 32 (Host.floor v)) (constantI S_ 32 1024#32) i).toNat = (p0 c).val := by
  rw [jmodV_apply, jmod_toNat, cell_at v i c h]
  rfl

/-- … and the wrapped successor the position `p1 c`. -/
theorem w1_at (v : FVec Ideal S1048576x16 .f32) (i : S1048576x16.Idx) (c : EReal) (h : v i = shift c) :
    (jmodV (addi (fptosi 32 (Host.floor v)) (splat (constantI S_ 32 1#32))) (constantI S_ 32 1024#32) i).toNat
      = (p1 c).val := by
  rw [jmodV_apply, jmod_toNat]
  show (fptosi 32 (Host.floor v) i + 1#32).toNat % 1024 = _
  rw [cell_at v i c h]
  rfl

/-- THE REFERENCE'S VALUE AT A POINT AND A PLANE: the specification's two nested interpolations of the four pixels
    around the shifted coordinate pair, in that plane. -/
theorem refOut_apply (img : FVec Ideal S16x1024x1024 .f32) (coords : FVec Ideal S1048576x16x2 .f32)
    (n : Fin 1048576) (f : Fin 16) :
    refOut (F := Ideal) img coords (ix2 n f)
      = refVal (fun r c => img (ix3 f r c)) (coords (ix3 n f 0)) (coords (ix3 n f 1)) := by
  have hx := xsV_apply coords n f
  have hy := ysV_apply coords n f
  have g00 := gatV_apply img _ _ n f _ _ (w0_at _ _ _ hy) (w0_at _ _ _ hx)
  have g01 := gatV_apply img _ _ n f _ _ (w0_at _ _ _ hy) (w1_at _ _ _ hx)
  have g10 := gatV_apply img _ _ n f _ _ (w1_at _ _ _ hy) (w0_at _ _ _ hx)
  have g11 := gatV_apply img _ _ n f _ _ (w1_at _ _ _ hy) (w1_at _ _ _ hx)
  have wx := wt_at _ _ _ hx
  have wy := wt_at _ _ _ hy
  unfold refOut refVal
  simp only [addf_apply, mulf_apply, subf_apply] at wx wy ⊢
  rw [g00, g01, g10, g11, wx, wy]

/-- The reference's whole result is the specification's array function. -/
theorem refOut_eq_RefG (img : FVec Ideal S16x1024x1024 .f32) (coords : FVec Ideal S1048576x16x2 .f32) :
    refOut (F := Ideal) img coords = RefG img coords := by
  funext i
  rw [eq_ix2 i]
  exact refOut_apply img coords (i 0) (i 1)

end AtIdeal

end Cert.ReferenceIdeal.Run

end
-- ==== Proof.LibNary3.lean ====
/-
  A host operation over a LITERAL family of THREE references (a concatenate of three operands): its result with each
  operand's contents at its own reference, so that reading a line of host operations back goes on into the three
  operands. (Under the binder of the general form the reference `![x, a, b] k` is no literal and no further fact about
  a reference applies to it.) Two forms, differing only in how the result reference is written.
-/
import Idealize.ShloMosaic.Lib.StableHlo.Run

namespace Idealize.ShloMosaic.StableHlo

variable {τ : Topo} {sig : RefSig} {Val : EltTy → Type}
variable {x a b y : Ref sig .tc}

/-- The result of a three-operand operation at its own result buffer: the function of the three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference written un-indexed. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.RefRead.lean ====
/-
  The reference program's run read at its result and at its two arguments.

  @main's 231 host operations are read in ten stretches, cut where few buffers are still needed: the shifted
  coordinates with their cells and weights; the four wrapped positions (the cell and the next cell along x, the same
  along y), each one call of the remainder function; the three index words of the first gather; then, three times, a
  gather of neighbouring pixels followed by the index words of the next gather; and last the fourth gather with the
  three interpolations. (A gather's three index words are set side by side by the operation just before it; each cut
  falls in front of that operation, so that it reads its three operands from the stretch's entry contents.) A stretch
  is read from ANY contents: each buffer it hands on holds its stage's function of the contents of the buffers the
  stretch reads, and every other buffer that a later stretch reads is as it was. (The plane numbers' row is written
  by the stretch of the first index words and read by the next three, so those three are read under the hypothesis
  that the row's buffer holds it.) The fold of all the operations is the stretches' folds one inside the other; read
  at the result buffer and rewritten stretch by stretch from the last to the first it is the dataflow `refOut` of the
  contents of the two argument buffers. No operation writes an argument buffer. Hence every weakly fair execution of
  @main ends with the result buffer at the specification's array function of the two arguments' launch contents, the
  arguments unchanged.
-/
import proofs.«154458_j27539330302294_1_alg».proof.Proof.RefRun
import proofs.«154458_j27539330302294_1_alg».proof.Proof.RefTerm
import proofs.«154458_j27539330302294_1_alg».proof.Proof.LibNary3

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The fold of a line cut in two -/

/-- Two lines one after the other: the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => after_app l₁ l₂ (op.result V)

/-- The first `p + n` operations of a line: the `n` from position `p` on, over the first `p`. -/
theorem after_take_add (l : List (HloOp τ sig (Elt F))) (p n : Nat) (V : Valuation τ sig (Elt F)) :
    after (l.take (p + n)) V = after ((l.drop p).take n) (after (l.take p) V) := by
  rw [List.take_add, after_app]

/-- The `n` operations of @main from position `p` on. -/
abbrev stretch (p n : Nat) : List (HloOp τ sig (Elt F)) := (ops.drop p).take n

/-- @main's fold is the ten stretches' folds, one inside the other. -/
theorem run_cut (V : Valuation τ sig (Elt F)) :
    after ops V = after (stretch 220 11) (after (stretch 193 27) (after (stretch 166 27) (after (stretch 139 27)
      (after (stretch 112 27) (after (stretch 86 26) (after (stretch 63 23) (after (stretch 37 26)
      (after (stretch 14 23) (after (stretch 0 14) V))))))))) := by
  have e : after ops V = after (ops.take (0 + 14 + 23 + 26 + 23 + 26 + 27 + 27 + 27 + 27 + 11)) V := rfl
  rw [e]
  simp only [after_take_add, List.take_zero, after_nil]

/-- The gather of single pixels at three index words given side by side. -/
abbrev gat3 {α : Type} (img : S16x1024x1024.Idx → α) (a b c : IVec S1048576x16x1 32) : S1048576x16.Idx → α :=
  Host.gather gather_S16x1024x1024_S1048576x16x3_S1048576x16_n_012_n_n_012_2_111 img
    (concatenate S1048576x16x3 2 [⟨S1048576x16x1, a⟩, ⟨S1048576x16x1, b⟩, ⟨S1048576x16x1, c⟩]
      concatenates_S1048576x16x1_S1048576x16x1_S1048576x16x1_S1048576x16x3_d2)

/-! ## The stretches, each from any contents -/

/-- The plane numbers laid on a row. -/
abbrev planeRow : IVec S1x16 32 := broadcastInDim S1x16 ![1] bcast_S16_S1x16_1 (iotaInDim S16 32 0)

set_option maxRecDepth 16384 in
set_option maxHeartbeats 4000000 in
/-- Operations 0 to 13: the cells and the weights of the shifted coordinates, from the coordinate pairs. -/
theorem coords_stretch (W : Valuation τ sig (Elt F)) :
    after (stretch 0 14) W (main_v8 : DevRef τ sig)
        = Host.floor (xsV (F := F) (W (main_arg1 : DevRef τ sig)))
      ∧ after (stretch 0 14) W (main_v9 : DevRef τ sig)
        = Host.floor (ysV (F := F) (W (main_arg1 : DevRef τ sig)))
      ∧ after (stretch 0 14) W (main_v10 : DevRef τ sig)
        = subf (xsV (F := F) (W (main_arg1 : DevRef τ sig))) (Host.floor (xsV (F := F) (W (main_arg1 : DevRef τ sig))))
      ∧ after (stretch 0 14) W (main_v11 : DevRef τ sig)
        = subf (ysV (F := F) (W (main_arg1 : DevRef τ sig))) (Host.floor (ysV (F := F) (W (main_arg1 : DevRef τ sig))))
      ∧ after (stretch 0 14) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne']
  exact ⟨rfl, rfl, rfl, rfl⟩

set_option maxRecDepth 16384 in
set_option maxHeartbeats 4000000 in
/-- Operations 14 to 36: the x cell's word wrapped to the period. -/
theorem wrap_x0 (W : Valuation τ sig (Elt F)) :
    after (stretch 14 23) W (main_v13 : DevRef τ sig)
        = jmodV (fptosi 32 (W (main_v8 : DevRef τ sig))) (constantI S_ 32 1024#32)
      ∧ after (stretch 14 23) W (main_v8 : DevRef τ sig) = W (main_v8 : DevRef τ sig)
      ∧ after (stretch 14 23) W (main_v9 : DevRef τ sig) = W (main_v9 : DevRef τ sig)
      ∧ after (stretch 14 23) W (main_v10 : DevRef τ sig) = W (main_v10 : DevRef τ sig)
      ∧ after (stretch 14 23) W (main_v11 : DevRef τ sig) = W (main_v11 : DevRef τ sig)
      ∧ after (stretch 14 23) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne']
  rfl

set_option maxRecDepth 16384 in
set_option maxHeartbeats 4000000 in
/-- Operations 37 to 62: the next x cell's word wrapped to the period. -/
theorem wrap_x1 (W : Valuation τ sig (Elt F)) :
    after (stretch 37 26) W (main_v17 : DevRef τ sig)
        = jmodV (addi (fptosi 32 (W (main_v8 : DevRef τ sig))) (splat (constantI S_ 32 1#32))) (constantI S_ 32 1024#32)
      ∧ after (stretch 37 26) W (main_v9 : DevRef τ sig) = W (main_v9 : DevRef τ sig)
      ∧ after (stretch 37 26) W (main_v10 : DevRef τ sig) = W (main_v10 : DevRef τ sig)
      ∧ after (stretch 37 26) W (main_v11 : DevRef τ sig) = W (main_v11 : DevRef τ sig)
      ∧ after (stretch 37 26) W (main_v13 : DevRef τ sig) = W (main_v13 : DevRef τ sig)
      ∧ after (stretch 37 26) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne']
  rfl

set_option maxRecDepth 16384 in
set_option maxHeartbeats 4000000 in
/-- Operations 63 to 85: the y cell's word wrapped to the period. -/
theorem wrap_y0 (W : Valuation τ sig (Elt F)) :
    after (stretch 63 23) W (main_v19 : DevRef τ sig)
        = jmodV (fptosi 32 (W (main_v9 : DevRef τ sig))) (constantI S_ 32 1024#32)
      ∧ after (stretch 63 23) W (main_v9 : DevRef τ sig) = W (main_v9 : DevRef τ sig)
      ∧ after (stretch 63 23) W (main_v10 : DevRef τ sig) = W (main_v10 : DevRef τ sig)
      ∧ after (stretch 63 23) W (main_v11 : DevRef τ sig) = W (main_v11 : DevRef τ sig)
      ∧ after (stretch 63 23) W (main_v13 : DevRef τ sig) = W (main_v13 : DevRef τ sig)
      ∧ after (stretch 63 23) W (main_v17 : DevRef τ sig) = W (main_v17 : DevRef τ sig)
      ∧ after (stretch 63 23) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne']
  rfl

set_option maxRecDepth 16384 in
set_option maxHeartbeats 4000000 in
/-- Operations 86 to 111: the next y cell's word wrapped to the period. -/
theorem wrap_y1 (W : Valuation τ sig (Elt F)) :
    after (stretch 86 26) W (main_v23 : DevRef τ sig)
        = jmodV (addi (fptosi 32 (W (main_v9 : DevRef τ sig))) (splat (constantI S_ 32 1#32))) (constantI S_ 32 1024#32)
      ∧ after (stretch 86 26) W (main_v10 : DevRef τ sig) = W (main_v10 : DevRef τ sig)
      ∧ after (stretch 86 26) W (main_v11 : DevRef τ sig) = W (main_v11 : DevRef τ sig)
      ∧ after (stretch 86 26) W (main_v13 : DevRef τ sig) = W (main_v13 : DevRef τ sig)
      ∧ after (stretch 86 26) W (main_v17 : DevRef τ sig) = W (main_v17 : DevRef τ sig)
      ∧ after (stretch 86 26) W (main_v19 : DevRef τ sig) = W (main_v19 : DevRef τ sig)
      ∧ after (stretch 86 26) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne']
  rfl

set_option maxRecDepth 16384 in
set_option maxHeartbeats 4000000 in
/-- Operations 112 to 138: the plane numbers' row, and the three index words of the first gather, each with its
    trailing unit axis: the plane number, the cell's row and the cell's column after the negative-index fix-up. -/
theorem index00 (W : Valuation τ sig (Elt F)) :
    after (stretch 112 27) W (main_v25 : DevRef τ sig) = planeRow
      ∧ after (stretch 112 27) W (main_v42 : DevRef τ sig) = unitV planeV
      ∧ after (stretch 112 27) W (main_v43 : DevRef τ sig) = unitV (fixV (W (main_v19 : DevRef τ sig)))
      ∧ after (stretch 112 27) W (main_v44 : DevRef τ sig) = unitV (fixV (W (main_v13 : DevRef τ sig)))
      ∧ after (stretch 112 27) W (main_v10 : DevRef τ sig) = W (main_v10 : DevRef τ sig)
      ∧ after (stretch 112 27) W (main_v11 : DevRef τ sig) = W (main_v11 : DevRef τ sig)
      ∧ after (stretch 112 27) W (main_v13 : DevRef τ sig) = W (main_v13 : DevRef τ sig)
      ∧ after (stretch 112 27) W (main_v17 : DevRef τ sig) = W (main_v17 : DevRef τ sig)
      ∧ after (stretch 112 27) W (main_v19 : DevRef τ sig) = W (main_v19 : DevRef τ sig)
      ∧ after (stretch 112 27) W (main_v23 : DevRef τ sig) = W (main_v23 : DevRef τ sig)
      ∧ after (stretch 112 27) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne', planeV, fixV]

set_option maxRecDepth 16384 in
set_option maxHeartbeats 4000000 in
/-- Operations 139 to 165: the pixels at the first gather's three index words, and the index words of the second
    gather (the cell's row, the next column), the row of plane numbers being in its buffer. -/
theorem pixel00 (W : Valuation τ sig (Elt F)) (h : W (main_v25 : DevRef τ sig) = planeRow) :
    after (stretch 139 27) W (main_v46 : DevRef τ sig)
        = gat3 (W (main_arg0 : DevRef τ sig)) (W (main_v42 : DevRef τ sig)) (W (main_v43 : DevRef τ sig))
            (W (main_v44 : DevRef τ sig))
      ∧ after (stretch 139 27) W (main_v63 : DevRef τ sig) = unitV planeV
      ∧ after (stretch 139 27) W (main_v64 : DevRef τ sig) = unitV (fixV (W (main_v19 : DevRef τ sig)))
      ∧ after (stretch 139 27) W (main_v65 : DevRef τ sig) = unitV (fixV (W (main_v17 : DevRef τ sig)))
      ∧ after (stretch 139 27) W (main_v10 : DevRef τ sig) = W (main_v10 : DevRef τ sig)
      ∧ after (stretch 139 27) W (main_v11 : DevRef τ sig) = W (main_v11 : DevRef τ sig)
      ∧ after (stretch 139 27) W (main_v13 : DevRef τ sig) = W (main_v13 : DevRef τ sig)
      ∧ after (stretch 139 27) W (main_v17 : DevRef τ sig) = W (main_v17 : DevRef τ sig)
      ∧ after (stretch 139 27) W (main_v23 : DevRef τ sig) = W (main_v23 : DevRef τ sig)
      ∧ after (stretch 139 27) W (main_v25 : DevRef τ sig) = W (main_v25 : DevRef τ sig)
      ∧ after (stretch 139 27) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne', planeV, fixV, h]
  rfl

set_option maxRecDepth 16384 in
set_option maxHeartbeats 4000000 in
/-- Operations 166 to 192: the pixels at the second gather's three index words, and the index words of the third
    gather (the next row, the cell's column), the row of plane numbers being in its buffer. -/
theorem pixel01 (W : Valuation τ sig (Elt F)) (h : W (main_v25 : DevRef τ sig) = planeRow) :
    after (stretch 166 27) W (main_v67 : DevRef τ sig)
        = gat3 (W (main_arg0 : DevRef τ sig)) (W (main_v63 : DevRef τ sig)) (W (main_v64 : DevRef τ sig))
            (W (main_v65 : DevRef τ sig))
      ∧ after (stretch 166 27) W (main_v84 : DevRef τ sig) = unitV planeV
      ∧ after (stretch 166 27) W (main_v85 : DevRef τ sig) = unitV (fixV (W (main_v23 : DevRef τ sig)))
      ∧ after (stretch 166 27) W (main_v86 : DevRef τ sig) = unitV (fixV (W (main_v13 : DevRef τ sig)))
      ∧ after (stretch 166 27) W (main_v10 : DevRef τ sig) = W (main_v10 : DevRef τ sig)
      ∧ after (stretch 166 27) W (main_v11 : DevRef τ sig) = W (main_v11 : DevRef τ sig)
      ∧ after (stretch 166 27) W (main_v17 : DevRef τ sig) = W (main_v17 : DevRef τ sig)
      ∧ after (stretch 166 27) W (main_v23 : DevRef τ sig) = W (main_v23 : DevRef τ sig)
      ∧ after (stretch 166 27) W (main_v25 : DevRef τ sig) = W (main_v25 : DevRef τ sig)
      ∧ after (stretch 166 27) W (main_v46 : DevRef τ sig) = W (main_v46 : DevRef τ sig)
      ∧ after (stretch 166 27) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne', planeV, fixV, h]
  rfl

set_option maxRecDepth 16384 in
set_option maxHeartbeats 4000000 in
/-- Operations 193 to 219: the pixels at the third gather's three index words, and the index words of the fourth
    gather (the next row, the next column), the row of plane numbers being in its buffer. -/
theorem pixel10 (W : Valuation τ sig (Elt F)) (h : W (main_v25 : DevRef τ sig) = planeRow) :
    after (stretch 193 27) W (main_v88 : DevRef τ sig)
        = gat3 (W (main_arg0 : DevRef τ sig)) (W (main_v84 : DevRef τ sig)) (W (main_v85 : DevRef τ sig))
            (W (main_v86 : DevRef τ sig))
      ∧ after (stretch 193 27) W (main_v105 : DevRef τ sig) = unitV planeV
      ∧ after (stretch 193 27) W (main_v106 : DevRef τ sig) = unitV (fixV (W (main_v23 : DevRef τ sig)))
      ∧ after (stretch 193 27) W (main_v107 : DevRef τ sig) = unitV (fixV (W (main_v17 : DevRef τ sig)))
      ∧ after (stretch 193 27) W (main_v10 : DevRef τ sig) = W (main_v10 : DevRef τ sig)
      ∧ after (stretch 193 27) W (main_v11 : DevRef τ sig) = W (main_v11 : DevRef τ sig)
      ∧ after (stretch 193 27) W (main_v46 : DevRef τ sig) = W (main_v46 : DevRef τ sig)
      ∧ after (stretch 193 27) W (main_v67 : DevRef τ sig) = W (main_v67 : DevRef τ sig)
      ∧ after (stretch 193 27) W (main_arg0 : DevRef τ sig) = W (main_arg0 : DevRef τ sig) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne', planeV, fixV, h]
  rfl

set_option maxRecDepth 16384 in
set_option maxHeartbeats 4000000 in
/-- Operations 220 to 230: the pixels at the fourth gather's three index words, then the interpolation along x in
    each of the two rows and the interpolation along y. -/
theorem pixel11_blend (W : Valuation τ sig (Elt F)) :
    after (stretch 220 11) W (main_v118 : DevRef τ sig)
      = addf (addf (W (main_v46 : DevRef τ sig))
            (mulf (W (main_v10 : DevRef τ sig)) (subf (W (main_v67 : DevRef τ sig)) (W (main_v46 : DevRef τ sig)))))
          (mulf (W (main_v11 : DevRef τ sig))
            (subf
              (addf (W (main_v88 : DevRef τ sig))
                (mulf (W (main_v10 : DevRef τ sig))
                  (subf
                    (gat3 (W (main_arg0 : DevRef τ sig)) (W (main_v105 : DevRef τ sig)) (W (main_v106 : DevRef τ sig))
                      (W (main_v107 : DevRef τ sig)))
                    (W (main_v88 : DevRef τ sig)))))
              (addf (W (main_v46 : DevRef τ sig))
                (mulf (W (main_v10 : DevRef τ sig))
                  (subf (W (main_v67 : DevRef τ sig)) (W (main_v46 : DevRef τ sig))))))) := by
  simp (disch := decide) only [stretch, ops, List.drop_succ_cons, List.drop_zero, List.take_succ_cons, List.take_zero,
    after_cons, after_nil, and_true,
    nullary_result', unary_result', binary_result', ternary_result', reshape_result', nary3_result',
    nullary_result_ne', unary_result_ne', binary_result_ne', ternary_result_ne', reshape_result_ne', nary_result_ne']
  rfl

/-! ## The whole line -/

/-- The fold at the result buffer is `refOut` of the two arguments' contents: the last stretch's blend of the four
    gathers, each gather at the index words the stretch before it left, each index word the fix-up of a wrapped
    position, each wrapped position of a cell the first stretch left, and every buffer carried unchanged across the
    stretches that do not write it. -/
theorem out_eq (V : Valuation τ sig (Elt F)) :
    after ops V (main_v118 : DevRef τ sig)
      = refOut (F := F) (V (main_arg0 : DevRef τ sig)) (V (main_arg1 : DevRef τ sig)) := by
  rw [run_cut]
  obtain ⟨a8, a9, a10, a11, a0⟩ := coords_stretch V
  generalize after (stretch 0 14) V = W1 at a8 a9 a10 a11 a0 ⊢
  obtain ⟨b13, b8, b9, b10, b11, b0⟩ := wrap_x0 W1
  generalize after (stretch 14 23) W1 = W2 at b13 b8 b9 b10 b11 b0 ⊢
  obtain ⟨c17, c9, c10, c11, c13, c0⟩ := wrap_x1 W2
  generalize after (stretch 37 26) W2 = W3 at c17 c9 c10 c11 c13 c0 ⊢
  obtain ⟨d19, d9, d10, d11, d13, d17, d0⟩ := wrap_y0 W3
  generalize after (stretch 63 23) W3 = W4 at d19 d9 d10 d11 d13 d17 d0 ⊢
  obtain ⟨e23, e10, e11, e13, e17, e19, e0⟩ := wrap_y1 W4
  generalize after (stretch 86 26) W4 = W5 at e23 e10 e11 e13 e17 e19 e0 ⊢
  obtain ⟨f25, f42, f43, f44, f10, f11, f13, f17, f19, f23, f0⟩ := index00 W5
  generalize after (stretch 112 27) W5 = W6 at f25 f42 f43 f44 f10 f11 f13 f17 f19 f23 f0 ⊢
  obtain ⟨g46, g63, g64, g65, g10, g11, g13, g17, g23, g25, g0⟩ := pixel00 W6 f25
  generalize after (stretch 139 27) W6 = W7 at g46 g63 g64 g65 g10 g11 g13 g17 g23 g25 g0 ⊢
  obtain ⟨h67, h84, h85, h86, h10, h11, h17, h23, h25, h46, h0⟩ := pixel01 W7 (g25.trans f25)
  generalize after (stretch 166 27) W7 = W8 at h67 h84 h85 h86 h10 h11 h17 h23 h25 h46 h0 ⊢
  obtain ⟨i88, i105, i106, i107, i10, i11, i46, i67, i0⟩ := pixel10 W8 (h25.trans (g25.trans f25))
  generalize after (stretch 193 27) W8 = W9 at i88 i105 i106 i107 i10 i11 i46 i67 i0 ⊢
  rw [pixel11_blend W9]
  simp only [i88, i105, i106, i107, i10, i11, i46, i67, i0, h67, h84, h85, h86, h10, h11, h17, h23, h46, h0,
    g46, g63, g64, g65, g10, g11, g13, g17, g23, g0, f42, f43, f44, f10, f11, f13, f17, f19, f23, f0,
    e23, e10, e11, e13, e17, e19, e0, d19, d9, d10, d11, d13, d17, d0, c17, c9, c10, c11, c13, c0,
    b13, b8, b9, b10, b11, b0, a8, a9, a10, a11, a0, refOut, gatV]

set_option maxRecDepth 16384 in
set_option maxHeartbeats 4000000 in
/-- No operation writes the first argument's buffer. -/
theorem arg0_eq (V : Valuation τ sig (Elt F)) :
    after ops V (main_arg0 : DevRef τ sig) = V (main_arg0 : DevRef τ sig) := by
  after_results_simp

set_option maxRecDepth 16384 in
set_option maxHeartbeats 4000000 in
/-- No operation writes the second argument's buffer. -/
theorem arg1_eq (V : Valuation τ sig (Elt F)) :
    after ops V (main_arg1 : DevRef τ sig) = V (main_arg1 : DevRef τ sig) := by
  after_results_simp

/-- From any memory with zero counters every weakly fair execution of @main on the TensorCores terminates, with the
    result buffer at the specification's array function of the two arguments' contents at launch and the two
    arguments as they were. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v118)
            = Cert.Bilinear.RefG (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1) :=
  (θ_run defs _ _).mono
    (fun _ h c => ⟨((h c main_v118).trans (out_eq _)).trans (refOut_eq_RefG _ _), (h c main_arg0).trans (arg0_eq _),
      (h c main_arg1).trans (arg1_eq _)⟩)
    (run_main (F := Ideal) m ρ)

end Cert.ReferenceIdeal.Run

end
-- ==== Proof.Algebra.lean ====
/-
  Over the reals the kernel's and the reference's blends of four pixels are one bilinear form.
-/
import proofs.«154458_j27539330302294_1_alg».proof.Proof.Spec

noncomputable section

namespace Cert.Bilinear

open Idealize.ShloMosaic Idealize.ShloMosaic.ValueIdx

/-- The literal one is the real number one. -/
theorem one_eq : one = ((1 : ℝ) : EReal) := by
  unfold one
  simp [Ideal.ofBits, Ideal.ieee, -EReal.coe_mul]; norm_num

/-- The literal one half is a real number. -/
theorem half_isReal : IsReal half := by
  refine ⟨(1 / 2 : ℝ), ?_⟩
  unfold half
  simp [Ideal.ofBits, Ideal.ieee, -EReal.coe_mul]; norm_num

/-- The fractional part of a shifted real coordinate is a real number. -/
theorem wt_isReal (c : EReal) (hc : IsReal c) : IsReal (wt c) := by
  obtain ⟨r, rfl⟩ := hc
  obtain ⟨h, hh⟩ := half_isReal
  refine ⟨(r - h) - ((Int.floor (r - h) : ℤ) : ℝ), ?_⟩
  unfold wt cellF shift
  rw [hh, ← EReal.coe_sub, Ideal.liftRound_coe, ← EReal.coe_sub]

/-- With real coordinates and real pixels the two blends agree. -/
theorem kerVal_eq_refVal (px : Fin 1024 → Fin 1024 → EReal) (cx cy : EReal)
    (hpx : ∀ r c, IsReal (px r c)) (hx : IsReal cx) (hy : IsReal cy) : kerVal px cx cy = refVal px cx cy := by
  obtain ⟨u, hu⟩ := wt_isReal cx hx
  obtain ⟨v, hv⟩ := wt_isReal cy hy
  obtain ⟨a, ha⟩ := hpx (p0 cy) (p0 cx)
  obtain ⟨b, hb⟩ := hpx (p0 cy) (p1 cx)
  obtain ⟨c, hc⟩ := hpx (p1 cy) (p0 cx)
  obtain ⟨d, hd⟩ := hpx (p1 cy) (p1 cx)
  unfold kerVal refVal
  rw [hu, hv, ha, hb, hc, hd, one_eq]
  simp only [← EReal.coe_add, ← EReal.coe_sub, ← EReal.coe_mul]
  congr 1
  ring

/-- Hence the two whole-array functions agree on real arrays. -/
theorem KerG_eq_RefG (img : SImg.Idx → EReal) (coords : SCoords.Idx → EReal)
    (himg : ∀ j, IsReal (img j)) (hco : ∀ j, IsReal (coords j)) : KerG img coords = RefG img coords := by
  funext i
  exact kerVal_eq_refVal _ _ _ (fun r c => himg _) (hco _) (hco _)

end Cert.Bilinear

end
-- ==== Proof.Finite.lean ====
/-
  The precondition says every entry of both argument arrays is smaller in absolute value than plus infinity:
  every entry is a real number.
-/
import proofs.«154458_j27539330302294_1_alg».proof.Pre_finite_inputs
import proofs.«154458_j27539330302294_1_alg».proof.Proof.Gen.Pre_finite_inputs
import proofs.«154458_j27539330302294_1_alg».proof.Proof.Spec
import Idealize.ShloMosaic.Lib.ReduceAll

noncomputable section

namespace Cert.Bilinear

open Idealize.ShloMosaic Idealize.ShloMosaic.ValueIdx

/-- The shape of rank zero has exactly one index. -/
instance subsingleton_scalar_idx : Subsingleton Cert.Pre_finite_inputs.S_.Idx :=
  ⟨fun a b => funext fun d => d.elim0⟩

/-- An extended real whose absolute value is strictly below plus infinity is a real number. -/
theorem isReal_of_abs_lt_inf (x : EReal)
    (h : Ideal.cmp .olt (max x (-x)) (Ideal.ofBits .f32 0x7F800000#32) = 1#1) : IsReal x := by
  -- the pattern with all-ones exponent and zero fraction denotes plus infinity
  have htop : Ideal.ofBits .f32 0x7F800000#32 = ⊤ := rfl
  rw [htop] at h
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  induction x using EReal.rec with
  | bot => simp at hlt
  | coe r => exact ⟨r, rfl⟩
  | top => simp at hlt

/-- Where the precondition's predicate is all ones, both arrays hold real numbers only. -/
theorem real_of_pre (a0 : FVec Ideal Cert.Pre_finite_inputs.S16x1024x1024 .f32) (a1 : FVec Ideal Cert.Pre_finite_inputs.S1048576x16x2 .f32)
    (hpre : Cert.Pre_finite_inputs.fn (F := Ideal) a0 a1 = (fun _ => 1#1)) :
    (∀ j, IsReal (a0 j)) ∧ (∀ j, IsReal (a1 j)) := by
  have h := congrFun hpre ValueIdx.ix0
  dsimp only [Cert.Pre_finite_inputs.fn] at h
  obtain ⟨h0, h1⟩ := IntOp.andi_eq_one.1 h
  refine ⟨fun j => ?_, fun j => ?_⟩
  · exact isReal_of_abs_lt_inf (a0 j) (Host.reduce_andi_all _ _ _ _ _ h0 j)
  · exact isReal_of_abs_lt_inf (a1 j) (Host.reduce_andi_all _ _ _ _ _ h1 j)

end Cert.Bilinear

end
-- ==== Proof.lean ====
/-
  Bilinear sampling of sixteen periodic image planes: a kernel that blends by one-hot vectors and a matrix
  product against a reference that gathers the four neighbouring pixels and interpolates twice.

  Both programs shift each coordinate by one half, split it into its integer cell and its fractional weight, and
  wrap the cell and its successor to the period 1024 (the kernel by masking the low ten bits of the 32-bit cell,
  the reference by the floor-modulo: the same position, since 1024 divides 2 ^ 32). The kernel's row-blend vector
  has the weight (1 - wy) at the cell's row and wy at the next, so its product with the plane is the y-blend of two
  rows in every column; the column-blend vector picks and blends two columns. Over real inputs that is the
  reference's nested interpolation i0 + wy (i1 - i0), with i = a + wx (b - a) along x: one bilinear form.
  The precondition (all inputs finite) is what makes every value a real number, where the two arrangements of
  the form agree.

  The kernel's run is read block by block (each of the 4096 grid points writes 256 rows of the result) and the
  reference's run operation by operation; the three frames are the runs with the values dropped.
-/
import proofs.«154458_j27539330302294_1_alg».proof.Defs
import proofs.«154458_j27539330302294_1_alg».proof.Proof.Gen.Kernel
import proofs.«154458_j27539330302294_1_alg».proof.Proof.Gen.Kernel.Skeleton
import proofs.«154458_j27539330302294_1_alg».proof.Proof.Gen.Kernel.Launch
import proofs.«154458_j27539330302294_1_alg».proof.Proof.Gen.Kernel.Points
import proofs.«154458_j27539330302294_1_alg».proof.Proof.Gen.Kernel.Frame
import proofs.«154458_j27539330302294_1_alg».proof.Proof.Gen.KernelIdeal
import proofs.«154458_j27539330302294_1_alg».proof.Proof.Gen.KernelIdeal.Skeleton
import proofs.«154458_j27539330302294_1_alg».proof.Proof.Gen.KernelIdeal.Launch
import proofs.«154458_j27539330302294_1_alg».proof.Proof.Gen.KernelIdeal.Points
import proofs.«154458_j27539330302294_1_alg».proof.Proof.Gen.KernelIdeal.Frame
import proofs.«154458_j27539330302294_1_alg».proof.Proof.Gen.KernelIdeal.Value
import proofs.«154458_j27539330302294_1_alg».proof.Proof.Gen.ReferenceIdeal
import proofs.«154458_j27539330302294_1_alg».proof.Proof.Gen.Pre_finite_inputs
import proofs.«154458_j27539330302294_1_alg».proof.Proof.KerRun
import proofs.«154458_j27539330302294_1_alg».proof.Proof.RefRead
import proofs.«154458_j27539330302294_1_alg».proof.Proof.Algebra
import proofs.«154458_j27539330302294_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Run.run m ρ)

/-- Nothing was rewritten between the kernel and its idealization. -/
theorem preserves : Cert.preserves_Kernel_KernelIdeal := trivial

/-- From memories that agree on the arguments the kernel's result array ends at its one-hot blend and the
    reference's at its nested interpolation of the same pixels; on finite inputs these are one function. -/
theorem algebraic : Cert.algebraic_KernelIdeal_ReferenceIdeal := by
  intro m ρ m' ρ' hpre hagree
  refine ⟨fun c => Cert.Bilinear.RefG (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Sample.run m ρ)
    obtain ⟨h0, h1⟩ := Cert.Bilinear.real_of_pre _ _ (hpre c)
    exact Cert.Bilinear.KerG_eq_RefG _ _ h0 h1
  · refine (θ_run Cert.ReferenceIdeal.defs _ _).mono (fun _ h c => ⟨(h c).1.trans ?_, (h c).2⟩)
      (Cert.ReferenceIdeal.Run.run m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
